-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S100000x512 : Shape := ⟨2, ![100000, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x512 .f32) (main_arg1 : IVec S512 32) (main_arg2 : FVec F S100000x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg1 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 100000#32
  let main_v13 : IVec S512 32 := broadcastInDim S512 ![] bcast_S_S512 main_c_4
  let main_v14 : IVec S512 1 := cmpi .slt main_arg1 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S512x512 : Shape := ⟨2, ![512, 512]⟩
abbrev S512 : Shape := ⟨1, ![512]⟩
abbrev S100000x512 : Shape := ⟨2, ![100000, 512]⟩
abbrev S512x1 : Shape := ⟨2, ![512, 1]⟩
abbrev S2x512x1 : Shape := ⟨3, ![2, 512, 1]⟩
abbrev S2000x512 : Shape := ⟨2, ![2000, 512]⟩
abbrev S1x512x1 : Shape := ⟨3, ![1, 512, 1]⟩
abbrev S2000 : Shape := ⟨1, ![2000]⟩
abbrev S2000x1 : Shape := ⟨2, ![2000, 1]⟩
abbrev S512x2000 : Shape := ⟨2, ![512, 2000]⟩
abbrev S1x2000 : Shape := ⟨2, ![1, 2000]⟩
abbrev S_ : Shape := ⟨0, ![]⟩

abbrev nBuf : Space → Nat
  | .hbm => 31
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x1, .i32⟩
  | .hbm, ⟨4, _⟩ => ⟨S2x512x1, .f32⟩
  | .hbm, ⟨5, _⟩ => ⟨S2x512x1, .f32⟩
  | .hbm, ⟨6, _⟩ => ⟨S1x512x1, .f32⟩
  | .hbm, ⟨7, _⟩ => ⟨S512x1, .f32⟩
  | .hbm, ⟨8, _⟩ => ⟨S1x512x1, .f32⟩
  | .hbm, ⟨9, _⟩ => ⟨S512x1, .f32⟩
  | .hbm, ⟨10, _⟩ => ⟨S512x1, .f32⟩
  | .hbm, ⟨11, _⟩ => ⟨S512x1, .f32⟩
  | .hbm, ⟨12, _⟩ => ⟨S512x1, .i1⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S1x512x1, .f32⟩
  | .hbm, ⟨21, _⟩ => ⟨S512x1, .f32⟩
  | .hbm, ⟨22, _⟩ => ⟨S1x512x1, .f32⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x512, .f32⟩
  | .local _ .vmem, ⟨1, _⟩ => ⟨S2000x512, .f32⟩
  | .local _ .vmem, ⟨2, _⟩ => ⟨S2000x512, .f32⟩
  | .local _ .vmem, ⟨3, _⟩ => ⟨S512x1, .i32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S512x512, .bf16⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v95 : BitVec 1 := Scalar.cmpi .eq arg1 c24_i32
  let v96 : BitVec 32 := Scalar.extui v95
  let c0_i32_41 : BitVec 32 := 0#32
  let v97 : BitVec 1 := Scalar.cmpi .ne v96 c0_i32_41
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S512_S512x1 : S512.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  broadcasts_S512x1_S512x512 : S512x1.Broadcasts S512x512
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  iota_S1x2000_d1_w32 : S1x2000.Iotas .tc 32 [1]
  broadcasts_S1x2000_S512x2000 : S1x2000.Broadcasts S512x2000
  broadcasts_S512x1_S512x2000 : S512x1.Broadcasts S512x2000
  reduces_S512x2000_S512 : S512x2000.Reduces [1] S512
  shapeCasts_S512x1_S1x512x1 : S512x1.ShapeCasts S1x512x1
  inb_S1x512x1_S1x512x1_0_0_0 : ∀ a, (![0, 0, 0] : Fin 3 → Nat) a + S1x512x1.size a ≤ S1x512x1.size a
  h_S1x512x1 : 0 < S1x512x1.numel
  slices_S2x512x1_S1x512x1_0_0_0 : S2x512x1.Slices ![0, 0, 0] S1x512x1
  shapeCasts_S1x512x1_S512x1 : S1x512x1.ShapeCasts S512x1
  slices_S2x512x1_S1x512x1_1_0_0 : S2x512x1.Slices ![1, 0, 0] S1x512x1
  shapeCasts_S512x1_S512 : S512x1.ShapeCasts S512
  reducesTo_S512_S_d0 : S512.ReducesTo [0] S_
  h_S_ : 0 < S_.numel
  dot_S512x512_S2000x512_S512x2000_1_1_0_0_n_n_wf : DotDims.WF S512x512 S2000x512 S512x2000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x512x1.size a
  hwx0_4 : ∀ i : grid0.Coords, EltTy.bits .f32 = 32 ∨ (Rect.block (s := S2x512x1) S1x512x1.size (cc0_transform_4 i) (hinb0_4 i)).WholeWords (EltTy.packing .f32)

variable [Facts₀]

def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x512 : Shape := ⟨2, ![512, 512]⟩
abbrev S512 : Shape := ⟨1, ![512]⟩
abbrev S100000x512 : Shape := ⟨2, ![100000, 512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S100000x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S_, .f32⟩
  | .hbm, ⟨26, _⟩ => ⟨S512x100000, .f32⟩
  | .hbm, ⟨27, _⟩ => ⟨S512x100000, .f32⟩
  | .hbm, ⟨28, _⟩ => ⟨S_, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S512x100000, .f32⟩
  | .hbm, ⟨38, _⟩ => ⟨S512x100000, .f32⟩
  | .hbm, ⟨39, _⟩ => ⟨S512x100000, .f32⟩
  | .hbm, ⟨40, _⟩ => ⟨S_, .f32⟩
  | .hbm, ⟨41, _⟩ => ⟨S512x100000, .f32⟩
  | .hbm, ⟨42, _⟩ => ⟨S512x100000, .i1⟩
  | .hbm, ⟨43, _⟩ => ⟨S_, .f32⟩
  | .hbm, ⟨44, _⟩ => ⟨S512x100000, .f32⟩
  | .hbm, ⟨45, _⟩ => ⟨S512x100000, .f32⟩
  | .hbm, ⟨46, _⟩ => ⟨S512x100000, .f32⟩
  | .hbm, ⟨47, _⟩ => ⟨S512x1, .i32⟩
  | .hbm, ⟨48, _⟩ => ⟨S1x100000, .i32⟩
  | .hbm, ⟨49, _⟩ => ⟨S512x100000, .i32⟩
  | .hbm, ⟨50, _⟩ => ⟨S512x100000, .i32⟩
  | .hbm, ⟨51, _⟩ => ⟨S512x100000, .i1⟩
  | .hbm, ⟨52, _⟩ => ⟨S512x100000, .f32⟩
  | .hbm, ⟨53, _⟩ => ⟨S_, .f32⟩
  | .hbm, ⟨54, _⟩ => ⟨S512x100000, .f32⟩
  | .hbm, ⟨55, _⟩ => ⟨S512x100000, .f32⟩
  | .hbm, ⟨56, _⟩ => ⟨S_, .f32⟩
  | .hbm, ⟨57, _⟩ => ⟨S512, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S512x1, .f32⟩
  | .hbm, ⟨62, _⟩ => ⟨S512x100000, .f32⟩
  | .hbm, ⟨63, _⟩ => ⟨S512x100000, .f32⟩
  | .hbm, ⟨64, _⟩ => ⟨S512x100000, .f32⟩
  | .hbm, ⟨65, _⟩ => ⟨S_, .f32⟩
  | .hbm, ⟨66, _⟩ => ⟨S512, .f32⟩
  | .hbm, ⟨67, _⟩ => ⟨S512x1, .f32⟩
  | .hbm, ⟨68, _⟩ => ⟨S512x1, .f32⟩
  | .hbm, ⟨69, _⟩ => ⟨S512x100000, .f32⟩
  | .hbm, ⟨70, _⟩ => ⟨S512x100000, .f32⟩
  | .hbm, ⟨71, _⟩ => ⟨S512x1, .i32⟩
  | .hbm, ⟨72, _⟩ => ⟨S_, .i32⟩
  | .hbm, ⟨73, _⟩ => ⟨S512x1, .i32⟩
  | .hbm, ⟨74, _⟩ => ⟨S512x1, .i1⟩
  | .hbm, ⟨75, _⟩ => ⟨S_, .i32⟩
  | .hbm, ⟨76, _⟩ => ⟨S512x1, .i32⟩
  | .hbm, ⟨77, _⟩ => ⟨S512x1, .i32⟩
  | .hbm, ⟨78, _⟩ => ⟨S512x1, .i32⟩
  | .hbm, ⟨79, _⟩ => ⟨S512x1x1, .i32⟩
  | .hbm, ⟨80, _⟩ => ⟨S1, .i32⟩
  | .hbm, ⟨81, _⟩ => ⟨S_, .i32⟩
  | .hbm, ⟨82, _⟩ => ⟨S512x1x1, .i32⟩
  | .hbm, ⟨83, _⟩ => ⟨S512x1x1, .i1⟩
  | .hbm, ⟨84, _⟩ => ⟨S1x1x1, .i32⟩
  | .hbm, ⟨85, _⟩ => ⟨S512x1x1, .i32⟩
  | .hbm, ⟨86, _⟩ => ⟨S512x1x1, .i1⟩
  | .hbm, ⟨87, _⟩ => ⟨S512x1x1, .i1⟩
  | .hbm, ⟨88, _⟩ => ⟨S_, .i1⟩
  | .hbm, ⟨89, _⟩ => ⟨S512x1, .i1⟩
  | .hbm, ⟨90, _⟩ => ⟨S512x1, .f32⟩
  | .hbm, ⟨91, _⟩ => ⟨S_, .f32⟩
  | .hbm, ⟨92, _⟩ => ⟨S512x1, .f32⟩
  | .hbm, ⟨93, _⟩ => ⟨S512x1, .f32⟩
  | .hbm, ⟨94, _⟩ => ⟨S512, .f32⟩
  | .hbm, ⟨95, _⟩ => ⟨S512, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_call4_cst : Ref sig .tc := ⟨.hbm, 56, rfl⟩
abbrev main_call4_v0 : Ref sig .tc := ⟨.hbm, 57, rfl⟩
abbrev main_call4_cst_0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_v5 : Ref sig .tc := ⟨.hbm, 63, rfl⟩
abbrev main_call4_v6 : Ref sig .tc := ⟨.hbm, 64, rfl⟩
abbrev main_call4_cst_1 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_v36 : Ref sig .tc := ⟨.hbm, 70, rfl⟩
abbrev main_v37 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_cst : Ref sig .tc := ⟨.hbm, 91, rfl⟩
abbrev main_call5_v14 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_10 : Ref sig .tc := ⟨.hbm, 96, rfl⟩
abbrev main_v41 : Ref sig .tc := ⟨.hbm, 97, rfl⟩
abbrev main_cst_11 : Ref sig .tc := ⟨.hbm, 98, rfl⟩
abbrev main_v42 : Ref sig .tc := ⟨.hbm, 99, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S100000x512_S512x100000_1_1_0_0_n_n_wf : DotDims.WF S512x512 S100000x512 S512x100000 [1] [1] [0] [0] [] []
  gather_S512x100000_S512x1x1_S512x1_n_1_0_0_1_2_11_wf : GatherDims.WF S512x100000 S512x1x1 S512x1 [] [1] [0] [1] [0] 2 ![1, 1]

variable [Facts₀]

def dot_S512x512_S100000x512_S512x100000_1_1_0_0_n_n : DotDims S512x512 S100000x512 S512x100000 where
  lhsContracting := [1]
  rhsContracting := [1]
  lhsNonContracting := [0]
  rhsNonContracting := [0]
  lhsBatch := []
  rhsBatch := []
  wf := dot_S512x512_S100000x512_S512x100000_1_1_0_0_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.Spec.lean ====
/-
  Margin softmax cross entropy over cosine logits: the two arrangements of one quantity.

  For a batch row `b` with cosine `C b c` against every class `c` and true class `L b`, the logit of class `c`
  is `scale · C b c`, except at the true class, where the cosine is first replaced by the cosine of the angle
  widened by the margin (`margin`). The loss of the row is `log Σ_c exp z_c − z_{L b}`, and the result is the mean
  over the 512 rows.

  * `refRow` / `refOut`: the direct arrangement — shift every logit by the row maximum, exponentiate, sum, take the
    logarithm, read the shifted log-probability at the true class, negate.
  * `acc` / `kerRow` / `kerOut`: the streamed arrangement — the 100000 classes are cut into 50 tiles of 2000, tiles
    0–24 and 25–49 forming two halves. Within a half a running maximum `m` of the PLAIN logits, a running sum `l` of
    `exp (z_c − m)` rescaled whenever the maximum moves, and a running true-class logit `t` are carried from tile to
    tile; the true class's term enters the sum as the plain term plus a correction. Each half ends with
    `m + log l`; the two halves are joined by `log (eᵃ + eᵇ) = max a b + log (1 + exp (−|a − b|))`.

  Everything is stated over the extended reals with the exact operations of the ideal float instance, so that
  each program's result can be read off as one of these terms; `ArcFace.Real` below restates the same two
  arrangements over ℝ for an arbitrary margin function and scale, which is where their equality is proved.
-/
import Idealize.ShloMosaic.PureOps.Ideal
import Mathlib.Algebra.BigOperators.Fin
import Mathlib.Analysis.SpecialFunctions.Log.Basic

noncomputable section

open scoped BigOperators

namespace ArcFace

open Idealize.ShloMosaic

/-! ## The constants, as the words both programs carry -/

/-- The floor under a row's length, the f32 nearest 1e-12. -/
def eps : EReal := Ideal.ofBits .f32 0x2B8CBCCC#32
/-- The logit scale, 64. -/
def scale : EReal := Ideal.ofBits .f32 0x42800000#32
/-- cos of the margin angle 0.5. -/
def cosM : EReal := Ideal.ofBits .f32 0x3F60A940#32
/-- sin of the margin angle 0.5. -/
def sinM : EReal := Ideal.ofBits .f32 0x3EF57744#32
/-- The threshold −cos 0.5 below which the widened angle would pass π. -/
def thr : EReal := Ideal.ofBits .f32 0xBF60A940#32
/-- sin 0.5 · 0.5, subtracted instead below the threshold. -/
def mm : EReal := Ideal.ofBits .f32 0x3E757744#32
/-- One. -/
def one : EReal := Ideal.ofBits .f32 0x3F800000#32
/-- The batch size 512, the divisor of the mean. -/
def batch : EReal := Ideal.ofBits .f32 0x44000000#32

/-! ## Cosines -/

/-- The Euclidean length of a row, floored at `eps`. -/
def len {n : ℕ} (v : Fin n → EReal) : EReal := max (Ideal.sqrt (∑ d, v d * v d)) eps

/-- A row divided by its floored length. -/
def unit {n : ℕ} (v : Fin n → EReal) (d : Fin n) : EReal := Ideal.div (v d) (len v)

/-- The cosine of batch row `b` against class row `c`: the inner product of the two normalised rows. -/
def cosine (X : Fin 512 → Fin 512 → EReal) (W : Fin 100000 → Fin 512 → EReal) (b : Fin 512) (c : Fin 100000) : EReal :=
  ∑ d, unit (X b) d * unit (W c) d

/-- The cosine of the angle widened by the margin: `cos (θ + 0.5) = cos θ · cos 0.5 − sin θ · sin 0.5` with
    `sin θ = √(max 0 (1 − cos² θ))` above the threshold, the linear continuation `cos θ − 0.5 · sin 0.5` below it. -/
def margin (t : EReal) : EReal :=
  if thr < t then t * cosM - Ideal.sqrt (max 0 (one - t * t)) * sinM else t - mm

variable (C : Fin 512 → Fin 100000 → EReal) (L : Fin 512 → Fin 100000)

/-- The logit of class `c` in row `b`: the scaled cosine, widened by the margin at the true class only. -/
def logit (b : Fin 512) (c : Fin 100000) : EReal := (if L b = c then margin (C b c) else C b c) * scale

/-! ## The direct arrangement -/

/-- One row's loss: minus the log-probability of the true class, every logit shifted by the row maximum. -/
def refRow (b : Fin 512) : EReal :=
  -((logit C L b (L b) - Finset.univ.sup (logit C L b))
      - Ideal.log (∑ c, Ideal.exp (logit C L b c - Finset.univ.sup (logit C L b))))

/-- The mean loss. -/
def refOut : EReal := Ideal.div (∑ b, refRow C L b) batch

/-! ## The streamed arrangement -/

/-- Class `q` of tile `t`: tiles are consecutive runs of 2000 classes. -/
def cls (t : Fin 50) (q : Fin 2000) : Fin 100000 := ⟨t.val * 2000 + q.val, by omega⟩

/-- The true class of row `b` lies in tile `t`. -/
def hit (t : Fin 50) (b : Fin 512) : Prop := ∃ q : Fin 2000, L b = cls t q

instance (t : Fin 50) (b : Fin 512) : Decidable (hit L t b) := by unfold hit; infer_instance

/-- The true-class cosine as the tile sees it: the sum of the tile's cosines masked to the true class (zero when
    the tile does not hold it). -/
def tcos (t : Fin 50) (b : Fin 512) : EReal := ∑ q : Fin 2000, if L b = cls t q then C b (cls t q) else 0

/-- The largest PLAIN logit of the tile. -/
def tileMax (t : Fin 50) (b : Fin 512) : EReal := Finset.univ.sup fun q : Fin 2000 => C b (cls t q) * scale

/-- One tile folded into the carried triple (running maximum, running sum, running true-class logit). -/
def step (t : Fin 50) (b : Fin 512) (s : EReal × EReal × EReal) : EReal × EReal × EReal :=
  (max s.1 (tileMax C t b),
   Ideal.exp (s.1 - max s.1 (tileMax C t b)) * s.2.1
     + (∑ q : Fin 2000, Ideal.exp (C b (cls t q) * scale - max s.1 (tileMax C t b)))
     + (if hit L t b then
          Ideal.exp (margin (tcos C L t b) * scale - max s.1 (tileMax C t b))
            - Ideal.exp (tcos C L t b * scale - max s.1 (tileMax C t b))
        else 0),
   s.2.2 + (if hit L t b then margin (tcos C L t b) * scale else 0))

/-- The triple a half starts from: maximum −∞, sum 0, true-class logit 0. -/
def init : EReal × EReal × EReal := (⊥, 0, 0)

/-- The carried triple after tile `n`: tiles 0 and 25 start afresh, every other tile continues the one before. -/
def acc : (n : ℕ) → n < 50 → Fin 512 → EReal × EReal × EReal
  | 0, h => fun b => step C L ⟨0, h⟩ b init
  | n + 1, h => fun b =>
      if (n + 1) % 25 = 0 then step C L ⟨n + 1, h⟩ b init
      else step C L ⟨n + 1, h⟩ b (acc n (Nat.lt_of_succ_lt h) b)

/-- The last tile of half `i`. -/
theorem last_lt (i : Fin 2) : i.val * 25 + 24 < 50 := by omega

/-- A half's log-sum-exp: its final maximum plus the logarithm of its final sum. -/
def lse (i : Fin 2) (b : Fin 512) : EReal :=
  (acc C L (i.val * 25 + 24) (last_lt i) b).1 + Ideal.log (acc C L (i.val * 25 + 24) (last_lt i) b).2.1

/-- A half's true-class logit (zero when the half does not hold the true class). -/
def tgt (i : Fin 2) (b : Fin 512) : EReal := (acc C L (i.val * 25 + 24) (last_lt i) b).2.2

/-- `log (eᵃ + eᵇ)` by the larger of the two: `max a b + log (1 + exp (−|a − b|))`. -/
def lae (a b : EReal) : EReal := max a b + Ideal.log1p (Ideal.exp (-(max (a - b) (-(a - b)))))

/-- One row's loss from the two halves. -/
def kerRow (b : Fin 512) : EReal := lae (lse C L 0 b) (lse C L 1 b) - (tgt C L 0 b + tgt C L 1 b)

/-- The mean loss. -/
def kerOut : EReal := Ideal.div (∑ b, kerRow C L b) batch

end ArcFace

/-! ## The same two arrangements over ℝ, for any margin function and any scale -/

namespace ArcFace.Real

open ArcFace

variable (g : ℝ → ℝ) (s : ℝ) (Cr : Fin 512 → Fin 100000 → ℝ) (L : Fin 512 → Fin 100000)

/-- The logit over ℝ. -/
def logit (b : Fin 512) (c : Fin 100000) : ℝ := (if L b = c then g (Cr b c) else Cr b c) * s

/-- The row maximum of the logits. -/
def rowMax (b : Fin 512) : ℝ := Finset.univ.sup' Finset.univ_nonempty (logit g s Cr L b)

/-- One row's loss, directly. -/
def refRow (b : Fin 512) : ℝ :=
  -((logit g s Cr L b (L b) - rowMax g s Cr L b)
      - Real.log (∑ c, Real.exp (logit g s Cr L b c - rowMax g s Cr L b)))

/-- The true-class cosine as the tile sees it. -/
def tcos (t : Fin 50) (b : Fin 512) : ℝ := ∑ q : Fin 2000, if L b = cls t q then Cr b (cls t q) else 0

/-- The largest plain logit of the tile. -/
def tileMax (t : Fin 50) (b : Fin 512) : ℝ :=
  Finset.univ.sup' Finset.univ_nonempty fun q : Fin 2000 => Cr b (cls t q) * s

/-- The tile's own sum of exponentials against a shift `mn`, true-class term corrected. -/
def tileSum (t : Fin 50) (b : Fin 512) (mn : ℝ) : ℝ :=
  (∑ q : Fin 2000, Real.exp (Cr b (cls t q) * s - mn))
    + (if hit L t b then Real.exp (g (tcos Cr L t b) * s - mn) - Real.exp (tcos Cr L t b * s - mn) else 0)

/-- The tile's contribution to the true-class logit. -/
def tileTgt (t : Fin 50) (b : Fin 512) : ℝ := if hit L t b then g (tcos Cr L t b) * s else 0

/-- A half's first tile: the maximum is the tile's own, the carried sum contributes nothing. -/
def first (t : Fin 50) (b : Fin 512) : ℝ × ℝ × ℝ :=
  (tileMax s Cr t b, tileSum g s Cr L t b (tileMax s Cr t b), tileTgt g s Cr L t b)

/-- A later tile folded into the carried triple. -/
def step (t : Fin 50) (b : Fin 512) (st : ℝ × ℝ × ℝ) : ℝ × ℝ × ℝ :=
  (max st.1 (tileMax s Cr t b),
   Real.exp (st.1 - max st.1 (tileMax s Cr t b)) * st.2.1 + tileSum g s Cr L t b (max st.1 (tileMax s Cr t b)),
   st.2.2 + tileTgt g s Cr L t b)

/-- The carried triple after tile `n`. -/
def acc : (n : ℕ) → n < 50 → Fin 512 → ℝ × ℝ × ℝ
  | 0, h => fun b => first g s Cr L ⟨0, h⟩ b
  | n + 1, h => fun b =>
      if (n + 1) % 25 = 0 then first g s Cr L ⟨n + 1, h⟩ b
      else step g s Cr L ⟨n + 1, h⟩ b (acc n (Nat.lt_of_succ_lt h) b)

/-- A half's log-sum-exp. -/
def lse (i : Fin 2) (b : Fin 512) : ℝ :=
  (acc g s Cr L (i.val * 25 + 24) (last_lt i) b).1 + Real.log (acc g s Cr L (i.val * 25 + 24) (last_lt i) b).2.1

/-- A half's true-class logit. -/
def tgt (i : Fin 2) (b : Fin 512) : ℝ := (acc g s Cr L (i.val * 25 + 24) (last_lt i) b).2.2

/-- `log (eᵃ + eᵇ)` by the larger of the two. -/
def lae (a b : ℝ) : ℝ := max a b + Real.log (1 + Real.exp (-(max (a - b) (-(a - b)))))

/-- One row's loss from the two halves. -/
def kerRow (b : Fin 512) : ℝ := lae (lse g s Cr L 0 b) (lse g s Cr L 1 b) - (tgt g s Cr L 0 b + tgt g s Cr L 1 b)

end ArcFace.Real

end
-- ==== Proof.TileStep.lean ====
/-
  One tile's fold, for one batch row, from the tile's own data: the 2000 cosines `cs` of the row against the tile's
  classes and the mask `on` marking the true class among them. The streamed arrangement's `step` at tile `t` and row
  `b` is this fold at `cs q = C b (cls t q)`, `on q = (L b = cls t q)`.
-/
import proofs.«405375_j44126493999503_2_alg».proof.Proof.Spec

noncomputable section

open scoped BigOperators

namespace ArcFace

open Idealize.ShloMosaic

/-- The carried triple (maximum, sum, true-class logit) after a tile with cosines `cs` and true-class mask `on`. -/
def stepRow (cs : Fin 2000 → EReal) (on : Fin 2000 → Prop) [DecidablePred on] (s : EReal × EReal × EReal) :
    EReal × EReal × EReal :=
  (max s.1 (Finset.univ.sup fun q : Fin 2000 => cs q * scale),
   Ideal.exp (s.1 - max s.1 (Finset.univ.sup fun q : Fin 2000 => cs q * scale)) * s.2.1
     + (∑ q : Fin 2000, Ideal.exp (cs q * scale - max s.1 (Finset.univ.sup fun q : Fin 2000 => cs q * scale)))
     + (if ∃ q, on q then
          Ideal.exp (margin (∑ q : Fin 2000, if on q then cs q else 0) * scale
              - max s.1 (Finset.univ.sup fun q : Fin 2000 => cs q * scale))
            - Ideal.exp ((∑ q : Fin 2000, if on q then cs q else 0) * scale
              - max s.1 (Finset.univ.sup fun q : Fin 2000 => cs q * scale))
        else 0),
   s.2.2 + (if ∃ q, on q then margin (∑ q : Fin 2000, if on q then cs q else 0) * scale else 0))

/-- The streamed arrangement's step is the row fold on the tile's cosines and the tile's true-class mask. -/
theorem step_eq_stepRow (C : Fin 512 → Fin 100000 → EReal) (L : Fin 512 → Fin 100000) (t : Fin 50) (b : Fin 512)
    (s : EReal × EReal × EReal) :
    step C L t b s = stepRow (fun q => C b (cls t q)) (fun q => L b = cls t q) s := by
  unfold step stepRow hit tcos tileMax
  rfl

/-- The row fold depends on the cosines and the mask only through their values. -/
theorem stepRow_congr {cs cs' : Fin 2000 → EReal} {on on' : Fin 2000 → Prop} [DecidablePred on] [DecidablePred on']
    (hcs : ∀ q, cs q = cs' q) (hon : ∀ q, on q ↔ on' q) (s : EReal × EReal × EReal) :
    stepRow cs on s = stepRow cs' on' s := by
  have e1 : cs = cs' := funext hcs
  subst e1
  have e2 : on = on' := funext fun q => propext (hon q)
  subst e2
  congr

end ArcFace

end
-- ==== Proof.KerBody.lean ====
/-
  The kernel body's arithmetic, named. At one grid point the body reads the weight tile `w` (2000 class rows), the
  labels column `y`, the normalised batch `xn` and the carried column vectors `m`, `l`, `t`, and leaves a new
  maximum, a new sum and a new true-class logit; at a half's first tile it first normalises the batch and resets the
  carried vectors; at a half's last tile it emits `m + log l` and `t`. These are the compositions of the body's stored
  values (each a pure function of what the body loaded), and what a tile's cosines and true-class mask are in
  terms of the staged blocks.
-/
import proofs.«405375_j44126493999503_2_alg».proof.Proof.Gen.KernelIdeal.Skeleton
import proofs.«405375_j44126493999503_2_alg».proof.Proof.TileStep
import Idealize.ShloMosaic.Lib.ValueIdx

noncomputable section

open scoped BigOperators

namespace Cert.KernelIdeal.Body

open Cert.KernelIdeal Cert.KernelIdeal.Gen Idealize.ShloMosaic Idealize.ShloMosaic.ValueIdx

variable {F : FTy → Type} [FloatOps F]

/-- The batch divided row by row by its floored length, as the body stores it. -/
def bXn (x : Vec F S512x512 .f32) : Vec F S512x512 .bf16 := k0_pay6 x

/-- The new running maximum: the old one against the tile's largest plain logit. -/
def bM (w : Vec F S2000x512 .f32) (xn : Vec F S512x512 .bf16) (m : Vec F S512x1 .f32) : Vec F S512x1 .f32 :=
  k0_pay3 (k0_pay17 (k0_pay13 w xn) m)

/-- The new running sum: the old one rescaled, plus the tile's exponentials, plus the true-class correction. -/
def bL (i : grid0.Coords) (w : Vec F S2000x512 .f32) (y : Vec F S512x1 .i32) (xn : Vec F S512x512 .bf16)
    (m l : Vec F S512x1 .f32) : Vec F S512x1 .f32 :=
  k0_pay1 (k0_pay18 (k0_pay13 w xn) m) (k0_pay19 (k0_pay12 i y) (k0_pay13 w xn) (k0_pay14 i w xn y) m)
    (k0_pay20 (k0_pay13 w xn) m m l)

/-- The new true-class logit: the old one plus the widened logit where the tile holds the true class. -/
def bT (i : grid0.Coords) (w : Vec F S2000x512 .f32) (y : Vec F S512x1 .i32) (xn : Vec F S512x512 .bf16)
    (t : Vec F S512x1 .f32) : Vec F S512x1 .f32 :=
  k0_pay2 (k0_pay12 i y) (k0_pay16 (k0_pay14 i w xn y)) t

/-- What a half's last tile emits as its log-sum-exp. -/
def bLse (m l : Vec F S512x1 .f32) : Vec F S1x512x1 .f32 := k0_pay4 m l

/-- What a half's last tile emits as its true-class logit. -/
def bTgt (t : Vec F S512x1 .f32) : Vec F S1x512x1 .f32 := k0_pay5 t

/-- Row `b`'s cosines against the tile's 2000 class rows: the stored normalised batch row against each normalised
    class row. -/
def tileCos (w : Vec Ideal S2000x512 .f32) (xn : Vec Ideal S512x512 .bf16) (b : Fin 512) (q : Fin 2000) : EReal :=
  ∑ d : Fin 512, xn (ix2 b d) * ArcFace.unit (fun d' : Fin 512 => w (ix2 q d')) d

/-- The class number of column `q` of the tile at grid coordinates `i`, as the 32-bit word the body compares with. -/
def classWord (i : grid0.Coords) (q : Fin 2000) : BitVec 32 :=
  (BitVec.ofNat 32 (i 0).val * 25#32 + BitVec.ofNat 32 (i 1).val) * 2000#32 + BitVec.ofNat 32 q.val

/-- Column `q` of the tile is row `b`'s true class. -/
def tileOn (i : grid0.Coords) (y : Vec Ideal S512x1 .i32) (b : Fin 512) (q : Fin 2000) : Prop :=
  classWord i q = y (ix2 b 0)

instance (i : grid0.Coords) (y : Vec Ideal S512x1 .i32) (b : Fin 512) : DecidablePred (tileOn i y b) := by
  intro q; unfold tileOn; infer_instance

end Cert.KernelIdeal.Body

end
-- ==== Proof.KerPieces.lean ====
/-
  What each case of the kernel body leaves in the carried vectors and in the two result blocks, as the named
  compositions of the body's stored values: at a half's first tile (the batch is normalised and the carried vectors
  reset before the fold), at a middle tile, and at a half's last tile (which also emits the half's two results).
-/
import proofs.«405375_j44126493999503_2_alg».proof.Proof.Gen.KernelIdeal.Frame
import proofs.«405375_j44126493999503_2_alg».proof.Proof.KerBody
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a rank-2 block are the constant zero function. -/
theorem hz : (![0, 0] : Fin 2 → Nat) = fun _ => 0 := funext fun a => by fin_cases a <;> rfl

/-- The zero offsets of a rank-3 block are the constant zero function. -/
theorem hz3 : (![0, 0, 0] : Fin 3 → Nat) = fun _ => 0 := funext fun a => by fin_cases a <;> rfl

/-- Carried vector: the normalised batch. -/
theorem sout0_A_0_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x512 .f32) (x1 : Vec F S2000x512 .f32) (x2 : Vec F S512x1 .i32) :
    sout0_A_0 c i arg2 harg2 arg3 harg3 arg4 harg4 arg5 harg5 arg6 harg6 arg7 harg7 arg8 harg8 arg9 harg9 arg10 harg10 hc0 hc1 x0 x1 x2 = Body.bXn x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero (S := S512x512) hz]
  simp only [View.readAt_eq_ld, harg2.read_unread, View.ld_unit_zero (S := S512x512) hz]
  rfl

/-- Carried vector: the maximum after a half's first tile, from the reset −∞. -/
theorem sout0_A_1_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x512 .f32) (x1 : Vec F S2000x512 .f32) (x2 : Vec F S512x1 .i32) :
    sout0_A_1 c i arg2 harg2 arg3 harg3 arg4 harg4 arg5 harg5 arg6 harg6 arg7 harg7 arg8 harg8 arg9 harg9 arg10 harg10 hc0 hc1 x0 x1 x2 = Body.bM x1 (Body.bXn x0) k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz]
  simp only [View.readAt_eq_ld, harg2.read_unread, harg3.read_unread, View.ld_unit_zero (S := S512x512) hz, View.ld_unit_zero (S := S2000x512) hz, View.readCov_unit_zero (S := S512x512) _ hz, View.readCov_unit_zero (S := S512x1) _ hz]
  rfl

/-- Carried vector: the sum after a half's first tile, from the reset 0. -/
theorem sout0_A_2_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x512 .f32) (x1 : Vec F S2000x512 .f32) (x2 : Vec F S512x1 .i32) :
    sout0_A_2 c i arg2 harg2 arg3 harg3 arg4 harg4 arg5 harg5 arg6 harg6 arg7 harg7 arg8 harg8 arg9 harg9 arg10 harg10 hc0 hc1 x0 x1 x2 = Body.bL i x1 x2 (Body.bXn x0) k0_pay7 k0_pay8 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz]
  simp only [View.readAt_eq_ld, harg2.read_unread, harg3.read_unread, harg4.read_unread, View.ld_unit_zero (S := S512x512) hz, View.ld_unit_zero (S := S2000x512) hz, View.ld_unit_zero (S := S512x1) hz, View.readCov_unit_zero (S := S512x512) _ hz, View.readCov_unit_zero (S := S512x1) _ hz]
  rfl

/-- Carried vector: the true-class logit after a half's first tile, from the reset 0. -/
theorem sout0_A_3_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x512 .f32) (x1 : Vec F S2000x512 .f32) (x2 : Vec F S512x1 .i32) :
    sout0_A_3 c i arg2 harg2 arg3 harg3 arg4 harg4 arg5 harg5 arg6 harg6 arg7 harg7 arg8 harg8 arg9 harg9 arg10 harg10 hc0 hc1 x0 x1 x2 = Body.bT i x1 x2 (Body.bXn x0) k0_pay9 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x1) hz]
  simp only [View.readAt_eq_ld, harg2.read_unread, harg3.read_unread, harg4.read_unread, View.ld_unit_zero (S := S512x512) hz, View.ld_unit_zero (S := S2000x512) hz, View.ld_unit_zero (S := S512x1) hz, View.readCov_unit_zero (S := S512x512) _ hz, View.readCov_unit_zero (S := S512x1) _ hz]
  rfl

/-- Carried vector: the maximum after a middle tile. -/
theorem sout0_B_1_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 hc0 hc1 x0 x1 x2 xs0 xs1 xs2 xs3 = Body.bM x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero (S := S512x1) hz]
  simp only [View.readAt_eq_ld, harg3.read_unread, harg7.read_unread, harg8.read_unread, View.ld_unit_zero (S := S2000x512) hz, View.ld_unit_zero (S := S512x512) hz, View.ld_unit_zero (S := S512x1) hz]
  rfl

/-- Carried vector: the sum after a middle tile. -/
theorem sout0_B_2_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 hc0 hc1 x0 x1 x2 xs0 xs1 xs2 xs3 = Body.bL i x1 x2 xs0 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero (S := S512x1) hz]
  simp only [View.readAt_eq_ld, harg3.read_unread, harg4.read_unread, harg7.read_unread, harg8.read_unread, harg9.read_unread, View.ld_unit_zero (S := S2000x512) hz, View.ld_unit_zero (S := S512x512) hz, View.ld_unit_zero (S := S512x1) hz]
  rfl

/-- Carried vector: the true-class logit after a middle tile. -/
theorem sout0_B_3_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 hc0 hc1 x0 x1 x2 xs0 xs1 xs2 xs3 = Body.bT i x1 x2 xs0 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero (S := S512x1) hz]
  simp only [View.readAt_eq_ld, harg3.read_unread, harg4.read_unread, harg7.read_unread, harg10.read_unread, View.ld_unit_zero (S := S2000x512) hz, View.ld_unit_zero (S := S512x512) hz, View.ld_unit_zero (S := S512x1) hz]
  rfl

/-- Carried vector: the maximum after a half's last tile. -/
theorem sout0_C_1_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 hc0 hc1 x0 x1 x2 xs0 xs1 xs2 xs3 = Body.bM x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S512x1) hz]
  simp only [View.readAt_eq_ld, harg3.read_unread, harg7.read_unread, harg8.read_unread, View.ld_unit_zero (S := S2000x512) hz, View.ld_unit_zero (S := S512x512) hz, View.ld_unit_zero (S := S512x1) hz]
  rfl

/-- Carried vector: the sum after a half's last tile. -/
theorem sout0_C_2_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 hc0 hc1 x0 x1 x2 xs0 xs1 xs2 xs3 = Body.bL i x1 x2 xs0 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S512x1) hz]
  simp only [View.readAt_eq_ld, harg3.read_unread, harg4.read_unread, harg7.read_unread, harg8.read_unread, harg9.read_unread, View.ld_unit_zero (S := S2000x512) hz, View.ld_unit_zero (S := S512x512) hz, View.ld_unit_zero (S := S512x1) hz]
  rfl

/-- Carried vector: the true-class logit after a half's last tile. -/
theorem sout0_C_3_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 hc0 hc1 x0 x1 x2 xs0 xs1 xs2 xs3 = Body.bT i x1 x2 xs0 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S512x1) hz]
  simp only [View.readAt_eq_ld, harg3.read_unread, harg4.read_unread, harg7.read_unread, harg10.read_unread, View.ld_unit_zero (S := S2000x512) hz, View.ld_unit_zero (S := S512x512) hz, View.ld_unit_zero (S := S512x1) hz]
  rfl

/-- Result block: the half's log-sum-exp, emitted from the new maximum and the new sum. -/
theorem out0_C_3_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    out0_C_3 c i arg2 harg2 arg3 harg3 arg4 harg4 arg5 harg5 arg6 harg6 arg7 harg7 arg8 harg8 arg9 harg9 arg10 harg10 hc0 hc1 x0 x1 x2 xs0 xs1 xs2 xs3 = Body.bLse (Body.bM x1 xs0 xs1) (Body.bL i x1 x2 xs0 xs1 xs2) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S1x512x1) hz3]
  simp only [View.readAt_eq_ld, harg3.read_unread, harg4.read_unread, harg7.read_unread, harg8.read_unread, harg9.read_unread, View.ld_unit_zero (S := S2000x512) hz, View.ld_unit_zero (S := S512x512) hz, View.ld_unit_zero (S := S512x1) hz, View.readCov_unit_zero (S := S512x1) _ hz]
  rfl

/-- Result block: the half's true-class logit, emitted from the new one. -/
theorem out0_C_4_eq (c : Dev nD) (i : grid0.Coords) (arg2 : Memref sig .tc .vmem S512x512 .f32) (harg2 : arg2.IsWhole) (arg3 : Memref sig .tc .vmem S2000x512 .f32) (harg3 : arg3.IsWhole) (arg4 : Memref sig .tc .vmem S512x1 .i32) (harg4 : arg4.IsWhole) (arg5 : Memref sig .tc .vmem S1x512x1 .f32) (harg5 : arg5.IsWhole) (arg6 : Memref sig .tc .vmem S1x512x1 .f32) (harg6 : arg6.IsWhole) (arg7 : Memref sig .tc .vmem S512x512 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x512 .f32) (x1 : Vec F S2000x512 .f32) (x2 : Vec F S512x1 .i32) (xs0 : Vec F S512x512 .bf16) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 hc0 hc1 x0 x1 x2 xs0 xs1 xs2 xs3 = Body.bTgt (Body.bT i x1 x2 xs0 xs3) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero (S := S1x512x1) hz3]
  simp only [View.readAt_eq_ld, harg3.read_unread, harg4.read_unread, harg7.read_unread, harg10.read_unread, View.ld_unit_zero (S := S2000x512) hz, View.ld_unit_zero (S := S512x512) hz, View.ld_unit_zero (S := S512x1) hz, View.readCov_unit_zero (S := S512x1) _ hz]
  rfl

end Cert.KernelIdeal.Pieces

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.KerBodyApply.lean ====
/-
  The kernel body's arithmetic read at one batch row, at the ideal float instance: the normalised batch is each entry
  over its row's floored length; the three reset vectors are −∞, 0, 0; the new (maximum, sum, true-class logit) of a
  row is the row fold `ArcFace.stepRow` on the tile's cosines and true-class mask; the emitted results are
  `m + log l` and `t`.
-/
import proofs.«405375_j44126493999503_2_alg».proof.Proof.KerBody
import proofs.«405375_j44126493999503_2_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Idealize.ShloMosaic.LibSums

/-! ## Layout: a column broadcast over the lanes -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row divided by its floored length -/

/-- The lane sum of squares, its square root floored at the word of 1e-12, broadcast back over the lanes, and the
    quotient: at `(p, d)` the entry over its row's floored length. -/
theorem rowUnit_apply {a n : ℕ} (x : FVec Ideal ⟨2, ![a, n]⟩ .f32)
    (hr : Shape.Reduces ⟨2, ![a, n]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, n]⟩) (p : Fin a) (d : Fin n) :
    divf x (broadcastTo ⟨2, ![a, n]⟩
        (maximumf (sqrt (shapeCast ⟨2, ![a, 1]⟩ (multiReduction (F := Ideal) .add [1] ⟨1, ![a]⟩ (mulf x x) 0x00000000#32 hr hφ hacc) hc))
          (broadcast ⟨2, ![a, 1]⟩ (Scalar.ofBits (F := Ideal) .f32 0x2B8CBCCC#32))) hb) (ix2 p d)
      = ArcFace.unit (fun d' : Fin n => x (ix2 p d')) d := by
  rw [divf_apply, broadcastTo_a1_ab_apply, maximumf_apply]
  show Ideal.div (x (ix2 p d)) (max (Ideal.sqrt (shapeCast ⟨2, ![a, 1]⟩ _ hc (ix2 p (0 : Fin 1)))) _) = _
  rw [shapeCast_a_a1_apply, vecSum_axis1_of2_ix]
  rfl

/-- The stored normalised batch at row `b`, column `d`. -/
theorem bXn_apply (x : Vec Ideal S512x512 .f32) (b d : Fin 512) :
    bXn (F := Ideal) x (ix2 b d) = ArcFace.unit (fun d' : Fin 512 => x (ix2 b d')) d := by
  unfold bXn k0_pay6
  rw [shapeCast_self]
  exact rowUnit_apply x _ _ _ _ _ b d

/-- The reset maximum is −∞ everywhere. -/
theorem pay7_apply (j : S512x1.Idx) : k0_pay7 (F := Ideal) j = (⊥ : EReal) := by
  unfold k0_pay7
  rw [shapeCast_self]
  exact ofBits_neg_inf_f32

/-- The reset sum is 0 everywhere. -/
theorem pay8_apply (j : S512x1.Idx) : k0_pay8 (F := Ideal) j = (0 : EReal) := by
  unfold k0_pay8
  rw [shapeCast_self]
  exact Ideal.ofBits_zero_f32

/-- The reset true-class logit is 0 everywhere. -/
theorem pay9_apply (j : S512x1.Idx) : k0_pay9 (F := Ideal) j = (0 : EReal) := by
  unfold k0_pay9
  rw [shapeCast_self]
  exact Ideal.ofBits_zero_f32

/-- The emitted log-sum-exp of row `b`. -/
theorem bLse_apply (m l : Vec Ideal S512x1 .f32) (b : Fin 512) :
    bLse (F := Ideal) m l (ix3 (0 : Fin 1) b (0 : Fin 1))
      = (m (ix2 b (0 : Fin 1)) : EReal) + Ideal.log (l (ix2 b (0 : Fin 1))) := by
  unfold bLse k0_pay4
  rw [shapeCast_ab_1ab_apply]
  rfl

/-- The emitted true-class logit of row `b`. -/
theorem bTgt_apply (t : Vec Ideal S512x1 .f32) (b : Fin 512) :
    bTgt (F := Ideal) t (ix3 (0 : Fin 1) b (0 : Fin 1)) = t (ix2 b (0 : Fin 1)) := by
  unfold bTgt k0_pay5
  rw [shapeCast_ab_1ab_apply]

/-! ## A lane maximum -/

/-- A vector maximum over axis 1 of a rank-2 vector from the accumulator −∞, at row `r`: the supremum over the lanes. -/
theorem vecMax_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0xFF800000#32 : BitVec 32) = 0xFF800000#32) (r : Fin n0) :
    multiReduction (F := Ideal) .maximumf [1] ⟨1, ![n0]⟩ x 0xFF800000#32 h hφ hacc (ix1 r)
      = (Finset.univ : Finset (Fin n1)).sup (fun k => x (ix2 r k)) := by
  refine (Ideal.multiReduction_maximumf_single x 0xFF800000#32 h hφ hacc (ix1 r)).trans ?_
  have hb : (FloatOps.ofBits .f32 0xFF800000#32 : Ideal .f32) = ⊥ := ofBits_neg_inf_f32
  rw [hb]
  refine (fold_max_bot _ _).trans (congrArg (Finset.univ : Finset (Fin n1)).sup (funext fun k => congrArg x (funext fun a => Fin.ext (by
      match a with
      | ⟨0, _⟩ => rfl
      | ⟨1, _⟩ => rfl))))

/-! ## The tile's matrix product -/

theorem lhs_mm_0 (i : S512x2000.Idx) (q : dot_S512x512_S2000x512_S512x2000_1_1_0_0_n_n.contr.Idx) :
    (dot_S512x512_S2000x512_S512x2000_1_1_0_0_n_n.lhsIdx i q 0).val = (i 0).val := by
  unfold DotDims.lhsIdx
  rw [dif_neg (show ¬(0 : Fin S512x512.rank) ∈ dot_S512x512_S2000x512_S512x2000_1_1_0_0_n_n.lhsBatch by decide), dif_pos (show (0 : Fin S512x512.rank) ∈ dot_S512x512_S2000x512_S512x2000_1_1_0_0_n_n.lhsNonContracting by decide)]
  rfl
theorem lhs_mm_1 (i : S512x2000.Idx) (q : dot_S512x512_S2000x512_S512x2000_1_1_0_0_n_n.contr.Idx) :
    (dot_S512x512_S2000x512_S512x2000_1_1_0_0_n_n.lhsIdx i q 1).val = (q ⟨0, by decide⟩).val :=
  dot_S512x512_S2000x512_S512x2000_1_1_0_0_n_n.lhsIdx_val_of_single rfl i q
theorem rhs_mm_0 (i : S512x2000.Idx) (q : dot_S512x512_S2000x512_S512x2000_1_1_0_0_n_n.contr.Idx) :
    (dot_S512x512_S2000x512_S512x2000_1_1_0_0_n_n.rhsIdx i q 0).val = (i 1).val := by
  unfold DotDims.rhsIdx
  rw [dif_neg (show ¬(0 : Fin S2000x512.rank) ∈ dot_S512x512_S2000x512_S512x2000_1_1_0_0_n_n.rhsBatch by decide), dif_pos (show (0 : Fin S2000x512.rank) ∈ dot_S512x512_S2000x512_S512x2000_1_1_0_0_n_n.rhsNonContracting by decide)]
  rfl
theorem rhs_mm_1 (i : S512x2000.Idx) (q : dot_S512x512_S2000x512_S512x2000_1_1_0_0_n_n.contr.Idx) :
    (dot_S512x512_S2000x512_S512x2000_1_1_0_0_n_n.rhsIdx i q 1).val = (q ⟨0, by decide⟩).val :=
  dot_S512x512_S2000x512_S512x2000_1_1_0_0_n_n.rhsIdx_val_of_single rfl i q

/-- The tile's matrix product into a zero accumulator, at `(b, q)`: the inner product of batch row `b` and class row `q`. -/
theorem mm_apply (xn : FVec Ideal S512x512 .bf16) (wn : FVec Ideal S2000x512 .bf16) (b : Fin 512) (q : Fin 2000) :
    matmul dot_S512x512_S2000x512_S512x2000_1_1_0_0_n_n none xn wn (constant (F := Ideal) S512x2000 .f32 0x00000000#32) (ix2 b q)
      = ∑ d : Fin 512, xn (ix2 b d) * wn (ix2 q d) := by
  simp only [matmul]
  rw [Ideal.matmul_constant_zero_apply, ← Equiv.sum_comp (ValueIdx.contrEquiv1 dot_S512x512_S2000x512_S512x2000_1_1_0_0_n_n 512 rfl rfl).symm]
  refine Finset.sum_congr rfl fun k _ => ?_
  have hk := ValueIdx.contrEquiv1_symm_val dot_S512x512_S2000x512_S512x2000_1_1_0_0_n_n 512 rfl rfl k
  have el : dot_S512x512_S2000x512_S512x2000_1_1_0_0_n_n.lhsIdx (ix2 b q) ((ValueIdx.contrEquiv1 dot_S512x512_S2000x512_S512x2000_1_1_0_0_n_n 512 rfl rfl).symm k) = ix2 b k := funext fun a => Fin.ext (by
    match a with
    | ⟨0, _⟩ => exact lhs_mm_0 _ _
    | ⟨1, _⟩ => exact (lhs_mm_1 _ _).trans hk)
  have er : dot_S512x512_S2000x512_S512x2000_1_1_0_0_n_n.rhsIdx (ix2 b q) ((ValueIdx.contrEquiv1 dot_S512x512_S2000x512_S512x2000_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-- The tile's cosines: the stored normalised batch row against each normalised class row. -/
theorem pay10_apply (w : Vec Ideal S2000x512 .f32) (xn : Vec Ideal S512x512 .bf16) (b : Fin 512) (q : Fin 2000) :
    k0_pay10 (F := Ideal) w xn (ix2 b q) = tileCos w xn b q := by
  unfold k0_pay10 tileCos
  refine (mm_apply _ _ b q).trans (Finset.sum_congr rfl fun d _ => ?_)
  rw [truncf_apply]
  exact congrArg (xn (ix2 b d) * ·) (rowUnit_apply w _ _ _ _ _ q d)

/-- The tile's plain logits. -/
theorem pay13_apply (w : Vec Ideal S2000x512 .f32) (xn : Vec Ideal S512x512 .bf16) (b : Fin 512) (q : Fin 2000) :
    k0_pay13 (F := Ideal) w xn (ix2 b q) = tileCos w xn b q * ArcFace.scale := by
  unfold k0_pay13
  rw [mulf_apply, pay10_apply]
  rfl

/-! ## Words and bits -/

/-- A one-bit word made from a Boolean is 1 exactly when the Boolean is true. -/
theorem ofBool_eq_one_iff (c : Bool) : BitVec.ofBool c = 1#1 ↔ c = true := by cases c <;> decide

/-- Two `if`s on equivalent conditions with equal branches are equal, however each condition is decided. -/
theorem ite_congr_iff {α : Type} {p q : Prop} {ip : Decidable p} {iq : Decidable q} (h : p ↔ q) {a a' b b' : α}
    (ha : a = a') (hb : b = b') : @ite α p ip a b = @ite α q iq a' b' := by
  subst ha hb
  by_cases hp : p
  · rw [if_pos hp, if_pos (h.1 hp)]
  · rw [if_neg hp, if_neg (fun hq => hp (h.2 hq))]

/-- A select on a bit that is 1 exactly when `p` holds is the `if` on `p`. -/
theorem select_iff {α : Type} (c : BitVec 1) (p : Prop) [Decidable p] (h : c = 1#1 ↔ p) (A B : α) :
    Scalar.select c A B = if p then A else B := by
  unfold Scalar.select
  exact if_congr h rfl rfl

/-- The bit of "x > y" over the extended reals is 1 exactly when `y < x`. -/
theorem cmp_ogt_iff (x y : EReal) : Ideal.cmp .ogt x y = 1#1 ↔ y < x := by
  show BitVec.ofBool (decide (y < x)) = 1#1 ↔ _
  rw [ofBool_eq_one_iff, decide_eq_true_eq]

/-- A select on the bit of "x > y" over the extended reals is the `if` on `y < x`. -/
theorem select_ogt (x y A B : EReal) :
    Scalar.select (Ideal.cmp .ogt x y) A B = if y < x then A else B :=
  select_iff _ _ (cmp_ogt_iff x y) A B

/-- The lane counter of the `[1, 2000]` row at lane `q` is the word of `q`. -/
theorem iota_row_apply (h : S1x2000.Iotas .tc 32 [1]) (q : Fin 2000) :
    iota .tc S1x2000 32 [1] h (ix2 (0 : Fin 1) q) = BitVec.ofNat 32 q.val := by
  show BitVec.ofNat 32 (0 * 2000 + q.val) = _
  rw [Nat.zero_mul, Nat.zero_add]

/-- The true-class bit at `(b, q)`: the tile's class word of lane `q` compared with row `b`'s label. -/
theorem pay11_apply (i : grid0.Coords) (y : Vec Ideal S512x1 .i32) (b : Fin 512) (q : Fin 2000) :
    k0_pay11 (F := Ideal) i y (ix2 b q) = IntOp.cmpi .eq (classWord i q) (y (ix2 b (0 : Fin 1))) := by
  unfold k0_pay11
  show IntOp.cmpi .eq (broadcastTo S512x2000 _ _ (ix2 b q)) (broadcastTo S512x2000 _ _ (ix2 b q)) = _
  rw [broadcastTo_1b_ab_apply, broadcastTo_a1_ab_apply, shapeCast_self]
  show IntOp.cmpi .eq (IntOp.addi _ (iota .tc S1x2000 32 [1] _ (ix2 (0 : Fin 1) q))) _ = _
  rw [iota_row_apply]
  rfl

/-- The true-class bit is 1 exactly on the true class's lane. -/
theorem pay11_iff (i : grid0.Coords) (y : Vec Ideal S512x1 .i32) (b : Fin 512) (q : Fin 2000) :
    k0_pay11 (F := Ideal) i y (ix2 b q) = 1#1 ↔ tileOn i y b q := by
  rw [pay11_apply, IntOp.cmpi_eq]
  rfl

/-- The masked cosines: the cosine on the true class's lane, 0 elsewhere. -/
theorem pay14_apply (i : grid0.Coords) (w : Vec Ideal S2000x512 .f32) (xn : Vec Ideal S512x512 .bf16)
    (y : Vec Ideal S512x1 .i32) (b : Fin 512) (q : Fin 2000) :
    k0_pay14 (F := Ideal) i w xn y (ix2 b q) = if tileOn i y b q then tileCos w xn b q else 0 := by
  unfold k0_pay14
  rw [select_apply, pay10_apply, broadcast_apply]
  unfold Scalar.select
  exact if_congr (pay11_iff i y b q) rfl Ideal.ofBits_zero_f32

/-- A lane sum kept as a column, at row `b`. -/
theorem pay15_apply (v : FVec Ideal S512x2000 .f32) (b : Fin 512) :
    k0_pay15 (F := Ideal) v (ix2 b (0 : Fin 1)) = ∑ q : Fin 2000, v (ix2 b q) := by
  unfold k0_pay15
  rw [shapeCast_a_a1_apply, vecSum_axis1_of2_ix]

/-- The hit flag of row `b`: some lane of the tile is the row's true class. -/
theorem pay12_iff (i : grid0.Coords) (y : Vec Ideal S512x1 .i32) (b : Fin 512) :
    k0_pay12 (F := Ideal) i y (ix2 b (0 : Fin 1)) = 1#1 ↔ ∃ q, tileOn i y b q := by
  unfold k0_pay12
  rw [shapeCast_a_a1_apply, cmpf_apply, vecMax_axis1_of2_ix, broadcast_apply]
  show Ideal.cmp .ogt _ (Ideal.ofBits .f32 0x00000000#32) = 1#1 ↔ _
  rw [Ideal.ofBits_zero_f32, cmp_ogt_iff, Finset.lt_sup_iff]
  have hv : ∀ q : Fin 2000, (0 : EReal) < select (k0_pay11 (F := Ideal) i y) (broadcast S512x2000 (Scalar.ofBits (F := Ideal) .f32 0x3F800000#32))
      (broadcast S512x2000 (Scalar.ofBits (F := Ideal) .f32 0x00000000#32)) (ix2 b q) ↔ tileOn i y b q := by
    intro q
    rw [select_apply, broadcast_apply, broadcast_apply, select_iff _ _ (pay11_iff i y b q)]
    by_cases hq : tileOn i y b q
    · rw [if_pos hq]
      refine iff_of_true ?_ hq
      show (0 : EReal) < Ideal.ofBits .f32 0x3F800000#32
      rw [ofBits_f32_3F800000]
      exact_mod_cast one_pos
    · rw [if_neg hq]
      refine iff_of_false ?_ hq
      show ¬ (0 : EReal) < Ideal.ofBits .f32 0x00000000#32
      rw [Ideal.ofBits_zero_f32]
      exact lt_irrefl _
  constructor
  · rintro ⟨q, -, hq⟩
    exact ⟨q, (hv q).1 hq⟩
  · rintro ⟨q, hq⟩
    exact ⟨q, Finset.mem_univ _, (hv q).2 hq⟩

/-- The widened, scaled true-class logit from the masked cosines. -/
theorem pay16_apply (v : FVec Ideal S512x2000 .f32) (b : Fin 512) :
    k0_pay16 (F := Ideal) v (ix2 b (0 : Fin 1)) = ArcFace.margin (∑ q : Fin 2000, v (ix2 b q)) * ArcFace.scale := by
  unfold k0_pay16
  show Scalar.select (Ideal.cmp .ogt (k0_pay15 (F := Ideal) v (ix2 b (0 : Fin 1))) ArcFace.thr)
      (k0_pay15 (F := Ideal) v (ix2 b (0 : Fin 1)) * ArcFace.cosM
        - Ideal.sqrt (max (Ideal.ofBits .f32 0x00000000#32)
            (ArcFace.one - k0_pay15 (F := Ideal) v (ix2 b (0 : Fin 1)) * k0_pay15 (F := Ideal) v (ix2 b (0 : Fin 1)))) * ArcFace.sinM)
      (k0_pay15 (F := Ideal) v (ix2 b (0 : Fin 1)) - ArcFace.mm) * ArcFace.scale = _
  rw [pay15_apply, Ideal.ofBits_zero_f32, select_ogt]
  rfl

/-- The new running maximum of row `b`. -/
theorem pay17_apply (v : FVec Ideal S512x2000 .f32) (m : Vec Ideal S512x1 .f32) (b : Fin 512) :
    k0_pay17 (F := Ideal) v m (ix2 b (0 : Fin 1))
      = max (m (ix2 b (0 : Fin 1))) (Finset.univ.sup fun q : Fin 2000 => v (ix2 b q)) := by
  unfold k0_pay17
  rw [maximumf_apply, shapeCast_a_a1_apply, vecMax_axis1_of2_ix]

/-- The tile's sum of exponentials against the new maximum. -/
theorem pay18_apply (v : FVec Ideal S512x2000 .f32) (m : Vec Ideal S512x1 .f32) (b : Fin 512) :
    k0_pay18 (F := Ideal) v m (ix2 b (0 : Fin 1))
      = ∑ q : Fin 2000, Ideal.exp (v (ix2 b q) - k0_pay17 (F := Ideal) v m (ix2 b (0 : Fin 1))) := by
  unfold k0_pay18
  rw [shapeCast_a_a1_apply, vecSum_axis1_of2_ix]
  refine Finset.sum_congr rfl fun q _ => ?_
  show Ideal.exp (v (ix2 b q) - broadcastTo S512x2000 (k0_pay17 (F := Ideal) v m) _ (ix2 b q)) = _
  rw [broadcastTo_a1_ab_apply]

/-- The true-class correction of the sum. -/
theorem pay19_apply (c : IVec S512x1 1) (v34 v36 : FVec Ideal S512x2000 .f32) (m : Vec Ideal S512x1 .f32) (b : Fin 512) :
    k0_pay19 (F := Ideal) c v34 v36 m (ix2 b (0 : Fin 1))
      = if c (ix2 b (0 : Fin 1)) = 1#1 then
          Ideal.exp (k0_pay16 (F := Ideal) v36 (ix2 b (0 : Fin 1)) - k0_pay17 (F := Ideal) v34 m (ix2 b (0 : Fin 1)))
            - Ideal.exp (k0_pay15 (F := Ideal) v36 (ix2 b (0 : Fin 1)) * ArcFace.scale - k0_pay17 (F := Ideal) v34 m (ix2 b (0 : Fin 1)))
        else 0 := by
  unfold k0_pay19
  rw [select_apply, broadcast_apply]
  unfold Scalar.select
  exact if_congr Iff.rfl rfl Ideal.ofBits_zero_f32

/-- The old sum rescaled to the new maximum. -/
theorem pay20_apply (v : FVec Ideal S512x2000 .f32) (m m' l : Vec Ideal S512x1 .f32) (b : Fin 512) :
    k0_pay20 (F := Ideal) v m m' l (ix2 b (0 : Fin 1))
      = Ideal.exp (m' (ix2 b (0 : Fin 1)) - k0_pay17 (F := Ideal) v m (ix2 b (0 : Fin 1))) * l (ix2 b (0 : Fin 1)) := by
  unfold k0_pay20
  rfl

/-- One row of the fold: the new maximum, sum and true-class logit of row `b` are the row fold of the old ones. -/
theorem fold_apply (i : grid0.Coords) (w : Vec Ideal S2000x512 .f32) (y : Vec Ideal S512x1 .i32)
    (xn : Vec Ideal S512x512 .bf16) (m l t : Vec Ideal S512x1 .f32) (b : Fin 512) :
    ((bM (F := Ideal) w xn m (ix2 b (0 : Fin 1)), bL (F := Ideal) i w y xn m l (ix2 b (0 : Fin 1)),
        bT (F := Ideal) i w y xn t (ix2 b (0 : Fin 1))) : EReal × EReal × EReal)
      = ArcFace.stepRow (tileCos w xn b) (tileOn i y b)
          (m (ix2 b (0 : Fin 1)), l (ix2 b (0 : Fin 1)), t (ix2 b (0 : Fin 1))) := by
  have hsup : (Finset.univ.sup fun q : Fin 2000 => k0_pay13 (F := Ideal) w xn (ix2 b q))
      = Finset.univ.sup fun q : Fin 2000 => tileCos w xn b q * ArcFace.scale :=
    congrArg Finset.univ.sup (funext fun q => pay13_apply w xn b q)
  have hM : k0_pay17 (F := Ideal) (k0_pay13 (F := Ideal) w xn) m (ix2 b (0 : Fin 1))
      = max (m (ix2 b (0 : Fin 1))) (Finset.univ.sup fun q : Fin 2000 => tileCos w xn b q * ArcFace.scale) := by
    rw [pay17_apply, hsup]
  have hS : (∑ q : Fin 2000, k0_pay14 (F := Ideal) i w xn y (ix2 b q))
      = ∑ q : Fin 2000, if tileOn i y b q then tileCos w xn b q else 0 :=
    Finset.sum_congr rfl fun q _ => pay14_apply i w xn y b q
  unfold ArcFace.stepRow
  refine Prod.ext ?_ (Prod.ext ?_ ?_)
  · dsimp only
    unfold bM k0_pay3
    rw [shapeCast_self]
    exact hM
  · dsimp only
    unfold bL k0_pay1
    rw [shapeCast_self, addf_apply, addf_apply, pay20_apply, pay18_apply, pay19_apply, pay16_apply, pay15_apply, hM, hS]
    simp only [pay13_apply]
    exact congrArg₂ (· + ·) rfl (ite_congr_iff (pay12_iff i y b) rfl rfl)
  · dsimp only
    unfold bT k0_pay2
    rw [shapeCast_self, addf_apply, select_apply, broadcast_apply, pay16_apply, hS]
    unfold Scalar.select
    exact congrArg (t (ix2 b (0 : Fin 1)) + ·) (ite_congr_iff (pay12_iff i y b) rfl Ideal.ofBits_zero_f32)

end Cert.KernelIdeal.Body

end
-- ==== Proof.KerInduct.lean ====
/-
  What the carried vectors and the result blocks hold after every grid point, by induction on the point: the stored
  normalised batch is the batch normalised; the carried (maximum, sum, true-class logit) of row `b` after point `n` is
  the streamed arrangement's triple `ArcFace.acc` on the cosines of the two input matrices and the true labels; a
  half's last point emits `m + log l` and `t` of that triple. The weight block at point `n` is rows
  `2000 n … 2000 n + 1999` of the class matrix, the batch and label blocks are the whole arrays, and the class number
  the body compares with is `2000 n + q`.
-/
import proofs.«405375_j44126493999503_2_alg».proof.Proof.KerPieces
import proofs.«405375_j44126493999503_2_alg».proof.Proof.KerBodyApply
import proofs.«405375_j44126493999503_2_alg».proof.Proof.Spec
import proofs.«405375_j44126493999503_2_alg».proof.Proof.LibSums
import Idealize.ShloMosaic.Lib.StableHlo.Run

set_option maxRecDepth 16384

noncomputable section

open scoped BigOperators

namespace Cert.KernelIdeal.Induct

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The batch matrix by coordinates. -/
def X (c : Dev nD) (b d : Fin 512) : EReal := (m ((c : Thread nD τ).loc main_arg0) : Vec Ideal S512x512 .f32) (ix2 b d)

/-- The class matrix by coordinates. -/
def W (c : Dev nD) (k : Fin 100000) (d : Fin 512) : EReal :=
  (m ((c : Thread nD τ).loc main_arg2) : Vec Ideal S100000x512 .f32) (ix2 k d)

/-- The labels by coordinate. -/
def Y (c : Dev nD) (b : Fin 512) : BitVec 32 := (m ((c : Thread nD τ).loc main_arg1) : IVec S512 32) (ix1 b)

/-- The cosine matrix of the two inputs. -/
def Cos (c : Dev nD) : Fin 512 → Fin 100000 → EReal := ArcFace.cosine (X m c) (W m c)

/-! ## The staged blocks -/

/-- The batch block staged at a point. -/
abbrev xblk (c : Dev nD) (t : Fin cfg0.N) : Vec Ideal S512x512 .f32 := iblk m c 0 t
/-- The weight tile staged at a point. -/
abbrev wblk (c : Dev nD) (t : Fin cfg0.N) : Vec Ideal S2000x512 .f32 := iblk m c 1 t
/-- The labels column staged at a point. -/
abbrev yblk (c : Dev nD) (t : Fin cfg0.N) : Vec Ideal S512x1 .i32 := iblk m c 2 t

/-- The batch window's block index is (0, 0) at every point. -/
theorem idx_0 : ∀ t : Fin cfg0.N, win0_0.index t 0 = 0 ∧ win0_0.index t 1 = 0 :=
  (by decide +kernel : ∀ t : Fin grid0.N, win0_0.index t 0 = 0 ∧ win0_0.index t 1 = 0)
/-- The weight window's block index at point t is (t, 0). -/
theorem idx_1 : ∀ t : Fin cfg0.N, win0_1.index t 0 = t.val ∧ win0_1.index t 1 = 0 :=
  (by decide +kernel : ∀ t : Fin grid0.N, win0_1.index t 0 = t.val ∧ win0_1.index t 1 = 0)
/-- The labels window's block index is (0, 0) at every point. -/
theorem idx_2 : ∀ t : Fin cfg0.N, win0_2.index t 0 = 0 ∧ win0_2.index t 1 = 0 :=
  (by decide +kernel : ∀ t : Fin grid0.N, win0_2.index t 0 = 0 ∧ win0_2.index t 1 = 0)

/-- The batch block is the batch. -/
theorem xblk_apply (c : Dev nD) (t : Fin cfg0.N) (b d : Fin 512) : xblk m c t (ix2 b d) = X m c b d := by
  unfold xblk iblk X
  rw [View.read_apply]
  show V m c main_arg0 _ = m (c.tc.loc main_arg0) _
  rw [V_main_arg0 m c]
  congr 1
  funext a
  apply Fin.ext
  match a with
  | ⟨0, _⟩ => show win0_0.index t 0 * 512 + 1 * b.val = b.val; rw [(idx_0 t).1]; omega
  | ⟨1, _⟩ => show win0_0.index t 1 * 512 + 1 * d.val = d.val; rw [(idx_0 t).2]; omega

/-- The weight tile at point t is rows 2000 t + q of the class matrix. -/
theorem wblk_apply (c : Dev nD) (t : Fin cfg0.N) (h50 : t.val < 50) (q : Fin 2000) (d : Fin 512) :
    wblk m c t (ix2 q d) = W m c (ArcFace.cls ⟨t.val, h50⟩ q) d := by
  unfold wblk iblk W
  rw [View.read_apply]
  show V m c main_arg2 _ = m (c.tc.loc main_arg2) _
  rw [V_main_arg2 m c]
  congr 1
  funext a
  apply Fin.ext
  match a with
  | ⟨0, _⟩ => show win0_1.index t 0 * 2000 + 1 * q.val = t.val * 2000 + q.val; rw [(idx_1 t).1]; omega
  | ⟨1, _⟩ => show win0_1.index t 1 * 512 + 1 * d.val = d.val; rw [(idx_1 t).2]; omega

/-- The labels array the region finds: the labels as a column. -/
theorem labels_col (c : Dev nD) :
    (V m c main_v0 : S512x1.Idx → BitVec 32)
      = shapeCast S512x1 (m ((c : Thread nD τ).loc main_arg1) : IVec S512 32) shapeCasts_S512_S512x1 := by
  show StableHlo.after hostOps0 (fun b => m (c, b)) (Proc.devRef .tc main_v0) = _
  after_results
  rfl

/-- The labels block is the labels. -/
theorem yblk_apply (c : Dev nD) (t : Fin cfg0.N) (b : Fin 512) : yblk m c t (ix2 b (0 : Fin 1)) = Y m c b := by
  unfold yblk iblk Y
  rw [View.read_apply]
  show (V m c main_v0 : S512x1.Idx → BitVec 32) _ = _
  have hidx : (((cfg0.win 2).blk t).view.emb (ix2 b (0 : Fin 1)) : S512x1.Idx) = ix2 b (0 : Fin 1) := by
    funext a
    apply Fin.ext
    match a with
    | ⟨0, _⟩ => show win0_2.index t 0 * 512 + 1 * b.val = b.val; rw [(idx_2 t).1]; omega
    | ⟨1, _⟩ => show win0_2.index t 1 * 1 + 1 * 0 = 0; rw [(idx_2 t).2]
  refine (congrArg (V m c main_v0 : S512x1.Idx → BitVec 32) hidx).trans ?_
  refine (congrFun (labels_col m c) (ix2 b (0 : Fin 1))).trans ?_
  exact LibSums.shapeCast_a_a1_apply _ _ b 0

/-! ## The class number the body compares with, the true-class mask, the tile's cosines -/

/-- The scalar part of the class word: at point t it is 2000 t. -/
theorem classBase : ∀ t : Fin cfg0.N,
    (BitVec.ofNat 32 ((grid0.coords t) 0).val * 25#32 + BitVec.ofNat 32 ((grid0.coords t) 1).val) * 2000#32
      = BitVec.ofNat 32 (t.val * 2000) :=
  (by decide +kernel : ∀ t : Fin grid0.N,
    (BitVec.ofNat 32 ((grid0.coords t) 0).val * 25#32 + BitVec.ofNat 32 ((grid0.coords t) 1).val) * 2000#32
      = BitVec.ofNat 32 (t.val * 2000))

/-- The class word of column q at point t is 2000 t + q. -/
theorem classWord_eq (t : Fin cfg0.N) (q : Fin 2000) :
    Body.classWord (grid0.coords t) q = BitVec.ofNat 32 (t.val * 2000 + q.val) := by
  unfold Body.classWord
  rw [classBase t, ← BitVec.ofNat_add]

/-- Two numbers below 2³² with the same 32-bit word are equal. -/
theorem ofNat_inj_small {a b : ℕ} (ha : a < 2 ^ 32) (hb : b < 2 ^ 32) :
    BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The body's true-class mask at point t is the streamed arrangement's. -/
theorem tileOn_iff (c : Dev nD) (L : Fin 512 → Fin 100000) (hL : ∀ b, Y m c b = BitVec.ofNat 32 (L b).val)
    (t : Fin cfg0.N) (h50 : t.val < 50) (b : Fin 512) (q : Fin 2000) :
    Body.tileOn (grid0.coords t) (yblk m c t) b q ↔ L b = ArcFace.cls ⟨t.val, h50⟩ q := by
  unfold Body.tileOn
  rw [classWord_eq t q, yblk_apply m c t b, hL b,
    ofNat_inj_small (by have := q.isLt; omega) (by have := (L b).isLt; omega)]
  constructor
  · intro h; exact Fin.ext h.symm
  · intro h; rw [h]; rfl

/-- The tile's cosines at point t, with the stored normalised batch, are the cosine matrix's. -/
theorem tileCos_eq (c : Dev nD) (t : Fin cfg0.N) (h50 : t.val < 50) (xn : Vec Ideal S512x512 .bf16)
    (hxn : ∀ b d, xn (ix2 b d) = ArcFace.unit (X m c b) d) (b : Fin 512) (q : Fin 2000) :
    Body.tileCos (wblk m c t) xn b q = Cos m c b (ArcFace.cls ⟨t.val, h50⟩ q) := by
  unfold Body.tileCos Cos ArcFace.cosine
  have e : (fun d' : Fin 512 => wblk m c t (ix2 q d')) = W m c (ArcFace.cls ⟨t.val, h50⟩ q) :=
    funext fun d' => wblk_apply m c t h50 q d'
  rw [e]
  exact Finset.sum_congr rfl fun d _ => by rw [hxn b d]

/-- One point's fold of a row is the streamed arrangement's step. -/
theorem fold_step (c : Dev nD) (L : Fin 512 → Fin 100000) (hL : ∀ b, Y m c b = BitVec.ofNat 32 (L b).val)
    (t : Fin cfg0.N) (h50 : t.val < 50) (xn : Vec Ideal S512x512 .bf16)
    (hxn : ∀ b d, xn (ix2 b d) = ArcFace.unit (X m c b) d) (mv lv tv : Vec Ideal S512x1 .f32) (b : Fin 512) :
    ((Body.bM (F := Ideal) (wblk m c t) xn mv (ix2 b (0 : Fin 1)),
      Body.bL (F := Ideal) (grid0.coords t) (wblk m c t) (yblk m c t) xn mv lv (ix2 b (0 : Fin 1)),
      Body.bT (F := Ideal) (grid0.coords t) (wblk m c t) (yblk m c t) xn tv (ix2 b (0 : Fin 1))) : EReal × EReal × EReal)
      = ArcFace.step (Cos m c) L ⟨t.val, h50⟩ b
          (mv (ix2 b (0 : Fin 1)), lv (ix2 b (0 : Fin 1)), tv (ix2 b (0 : Fin 1))) :=
  (Body.fold_apply (grid0.coords t) (wblk m c t) (yblk m c t) xn mv lv tv b).trans
    ((ArcFace.stepRow_congr (fun q => tileCos_eq m c t h50 xn hxn b q) (fun q => tileOn_iff m c L hL t h50 b q) _).trans
      (ArcFace.step_eq_stepRow (Cos m c) L ⟨t.val, h50⟩ b _).symm)

/-- The batch normalised by the body is the batch normalised. -/
theorem bXn_xblk (c : Dev nD) (t : Fin cfg0.N) (b d : Fin 512) :
    Body.bXn (F := Ideal) (xblk m c t) (ix2 b d) = ArcFace.unit (X m c b) d :=
  (Body.bXn_apply (xblk m c t) b d).trans
    (congrArg (fun v : Fin 512 → EReal => ArcFace.unit v d) (funext fun d' => xblk_apply m c t b d'))

/-! ## What each case leaves, as the body's named compositions on the staged blocks -/

/-- At a half's first tile the stored normalised batch is the batch block normalised. -/
theorem stepA_xn (c : Dev nD) (n : ℕ) (hn : n < cfg0.N) (h0 : n % 25 = 0) (h1 : ¬n % 25 = 24) :
    (outsAt0 m c n hn).2.2.1 = Body.bXn (F := Ideal) (xblk m c (⟨n, hn⟩ : Fin cfg0.N)) := by
  rw [outsAt0_A m c (⟨n, hn⟩ : Fin cfg0.N) h0 h1]
  dsimp only
  exact Pieces.sout0_A_0_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At a half's first tile the maximum is folded from the reset one. -/
theorem stepA_m (c : Dev nD) (n : ℕ) (hn : n < cfg0.N) (h0 : n % 25 = 0) (h1 : ¬n % 25 = 24) :
    (outsAt0 m c n hn).2.2.2.1 = Body.bM (F := Ideal) (wblk m c (⟨n, hn⟩ : Fin cfg0.N)) (Body.bXn (xblk m c (⟨n, hn⟩ : Fin cfg0.N))) (k0_pay7 (F := Ideal)) := by
  rw [outsAt0_A m c (⟨n, hn⟩ : Fin cfg0.N) h0 h1]
  dsimp only
  exact Pieces.sout0_A_1_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At a half's first tile the sum is folded from the reset one. -/
theorem stepA_l (c : Dev nD) (n : ℕ) (hn : n < cfg0.N) (h0 : n % 25 = 0) (h1 : ¬n % 25 = 24) :
    (outsAt0 m c n hn).2.2.2.2.1 = Body.bL (F := Ideal) (grid0.coords (⟨n, hn⟩ : Fin cfg0.N)) (wblk m c (⟨n, hn⟩ : Fin cfg0.N)) (yblk m c (⟨n, hn⟩ : Fin cfg0.N)) (Body.bXn (xblk m c (⟨n, hn⟩ : Fin cfg0.N))) (k0_pay7 (F := Ideal)) (k0_pay8 (F := Ideal)) := by
  rw [outsAt0_A m c (⟨n, hn⟩ : Fin cfg0.N) h0 h1]
  dsimp only
  exact Pieces.sout0_A_2_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At a half's first tile the true-class logit is folded from the reset one. -/
theorem stepA_t (c : Dev nD) (n : ℕ) (hn : n < cfg0.N) (h0 : n % 25 = 0) (h1 : ¬n % 25 = 24) :
    (outsAt0 m c n hn).2.2.2.2.2 = Body.bT (F := Ideal) (grid0.coords (⟨n, hn⟩ : Fin cfg0.N)) (wblk m c (⟨n, hn⟩ : Fin cfg0.N)) (yblk m c (⟨n, hn⟩ : Fin cfg0.N)) (Body.bXn (xblk m c (⟨n, hn⟩ : Fin cfg0.N))) (k0_pay9 (F := Ideal)) := by
  rw [outsAt0_A m c (⟨n, hn⟩ : Fin cfg0.N) h0 h1]
  dsimp only
  exact Pieces.sout0_A_3_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At a middle tile the stored normalised batch is the point before's. -/
theorem stepB_xn (c : Dev nD) (n : ℕ) (hn : n + 1 < cfg0.N) (h0 : ¬(n + 1) % 25 = 0) (h1 : ¬(n + 1) % 25 = 24) :
    (outsAt0 m c (n + 1) hn).2.2.1 = (outsAt0 m c n (Nat.lt_of_succ_lt hn)).2.2.1 := by
  rw [outsAt0_B m c (⟨n + 1, hn⟩ : Fin cfg0.N) h0 h1]
  dsimp only
  rfl

/-- At a middle tile the maximum is folded from the point before's. -/
theorem stepB_m (c : Dev nD) (n : ℕ) (hn : n + 1 < cfg0.N) (h0 : ¬(n + 1) % 25 = 0) (h1 : ¬(n + 1) % 25 = 24) :
    (outsAt0 m c (n + 1) hn).2.2.2.1 = Body.bM (F := Ideal) (wblk m c (⟨n + 1, hn⟩ : Fin cfg0.N)) (outsAt0 m c n (Nat.lt_of_succ_lt hn)).2.2.1 (outsAt0 m c n (Nat.lt_of_succ_lt hn)).2.2.2.1 := by
  rw [outsAt0_B m c (⟨n + 1, hn⟩ : Fin cfg0.N) h0 h1]
  dsimp only
  exact Pieces.sout0_B_1_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- At a middle tile the sum is folded from the point before's. -/
theorem stepB_l (c : Dev nD) (n : ℕ) (hn : n + 1 < cfg0.N) (h0 : ¬(n + 1) % 25 = 0) (h1 : ¬(n + 1) % 25 = 24) :
    (outsAt0 m c (n + 1) hn).2.2.2.2.1 = Body.bL (F := Ideal) (grid0.coords (⟨n + 1, hn⟩ : Fin cfg0.N)) (wblk m c (⟨n + 1, hn⟩ : Fin cfg0.N)) (yblk m c (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 := by
  rw [outsAt0_B m c (⟨n + 1, hn⟩ : Fin cfg0.N) h0 h1]
  dsimp only
  exact Pieces.sout0_B_2_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- At a middle tile the true-class logit is folded from the point before's. -/
theorem stepB_t (c : Dev nD) (n : ℕ) (hn : n + 1 < cfg0.N) (h0 : ¬(n + 1) % 25 = 0) (h1 : ¬(n + 1) % 25 = 24) :
    (outsAt0 m c (n + 1) hn).2.2.2.2.2 = Body.bT (F := Ideal) (grid0.coords (⟨n + 1, hn⟩ : Fin cfg0.N)) (wblk m c (⟨n + 1, hn⟩ : Fin cfg0.N)) (yblk m c (⟨n + 1, hn⟩ : Fin cfg0.N)) (outsAt0 m c n (Nat.lt_of_succ_lt hn)).2.2.1 (outsAt0 m c n (Nat.lt_of_succ_lt hn)).2.2.2.2.2 := by
  rw [outsAt0_B m c (⟨n + 1, hn⟩ : Fin cfg0.N) h0 h1]
  dsimp only
  exact Pieces.sout0_B_3_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) (fun h => h1 ((hcond0_1 (⟨n + 1, hn⟩ : Fin cfg0.N)).mp h)) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- At a last tile the stored normalised batch is the point before's. -/
theorem stepC_xn (c : Dev nD) (n : ℕ) (hn : n + 1 < cfg0.N) (h0 : ¬(n + 1) % 25 = 0) (h1 : (n + 1) % 25 = 24) :
    (outsAt0 m c (n + 1) hn).2.2.1 = (outsAt0 m c n (Nat.lt_of_succ_lt hn)).2.2.1 := by
  rw [outsAt0_C m c (⟨n + 1, hn⟩ : Fin cfg0.N) h0 h1]
  dsimp only
  rfl

/-- At a half's last tile the maximum is folded from the point before's. -/
theorem stepC_m (c : Dev nD) (n : ℕ) (hn : n + 1 < cfg0.N) (h0 : ¬(n + 1) % 25 = 0) (h1 : (n + 1) % 25 = 24) :
    (outsAt0 m c (n + 1) hn).2.2.2.1 = Body.bM (F := Ideal) (wblk m c (⟨n + 1, hn⟩ : Fin cfg0.N)) (outsAt0 m c n (Nat.lt_of_succ_lt hn)).2.2.1 (outsAt0 m c n (Nat.lt_of_succ_lt hn)).2.2.2.1 := by
  rw [outsAt0_C m c (⟨n + 1, hn⟩ : Fin cfg0.N) h0 h1]
  dsimp only
  exact Pieces.sout0_C_1_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- At a half's last tile the sum is folded from the point before's. -/
theorem stepC_l (c : Dev nD) (n : ℕ) (hn : n + 1 < cfg0.N) (h0 : ¬(n + 1) % 25 = 0) (h1 : (n + 1) % 25 = 24) :
    (outsAt0 m c (n + 1) hn).2.2.2.2.1 = Body.bL (F := Ideal) (grid0.coords (⟨n + 1, hn⟩ : Fin cfg0.N)) (wblk m c (⟨n + 1, hn⟩ : Fin cfg0.N)) (yblk m c (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 := by
  rw [outsAt0_C m c (⟨n + 1, hn⟩ : Fin cfg0.N) h0 h1]
  dsimp only
  exact Pieces.sout0_C_2_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- At a half's last tile the true-class logit is folded from the point before's. -/
theorem stepC_t (c : Dev nD) (n : ℕ) (hn : n + 1 < cfg0.N) (h0 : ¬(n + 1) % 25 = 0) (h1 : (n + 1) % 25 = 24) :
    (outsAt0 m c (n + 1) hn).2.2.2.2.2 = Body.bT (F := Ideal) (grid0.coords (⟨n + 1, hn⟩ : Fin cfg0.N)) (wblk m c (⟨n + 1, hn⟩ : Fin cfg0.N)) (yblk m c (⟨n + 1, hn⟩ : Fin cfg0.N)) (outsAt0 m c n (Nat.lt_of_succ_lt hn)).2.2.1 (outsAt0 m c n (Nat.lt_of_succ_lt hn)).2.2.2.2.2 := by
  rw [outsAt0_C m c (⟨n + 1, hn⟩ : Fin cfg0.N) h0 h1]
  dsimp only
  exact Pieces.sout0_C_3_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- A half's last tile emits the log-sum-exp of the new maximum and the new sum. -/
theorem stepC_lse (c : Dev nD) (n : ℕ) (hn : n + 1 < cfg0.N) (h0 : ¬(n + 1) % 25 = 0) (h1 : (n + 1) % 25 = 24) :
    (outsAt0 m c (n + 1) hn).1 = Body.bLse (F := Ideal) (Body.bM (F := Ideal) (wblk m c (⟨n + 1, hn⟩ : Fin cfg0.N)) (outsAt0 m c n (Nat.lt_of_succ_lt hn)).2.2.1 (outsAt0 m c n (Nat.lt_of_succ_lt hn)).2.2.2.1) (Body.bL (F := Ideal) (grid0.coords (⟨n + 1, hn⟩ : Fin cfg0.N)) (wblk m c (⟨n + 1, hn⟩ : Fin cfg0.N)) (yblk m c (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1) := by
  rw [outsAt0_C m c (⟨n + 1, hn⟩ : Fin cfg0.N) h0 h1]
  dsimp only
  exact Pieces.out0_C_3_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-- A half's last tile emits the new true-class logit. -/
theorem stepC_tgt (c : Dev nD) (n : ℕ) (hn : n + 1 < cfg0.N) (h0 : ¬(n + 1) % 25 = 0) (h1 : (n + 1) % 25 = 24) :
    (outsAt0 m c (n + 1) hn).2.1 = Body.bTgt (F := Ideal) (Body.bT (F := Ideal) (grid0.coords (⟨n + 1, hn⟩ : Fin cfg0.N)) (wblk m c (⟨n + 1, hn⟩ : Fin cfg0.N)) (yblk m c (⟨n + 1, hn⟩ : Fin cfg0.N)) (outsAt0 m c n (Nat.lt_of_succ_lt hn)).2.2.1 (outsAt0 m c n (Nat.lt_of_succ_lt hn)).2.2.2.2.2) := by
  rw [outsAt0_C m c (⟨n + 1, hn⟩ : Fin cfg0.N) h0 h1]
  dsimp only
  exact Pieces.out0_C_4_eq (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) scM0_0 (Memref.isWhole_whole _) scM0_1 (Memref.isWhole_whole _) scM0_2 (Memref.isWhole_whole _) scM0_3 (Memref.isWhole_whole _) (fun h => h0 ((hcond0_0 (⟨n + 1, hn⟩ : Fin cfg0.N)).mp h)) ((hcond0_1 (⟨n + 1, hn⟩ : Fin cfg0.N)).mpr h1) (iblk m c 0 (⟨n + 1, hn⟩ : Fin cfg0.N)) (iblk m c 1 (⟨n + 1, hn⟩ : Fin cfg0.N)) (iblk m c 2 (⟨n + 1, hn⟩ : Fin cfg0.N)) (outsAt0 m c n (Nat.lt_of_succ_lt hn)).2.2.1 (outsAt0 m c n (Nat.lt_of_succ_lt hn)).2.2.2.1 (outsAt0 m c n (Nat.lt_of_succ_lt hn)).2.2.2.2.1 (outsAt0 m c n (Nat.lt_of_succ_lt hn)).2.2.2.2.2

/-! ## The induction over the grid points -/

/-- After every point the stored normalised batch is the batch normalised. -/
theorem scratch_xn (c : Dev nD) (n : ℕ) (hn : n < cfg0.N) (b d : Fin 512) :
    (outsAt0 m c n hn).2.2.1 (ix2 b d) = ArcFace.unit (X m c b) d := by
  induction n with
  | zero =>
    rw [stepA_xn m c 0 hn (by decide) (by decide)]
    exact bXn_xblk m c ⟨0, hn⟩ b d
  | succ n ih =>
    by_cases h0 : (n + 1) % 25 = 0
    · rw [stepA_xn m c (n + 1) hn h0 (by omega)]
      exact bXn_xblk m c ⟨n + 1, hn⟩ b d
    · by_cases h1 : (n + 1) % 25 = 24
      · rw [stepC_xn m c n hn h0 h1]
        exact ih _
      · rw [stepB_xn m c n hn h0 h1]
        exact ih _

/-- A half's first tile: the carried triple of row b is the step from the reset triple. -/
theorem first_acc (c : Dev nD) (L : Fin 512 → Fin 100000) (hL : ∀ b, Y m c b = BitVec.ofNat 32 (L b).val)
    (n : ℕ) (hn : n < cfg0.N) (h50 : n < 50) (h0 : n % 25 = 0) (b : Fin 512) :
    (((outsAt0 m c n hn).2.2.2.1 (ix2 b (0 : Fin 1)), (outsAt0 m c n hn).2.2.2.2.1 (ix2 b (0 : Fin 1)),
        (outsAt0 m c n hn).2.2.2.2.2 (ix2 b (0 : Fin 1))) : EReal × EReal × EReal)
      = ArcFace.step (Cos m c) L ⟨n, h50⟩ b ArcFace.init := by
  have h1 : ¬n % 25 = 24 := by omega
  rw [stepA_m m c n hn h0 h1, stepA_l m c n hn h0 h1, stepA_t m c n hn h0 h1]
  refine (fold_step m c L hL ⟨n, hn⟩ h50 (Body.bXn (xblk m c ⟨n, hn⟩)) (bXn_xblk m c ⟨n, hn⟩)
    (k0_pay7 (F := Ideal)) (k0_pay8 (F := Ideal)) (k0_pay9 (F := Ideal)) b).trans ?_
  rw [Body.pay7_apply, Body.pay8_apply, Body.pay9_apply]
  rfl

/-- A later tile: the carried triple of row b is the step from the point before's. -/
theorem later_acc (c : Dev nD) (L : Fin 512 → Fin 100000) (hL : ∀ b, Y m c b = BitVec.ofNat 32 (L b).val)
    (n : ℕ) (hn : n + 1 < cfg0.N) (h50 : n + 1 < 50) (h0 : ¬(n + 1) % 25 = 0) (b : Fin 512) :
    (((outsAt0 m c (n + 1) hn).2.2.2.1 (ix2 b (0 : Fin 1)), (outsAt0 m c (n + 1) hn).2.2.2.2.1 (ix2 b (0 : Fin 1)),
        (outsAt0 m c (n + 1) hn).2.2.2.2.2 (ix2 b (0 : Fin 1))) : EReal × EReal × EReal)
      = ArcFace.step (Cos m c) L ⟨n + 1, h50⟩ b
          ((outsAt0 m c n (Nat.lt_of_succ_lt hn)).2.2.2.1 (ix2 b (0 : Fin 1)), (outsAt0 m c n (Nat.lt_of_succ_lt hn)).2.2.2.2.1 (ix2 b (0 : Fin 1)),
            (outsAt0 m c n (Nat.lt_of_succ_lt hn)).2.2.2.2.2 (ix2 b (0 : Fin 1))) := by
  by_cases h1 : (n + 1) % 25 = 24
  · rw [stepC_m m c n hn h0 h1, stepC_l m c n hn h0 h1, stepC_t m c n hn h0 h1]
    exact fold_step m c L hL ⟨n + 1, hn⟩ h50 (outsAt0 m c n (Nat.lt_of_succ_lt hn)).2.2.1 (scratch_xn m c n (Nat.lt_of_succ_lt hn))
      (outsAt0 m c n (Nat.lt_of_succ_lt hn)).2.2.2.1 (outsAt0 m c n (Nat.lt_of_succ_lt hn)).2.2.2.2.1 (outsAt0 m c n (Nat.lt_of_succ_lt hn)).2.2.2.2.2 b
  · rw [stepB_m m c n hn h0 h1, stepB_l m c n hn h0 h1, stepB_t m c n hn h0 h1]
    exact fold_step m c L hL ⟨n + 1, hn⟩ h50 (outsAt0 m c n (Nat.lt_of_succ_lt hn)).2.2.1 (scratch_xn m c n (Nat.lt_of_succ_lt hn))
      (outsAt0 m c n (Nat.lt_of_succ_lt hn)).2.2.2.1 (outsAt0 m c n (Nat.lt_of_succ_lt hn)).2.2.2.2.1 (outsAt0 m c n (Nat.lt_of_succ_lt hn)).2.2.2.2.2 b

/-- After point `n` the carried triple of row `b` is the streamed arrangement's. -/
theorem scratch_acc (c : Dev nD) (L : Fin 512 → Fin 100000) (hL : ∀ b, Y m c b = BitVec.ofNat 32 (L b).val)
    (n : ℕ) (hn : n < cfg0.N) (h50 : n < 50) (b : Fin 512) :
    (((outsAt0 m c n hn).2.2.2.1 (ix2 b (0 : Fin 1)), (outsAt0 m c n hn).2.2.2.2.1 (ix2 b (0 : Fin 1)),
        (outsAt0 m c n hn).2.2.2.2.2 (ix2 b (0 : Fin 1))) : EReal × EReal × EReal)
      = ArcFace.acc (Cos m c) L n h50 b := by
  induction n with
  | zero => exact first_acc m c L hL 0 hn h50 (by decide) b
  | succ n ih =>
    show _ = (if (n + 1) % 25 = 0 then ArcFace.step (Cos m c) L ⟨n + 1, h50⟩ b ArcFace.init
      else ArcFace.step (Cos m c) L ⟨n + 1, h50⟩ b (ArcFace.acc (Cos m c) L n (Nat.lt_of_succ_lt h50) b))
    by_cases h0 : (n + 1) % 25 = 0
    · rw [if_pos h0]
      exact first_acc m c L hL (n + 1) hn h50 h0 b
    · rw [if_neg h0, ← ih (Nat.lt_of_succ_lt hn) (Nat.lt_of_succ_lt h50)]
      exact later_acc m c L hL n hn h50 h0 b

/-- A half's last point emits the half's log-sum-exp. -/
theorem out_lse (c : Dev nD) (L : Fin 512 → Fin 100000) (hL : ∀ b, Y m c b = BitVec.ofNat 32 (L b).val)
    (n : ℕ) (hn : n < cfg0.N) (h50 : n < 50) (hlast : n % 25 = 24) (b : Fin 512) :
    (outsAt0 m c n hn).1 (ix3 (0 : Fin 1) b (0 : Fin 1))
      = (ArcFace.acc (Cos m c) L n h50 b).1 + Ideal.log (ArcFace.acc (Cos m c) L n h50 b).2.1 := by
  obtain ⟨n, rfl⟩ : ∃ k, n = k + 1 := ⟨n - 1, by omega⟩
  have h0 : ¬(n + 1) % 25 = 0 := by omega
  rw [← scratch_acc m c L hL (n + 1) hn h50 b]
  dsimp only
  rw [stepC_lse m c n hn h0 hlast, stepC_m m c n hn h0 hlast, stepC_l m c n hn h0 hlast]
  exact Body.bLse_apply _ _ b

/-- A half's last point emits the half's true-class logit. -/
theorem out_tgt (c : Dev nD) (L : Fin 512 → Fin 100000) (hL : ∀ b, Y m c b = BitVec.ofNat 32 (L b).val)
    (n : ℕ) (hn : n < cfg0.N) (h50 : n < 50) (hlast : n % 25 = 24) (b : Fin 512) :
    (outsAt0 m c n hn).2.1 (ix3 (0 : Fin 1) b (0 : Fin 1)) = (ArcFace.acc (Cos m c) L n h50 b).2.2 := by
  obtain ⟨n, rfl⟩ : ∃ k, n = k + 1 := ⟨n - 1, by omega⟩
  have h0 : ¬(n + 1) % 25 = 0 := by omega
  rw [← scratch_acc m c L hL (n + 1) hn h50 b]
  dsimp only
  rw [stepC_tgt m c n hn h0 hlast, stepC_t m c n hn h0 hlast]
  exact Body.bTgt_apply _ b

end Cert.KernelIdeal.Induct

end
-- ==== Proof.KerArrays.lean ====
/-
  The two result arrays of the launch after the run: block `i` of each (one block per half) is what the half's last
  grid point wrote back, so entry `(i, b, 0)` of the first is the half's log-sum-exp of row `b` and of the second the
  half's true-class logit; the two last points (24 and 49) cover both arrays.
-/
import proofs.«405375_j44126493999503_2_alg».proof.Proof.KerInduct
import Idealize.ShloMosaic.Lib.Pipeline.Value

set_option maxRecDepth 16384

noncomputable section

open scoped BigOperators

namespace Cert.KernelIdeal.Arrays

open Cert.KernelIdeal Cert.KernelIdeal.Gen Cert.KernelIdeal.Induct Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The carried triple depends on the tile number only, not on the proof of its bound. -/
theorem acc_congr (C : Fin 512 → Fin 100000 → EReal) (L : Fin 512 → Fin 100000) {n n' : ℕ} (h : n = n')
    (hn : n < 50) (hn' : n' < 50) (b : Fin 512) : ArcFace.acc C L n hn b = ArcFace.acc C L n' hn' b := by
  subst h; rfl

/-! ## The first result array: the halves' log-sum-exps -/

/-- The block of the first result array at point `t` is block `(t / 25, 0, 0)`. -/
theorem index_lse : ∀ t : Fin cfg0.N, win0_3.index t (0 : Fin 3) = t.val / 25 ∧ win0_3.index t (1 : Fin 3) = 0
    ∧ win0_3.index t (2 : Fin 3) = 0 :=
  (by decide +kernel : ∀ t : Fin grid0.N, win0_3.index t (0 : Fin 3) = t.val / 25 ∧ win0_3.index t (1 : Fin 3) = 0
    ∧ win0_3.index t (2 : Fin 3) = 0)

/-- The halves' log-sum-exps as one array: entry `(i, b, ·)` is half `i`'s log-sum-exp of row `b`. -/
def lseArr (c : Dev nD) (L : Fin 512 → Fin 100000) : Vec Ideal S2x512x1 .f32 :=
  fun idx => ArcFace.lse (Cos m c) L (idx 0) (idx 1)

/-- What a half's last point writes back is that half's block of the log-sum-exp array. -/
theorem flushed_lse (c : Dev nD) (L : Fin 512 → Fin 100000) (hL : ∀ b, Y m c b = BitVec.ofNat 32 (L b).val)
    (t : Fin cfg0.N) (hf : (cfg0.win 3).flush t = true) :
    (dats m 0 c).flushed 3 t = ((cfg0.win 3).blk t).view.read (Elt Ideal) (lseArr m c L) := by
  have hN : cfg0.N = 50 := N_0
  have ht : t.val < 50 := hN ▸ t.isLt
  have h24 : t.val % 25 = 24 := (flush0_3 t).mp hf
  obtain ⟨e0, e1, e2⟩ := index_lse t
  show (cfg0.win 3).cut (grid0.coords t) ((dats m 0 c).after 3 t) = _
  rw [after0_3]
  funext j
  rw [View.read_apply]
  have hj0 : (j 0).val < 1 := (j 0).isLt
  have hj1 : (j 1).val < 512 := (j 1).isLt
  have hj2 : (j 2).val < 1 := (j 2).isLt
  -- inside the block the entry is (0, j₁, 0)
  have hx : (cfg0.win 3).xinj (grid0.coords t) j = ix3 (0 : Fin 1) (⟨(j 1).val, hj1⟩ : Fin 512) (0 : Fin 1) := by
    funext a; apply Fin.ext
    match a with
    | ⟨0, _⟩ => show (j 0).val = 0; omega
    | ⟨1, _⟩ => rfl
    | ⟨2, _⟩ => show (j 2).val = 0; omega
  -- in the array it is (t / 25, j₁, 0): block index times block size plus the coordinate inside the block
  have he : ((cfg0.win 3).blk t).view.emb j
      = ix3 (⟨t.val / 25, by omega⟩ : Fin 2) (⟨(j 1).val, hj1⟩ : Fin 512) (0 : Fin 1) := by
    funext a; apply Fin.ext
    match a with
    | ⟨0, _⟩ => show win0_3.index t (0 : Fin 3) * 1 + 1 * (j 0).val = t.val / 25; rw [e0]; omega
    | ⟨1, _⟩ => show win0_3.index t (1 : Fin 3) * 512 + 1 * (j 1).val = (j 1).val; rw [e1]; omega
    | ⟨2, _⟩ => show win0_3.index t (2 : Fin 3) * 1 + 1 * (j 2).val = 0; rw [e2]; omega
  show (outsAt0 m c t.val t.isLt).1 ((cfg0.win 3).xinj (grid0.coords t) j)
    = lseArr m c L (((cfg0.win 3).blk t).view.emb j)
  rw [hx, he, out_lse m c L hL t.val t.isLt ht h24]
  show _ = ArcFace.lse (Cos m c) L (⟨t.val / 25, by omega⟩ : Fin 2) (⟨(j 1).val, hj1⟩ : Fin 512)
  unfold ArcFace.lse
  -- t = (t / 25) · 25 + 24 since t ≡ 24 (mod 25)
  rw [acc_congr (Cos m c) L (show t.val = t.val / 25 * 25 + 24 by omega) ht (by omega)]

/-- Every entry of the first result array lies in the block its half's last point (`25 i + 24`) writes back. -/
theorem cover_lse (i : S2x512x1.Idx) :
    ∃ t : Fin cfg0.N, (cfg0.win 3).flush t = true ∧ i ∈ ((cfg0.win 3).blk t).view.set := by
  have hN : cfg0.N = 50 := N_0
  have hi0 : (i 0).val < 2 := (i 0).isLt
  have hi1 : (i 1).val < 512 := (i 1).isLt
  have hi2 : (i 2).val < 1 := (i 2).isLt
  have hlt : (i 0).val * 25 + 24 < cfg0.N := by omega
  obtain ⟨e0, e1, e2⟩ := index_lse ⟨(i 0).val * 25 + 24, hlt⟩
  refine ⟨⟨(i 0).val * 25 + 24, hlt⟩, (flush0_3 _).mpr (by show ((i 0).val * 25 + 24) % 25 = 24; omega), ?_⟩
  show i ∈ ((View.whole main_v1_0).slice (win0_3.rect ⟨(i 0).val * 25 + 24, hlt⟩)).set
  rw [View.set_slice_whole, Rect.mem_set_unit]
  intro a
  match a with
  | ⟨0, _⟩ =>
    show win0_3.index ⟨(i 0).val * 25 + 24, hlt⟩ (0 : Fin 3) * 1 ≤ (i 0).val
      ∧ (i 0).val < win0_3.index ⟨(i 0).val * 25 + 24, hlt⟩ (0 : Fin 3) * 1 + 1
    rw [e0]
    show ((i 0).val * 25 + 24) / 25 * 1 ≤ (i 0).val ∧ (i 0).val < ((i 0).val * 25 + 24) / 25 * 1 + 1
    omega
  | ⟨1, _⟩ =>
    show win0_3.index ⟨(i 0).val * 25 + 24, hlt⟩ (1 : Fin 3) * 512 ≤ (i 1).val
      ∧ (i 1).val < win0_3.index ⟨(i 0).val * 25 + 24, hlt⟩ (1 : Fin 3) * 512 + 512
    rw [e1]; omega
  | ⟨2, _⟩ =>
    show win0_3.index ⟨(i 0).val * 25 + 24, hlt⟩ (2 : Fin 3) * 1 ≤ (i 2).val
      ∧ (i 2).val < win0_3.index ⟨(i 0).val * 25 + 24, hlt⟩ (2 : Fin 3) * 1 + 1
    rw [e2]; omega

/-- The first result array after the run is the log-sum-exp array. -/
theorem final_lse (c : Dev nD) (L : Fin 512 → Fin 100000) (hL : ∀ b, Y m c b = BitVec.ofNat 32 (L b).val) :
    (dats m 0 c).arrAt 3 cfg0.N = lseArr m c L :=
  (dats m 0 c).arrAt_eq_of_cover 3 (lseArr m c L) (flushed_lse m c L hL) cover_lse

/-! ## The second result array: the halves' true-class logits -/

/-- The block of the second result array at point `t` is block `(t / 25, 0, 0)`. -/
theorem index_tgt : ∀ t : Fin cfg0.N, win0_4.index t (0 : Fin 3) = t.val / 25 ∧ win0_4.index t (1 : Fin 3) = 0
    ∧ win0_4.index t (2 : Fin 3) = 0 :=
  (by decide +kernel : ∀ t : Fin grid0.N, win0_4.index t (0 : Fin 3) = t.val / 25 ∧ win0_4.index t (1 : Fin 3) = 0
    ∧ win0_4.index t (2 : Fin 3) = 0)

/-- The halves' true-class logits as one array: entry `(i, b, ·)` is half `i`'s true-class logit of row `b`. -/
def tgtArr (c : Dev nD) (L : Fin 512 → Fin 100000) : Vec Ideal S2x512x1 .f32 :=
  fun idx => ArcFace.tgt (Cos m c) L (idx 0) (idx 1)

/-- What a half's last point writes back is that half's block of the true-class-logit array. -/
theorem flushed_tgt (c : Dev nD) (L : Fin 512 → Fin 100000) (hL : ∀ b, Y m c b = BitVec.ofNat 32 (L b).val)
    (t : Fin cfg0.N) (hf : (cfg0.win 4).flush t = true) :
    (dats m 0 c).flushed 4 t = ((cfg0.win 4).blk t).view.read (Elt Ideal) (tgtArr m c L) := by
  have hN : cfg0.N = 50 := N_0
  have ht : t.val < 50 := hN ▸ t.isLt
  have h24 : t.val % 25 = 24 := (flush0_4 t).mp hf
  obtain ⟨e0, e1, e2⟩ := index_tgt t
  show (cfg0.win 4).cut (grid0.coords t) ((dats m 0 c).after 4 t) = _
  rw [after0_4]
  funext j
  rw [View.read_apply]
  have hj0 : (j 0).val < 1 := (j 0).isLt
  have hj1 : (j 1).val < 512 := (j 1).isLt
  have hj2 : (j 2).val < 1 := (j 2).isLt
  -- inside the block the entry is (0, j₁, 0)
  have hx : (cfg0.win 4).xinj (grid0.coords t) j = ix3 (0 : Fin 1) (⟨(j 1).val, hj1⟩ : Fin 512) (0 : Fin 1) := by
    funext a; apply Fin.ext
    match a with
    | ⟨0, _⟩ => show (j 0).val = 0; omega
    | ⟨1, _⟩ => rfl
    | ⟨2, _⟩ => show (j 2).val = 0; omega
  -- in the array it is (t / 25, j₁, 0): block index times block size plus the coordinate inside the block
  have he : ((cfg0.win 4).blk t).view.emb j
      = ix3 (⟨t.val / 25, by omega⟩ : Fin 2) (⟨(j 1).val, hj1⟩ : Fin 512) (0 : Fin 1) := by
    funext a; apply Fin.ext
    match a with
    | ⟨0, _⟩ => show win0_4.index t (0 : Fin 3) * 1 + 1 * (j 0).val = t.val / 25; rw [e0]; omega
    | ⟨1, _⟩ => show win0_4.index t (1 : Fin 3) * 512 + 1 * (j 1).val = (j 1).val; rw [e1]; omega
    | ⟨2, _⟩ => show win0_4.index t (2 : Fin 3) * 1 + 1 * (j 2).val = 0; rw [e2]; omega
  show (outsAt0 m c t.val t.isLt).2.1 ((cfg0.win 4).xinj (grid0.coords t) j)
    = tgtArr m c L (((cfg0.win 4).blk t).view.emb j)
  rw [hx, he, out_tgt m c L hL t.val t.isLt ht h24]
  show _ = ArcFace.tgt (Cos m c) L (⟨t.val / 25, by omega⟩ : Fin 2) (⟨(j 1).val, hj1⟩ : Fin 512)
  unfold ArcFace.tgt
  -- t = (t / 25) · 25 + 24 since t ≡ 24 (mod 25)
  rw [acc_congr (Cos m c) L (show t.val = t.val / 25 * 25 + 24 by omega) ht (by omega)]

/-- Every entry of the second result array lies in the block its half's last point (`25 i + 24`) writes back. -/
theorem cover_tgt (i : S2x512x1.Idx) :
    ∃ t : Fin cfg0.N, (cfg0.win 4).flush t = true ∧ i ∈ ((cfg0.win 4).blk t).view.set := by
  have hN : cfg0.N = 50 := N_0
  have hi0 : (i 0).val < 2 := (i 0).isLt
  have hi1 : (i 1).val < 512 := (i 1).isLt
  have hi2 : (i 2).val < 1 := (i 2).isLt
  have hlt : (i 0).val * 25 + 24 < cfg0.N := by omega
  obtain ⟨e0, e1, e2⟩ := index_tgt ⟨(i 0).val * 25 + 24, hlt⟩
  refine ⟨⟨(i 0).val * 25 + 24, hlt⟩, (flush0_4 _).mpr (by show ((i 0).val * 25 + 24) % 25 = 24; omega), ?_⟩
  show i ∈ ((View.whole main_v1_1).slice (win0_4.rect ⟨(i 0).val * 25 + 24, hlt⟩)).set
  rw [View.set_slice_whole, Rect.mem_set_unit]
  intro a
  match a with
  | ⟨0, _⟩ =>
    show win0_4.index ⟨(i 0).val * 25 + 24, hlt⟩ (0 : Fin 3) * 1 ≤ (i 0).val
      ∧ (i 0).val < win0_4.index ⟨(i 0).val * 25 + 24, hlt⟩ (0 : Fin 3) * 1 + 1
    rw [e0]
    show ((i 0).val * 25 + 24) / 25 * 1 ≤ (i 0).val ∧ (i 0).val < ((i 0).val * 25 + 24) / 25 * 1 + 1
    omega
  | ⟨1, _⟩ =>
    show win0_4.index ⟨(i 0).val * 25 + 24, hlt⟩ (1 : Fin 3) * 512 ≤ (i 1).val
      ∧ (i 1).val < win0_4.index ⟨(i 0).val * 25 + 24, hlt⟩ (1 : Fin 3) * 512 + 512
    rw [e1]; omega
  | ⟨2, _⟩ =>
    show win0_4.index ⟨(i 0).val * 25 + 24, hlt⟩ (2 : Fin 3) * 1 ≤ (i 2).val
      ∧ (i 2).val < win0_4.index ⟨(i 0).val * 25 + 24, hlt⟩ (2 : Fin 3) * 1 + 1
    rw [e2]; omega

/-- The second result array after the run is the true-class-logit array. -/
theorem final_tgt (c : Dev nD) (L : Fin 512 → Fin 100000) (hL : ∀ b, Y m c b = BitVec.ofNat 32 (L b).val) :
    (dats m 0 c).arrAt 4 cfg0.N = tgtArr m c L :=
  (dats m 0 c).arrAt_eq_of_cover 4 (tgtArr m c L) (flushed_tgt m c L hL) cover_tgt

/-! ## The two arrays, entry by entry -/

/-- The first result array after the run: the halves' log-sum-exps. -/
theorem arr_lse (c : Dev nD) (L : Fin 512 → Fin 100000) (hL : ∀ b, Y m c b = BitVec.ofNat 32 (L b).val)
    (i : Fin 2) (b : Fin 512) :
    ((dats m 0 c).arrAt 3 cfg0.N : Vec Ideal S2x512x1 .f32) (ix3 i b (0 : Fin 1)) = ArcFace.lse (Cos m c) L i b :=
  congrFun (final_lse m c L hL) (ix3 i b (0 : Fin 1))

/-- The second result array after the run: the halves' true-class logits. -/
theorem arr_tgt (c : Dev nD) (L : Fin 512 → Fin 100000) (hL : ∀ b, Y m c b = BitVec.ofNat 32 (L b).val)
    (i : Fin 2) (b : Fin 512) :
    ((dats m 0 c).arrAt 4 cfg0.N : Vec Ideal S2x512x1 .f32) (ix3 i b (0 : Fin 1)) = ArcFace.tgt (Cos m c) L i b :=
  congrFun (final_tgt m c L hL) (ix3 i b (0 : Fin 1))

end Cert.KernelIdeal.Arrays

end
-- ==== Proof.KerRun.lean ====
/-
  The idealized kernel's run, read: every execution ends with the result at the streamed arrangement's mean loss on
  the cosines of the two input matrices and the true labels, the three arguments unchanged. After the launch the
  host slices the two halves out of each result array, joins the log-sum-exps by
  `max a b + log (1 + exp (−|a − b|))` (the guard for an undefined difference never fires on extended reals), adds the
  true-class logits, subtracts, sums over the batch and divides by 512.
-/
import proofs.«405375_j44126493999503_2_alg».proof.Proof.KerArrays
import proofs.«405375_j44126493999503_2_alg».proof.Proof.LibSums
import Idealize.ShloMosaic.Lib.ValueIdx
import Idealize.ShloMosaic.Lib.Pipeline.Value
import Idealize.ShloMosaic.Lib.Pipeline.FrameSuffix
import Idealize.ShloMosaic.Lib.StableHlo.Run
import Idealize.ShloMosaic.PureOps.Ideal.Laws

set_option maxRecDepth 16384

noncomputable section

open scoped BigOperators

namespace Cert.KernelIdeal.Run

open Cert.KernelIdeal Cert.KernelIdeal.Gen Cert.KernelIdeal.Induct Idealize.ShloMosaic Idealize.ShloMosaic.TcCoe Idealize.SL.Sem
open Idealize.ShloMosaic.ValueIdx
open Idealize.ShloMosaic.Pipeline (Dat)
open Idealize.ShloMosaic.LibSums

variable (m : (ℓ : Loc nD τ sig) → Buf (Elt Ideal) ℓ) (ρ : Dev nD → PrngReg)

/-! ## The host lines after the launch, as one term -/

/-- Block 0 of a result array, as a `[512, 1]` column. -/
def col0 (A : Vec Ideal S2x512x1 .f32) : FVec Ideal S512x1 .f32 :=
  shapeCast S512x1 (extractStridedSlice S1x512x1 ![0, 0, 0] A slices_S2x512x1_S1x512x1_0_0_0) shapeCasts_S1x512x1_S512x1

/-- Block 1 of a result array, as a `[512, 1]` column. -/
def col1 (A : Vec Ideal S2x512x1 .f32) : FVec Ideal S512x1 .f32 :=
  shapeCast S512x1 (extractStridedSlice S1x512x1 ![1, 0, 0] A slices_S2x512x1_S1x512x1_1_0_0) shapeCasts_S1x512x1_S512x1

/-- The rows' losses from the two result arrays: the two log-sum-exps joined, less the two true-class logits. -/
def rows (A3 A4 : Vec Ideal S2x512x1 .f32) : FVec Ideal S512x1 .f32 :=
  subf
    (select (cmpf .une (subf (col0 A3) (col1 A3)) (subf (col0 A3) (col1 A3))) (addf (col0 A3) (col1 A3))
      (addf (maximumf (col0 A3) (col1 A3)) (Host.log1p (Host.exp (Host.negf (Host.absf (subf (col0 A3) (col1 A3))))))))
    (addf (col0 A4) (col1 A4))

/-- The host lines after the launch on the two result arrays: the rows' losses summed from 0 and divided by 512. -/
def tail (A3 A4 : Vec Ideal S2x512x1 .f32) : FVec Ideal S_ .f32 :=
  Host.divf
    (Host.reduceAdd (shapeCast S512 (rows A3 A4) shapeCasts_S512x1_S512) (constant (F := Ideal) S_ .f32 0x00000000#32)
      reducesTo_S512_S_d0 h_S_)
    (constant (F := Ideal) S_ .f32 0x44000000#32)

/-- Block 0's column at row `b` is the array at `(0, b, 0)`. -/
theorem col0_apply (A : Vec Ideal S2x512x1 .f32) (b : Fin 512) :
    col0 A (ix2 b (0 : Fin 1)) = A (ix3 (0 : Fin 2) b (0 : Fin 1)) := by
  unfold col0
  refine (shapeCast_apply _ shapeCasts_S1x512x1_S512x1 (ix2 b (0 : Fin 1)) (ix3 (0 : Fin 1) b (0 : Fin 1)) ?_).trans ?_
  · rw [Shape.rowMajor_val_three, Shape.rowMajor_val_two]
    show (0 * 512 + b.val) * 1 + 0 = b.val * 1 + 0
    omega
  · exact extractStridedSlice_apply _ A slices_S2x512x1_S1x512x1_0_0_0 _ (ix3 (0 : Fin 2) b (0 : Fin 1)) (fun a =>
      match a with
      | ⟨0, _⟩ => rfl
      | ⟨1, _⟩ => (Nat.zero_add _).symm
      | ⟨2, _⟩ => rfl)

/-- Block 1's column at row `b` is the array at `(1, b, 0)`. -/
theorem col1_apply (A : Vec Ideal S2x512x1 .f32) (b : Fin 512) :
    col1 A (ix2 b (0 : Fin 1)) = A (ix3 (1 : Fin 2) b (0 : Fin 1)) := by
  unfold col1
  refine (shapeCast_apply _ shapeCasts_S1x512x1_S512x1 (ix2 b (0 : Fin 1)) (ix3 (0 : Fin 1) b (0 : Fin 1)) ?_).trans ?_
  · rw [Shape.rowMajor_val_three, Shape.rowMajor_val_two]
    show (0 * 512 + b.val) * 1 + 0 = b.val * 1 + 0
    omega
  · exact extractStridedSlice_apply _ A slices_S2x512x1_S1x512x1_1_0_0 _ (ix3 (1 : Fin 2) b (0 : Fin 1)) (fun a =>
      match a with
      | ⟨0, _⟩ => rfl
      | ⟨1, _⟩ => (Nat.zero_add _).symm
      | ⟨2, _⟩ => rfl)

/-- An extended real never differs from itself: the comparison guarding an undefined difference is false. -/
theorem cmp_une_self (d : EReal) : Ideal.cmp .une d d = 0#1 := by
  unfold Ideal.cmp
  simp

/-- One row's loss: the two log-sum-exps joined by the larger, less the two true-class logits. -/
theorem rows_apply (A3 A4 : Vec Ideal S2x512x1 .f32) (b : Fin 512) :
    rows A3 A4 (ix2 b (0 : Fin 1))
      = ArcFace.lae (A3 (ix3 (0 : Fin 2) b (0 : Fin 1))) (A3 (ix3 (1 : Fin 2) b (0 : Fin 1)))
        - (A4 (ix3 (0 : Fin 2) b (0 : Fin 1)) + A4 (ix3 (1 : Fin 2) b (0 : Fin 1))) := by
  show Scalar.select
        (Ideal.cmp .une (col0 A3 (ix2 b (0 : Fin 1)) - col1 A3 (ix2 b (0 : Fin 1)))
          (col0 A3 (ix2 b (0 : Fin 1)) - col1 A3 (ix2 b (0 : Fin 1))))
        (col0 A3 (ix2 b (0 : Fin 1)) + col1 A3 (ix2 b (0 : Fin 1)))
        (max (col0 A3 (ix2 b (0 : Fin 1))) (col1 A3 (ix2 b (0 : Fin 1)))
          + Ideal.log1p (Ideal.exp (-(max (col0 A3 (ix2 b (0 : Fin 1)) - col1 A3 (ix2 b (0 : Fin 1)))
              (-(col0 A3 (ix2 b (0 : Fin 1)) - col1 A3 (ix2 b (0 : Fin 1))))))))
      - (col0 A4 (ix2 b (0 : Fin 1)) + col1 A4 (ix2 b (0 : Fin 1))) = _
  rw [cmp_une_self, select_zero, col0_apply, col1_apply, col0_apply, col1_apply]
  rfl

/-- The host lines' result: the mean of the rows' losses. -/
theorem tail_apply (A3 A4 : Vec Ideal S2x512x1 .f32) (lseF tgtF : Fin 2 → Fin 512 → EReal)
    (h3 : ∀ i b, A3 (ix3 i b (0 : Fin 1)) = lseF i b) (h4 : ∀ i b, A4 (ix3 i b (0 : Fin 1)) = tgtF i b) (j : S_.Idx) :
    tail A3 A4 j
      = Ideal.div (∑ b : Fin 512, (ArcFace.lae (lseF 0 b) (lseF 1 b) - (tgtF 0 b + tgtF 1 b))) ArcFace.batch := by
  show Ideal.div (Host.reduceAdd (shapeCast S512 (rows A3 A4) shapeCasts_S512x1_S512)
      (constant (F := Ideal) S_ .f32 0x00000000#32) reducesTo_S512_S_d0 h_S_ j) (Ideal.ofBits .f32 0x44000000#32) = _
  rw [hostSum_all1 _ _ reducesTo_S512_S_d0 h_S_ (fun b => b.elim0) j, constant_apply, Ideal.ofBits_zero_f32, zero_add]
  refine congrArg (fun s => Ideal.div s ArcFace.batch) (Finset.sum_congr rfl fun b _ => ?_)
  rw [shapeCast_a1_a_apply, rows_apply, h3, h3, h4, h4]

/-! ## The host lines on the launch's results -/

set_option maxHeartbeats 1000000 in
/-- From any contents, the host lines after the launch leave `tail` of the two result arrays in the result. -/
theorem after_tail (Vg : Valuation τ sig (Elt Ideal)) :
    StableHlo.after (List.flatten [hostOps1 (F := Ideal)]) Vg (Proc.devRef .tc main_v24)
      = tail (Vg (Proc.devRef .tc main_v1_0)) (Vg (Proc.devRef .tc main_v1_1)) := by
  simp only [List.flatten_cons, List.flatten_nil, List.append_nil]
  after_results_simp
  rfl

/-- The result after the run: the streamed arrangement's mean loss. -/
theorem tail_val (c : Dev nD) (L : Fin 512 → Fin 100000) (hL : ∀ b, Y m c b = BitVec.ofNat 32 (L b).val) :
    Pipeline.afterTail₀ cfgs (dats m) 0 (V0 m) [hostOps1] c main_v24 = fun _ => ArcFace.kerOut (Cos m c) L := by
  unfold Pipeline.afterTail₀
  refine (after_tail _).trans ?_
  funext j
  exact tail_apply _ _ (ArcFace.lse (Cos m c) L) (ArcFace.tgt (Cos m c) L)
    (fun i b => (congrFun (Pipeline.withArrays_arr spec0 launch0.win.arr_inj c _ _ 3) (ix3 i b (0 : Fin 1))).trans
      (Arrays.arr_lse m c L hL i b))
    (fun i b => (congrFun (Pipeline.withArrays_arr spec0 launch0.win.arr_inj c _ _ 4) (ix3 i b (0 : Fin 1))).trans
      (Arrays.arr_tgt m c L hL i b)) j

/-! ## The run -/

/-- The run: the result is the streamed mean loss, the arguments are unchanged. -/
theorem run (L : Dev nD → Fin 512 → Fin 100000) (hL : ∀ c b, Y m c b = BitVec.ofNat 32 (L c b).val) :
    θ_run defs (onTc (τ := τ) (main (F := Ideal))) ⟨m, fun _ => 0, ρ⟩ fun r => ∀ c : Dev nD,
      r.2.mem ((c.tc : Thread nD τ).loc main_v24) = (fun _ => ArcFace.kerOut (Cos m c) (L c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v24 (Pipeline.mem_restRefs_of main_v24 (by decide) (by decide))).trans (tail_val m c (L c) (hL c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Run

end
-- ==== Proof.RefRun.lean ====
/-
  The reference program's run, stage by stage: every execution of its 97 host operations ends with the result
  buffer at the last stage `val_main_v42` of the three arguments — each operation's result is its stage applied to
  the results of the operations before it — and the arguments unchanged.

  `stage V k` is what the buffers hold after the first `k` operations from contents `V`. The operations are taken
  in eleven stretches, cut where few buffers are still to be read: each stretch's lemma says what those buffers hold
  at its end (the stage of the arguments for a buffer written so far, the argument itself for an argument), from the
  same facts at the end of the stretch before.
-/
import proofs.«405375_j44126493999503_2_alg».proof.Proof.RefRunGen
import proofs.«405375_j44126493999503_2_alg».proof.Proof.RefReadGen
import Idealize.ShloMosaic.Lib.StableHlo.Run

noncomputable section

namespace Cert.ReferenceIdeal.RunH

open Cert.ReferenceIdeal Cert.ReferenceIdeal.Gen Cert.ReferenceIdeal.RunP Idealize.ShloMosaic Idealize.ShloMosaic.TcCoe Idealize.SL.Sem Idealize.ShloMosaic.StableHlo

open Cert.ReferenceIdeal.ReadP

variable {F : FTy → Type} [FloatOps F]

/-! ## Stages -/

/-- Two lines one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The contents after the first `k` operations. -/
def stage (V : Valuation τ sig (Elt F)) (k : ℕ) : Valuation τ sig (Elt F) :=
  after ((ops (F := F)).take k) V

/-- The next `k` operations carry stage `j` to stage `j + k`. -/
theorem stage_add (V : Valuation τ sig (Elt F)) (j k : ℕ) :
    stage V (j + k) = after (((ops (F := F)).drop j).take k) (stage V j) := by
  unfold stage
  rw [List.take_add, after_app]

/-- The operations from the `j`-th on carry stage `j` to the end. -/
theorem after_ops (V : Valuation τ sig (Elt F)) (j : ℕ) :
    after (ops (F := F)) V = after ((ops (F := F)).drop j) (stage V j) := by
  unfold stage
  rw [← after_app, List.take_append_drop]

/-- Contents moved to a buffer's own type and back are the contents (a typed operation writes its result so and
    the next one reads it so). -/
theorem ofBuf_toBuf {Val : EltTy → Type} {T : BufTy} (x : TRef sig T) (v : T.Contents Val) :
    x.ofBuf (x.toBuf v) = v := by
  obtain ⟨r, rfl, _, _⟩ := x
  rfl

/-! ## The stretches -/

/-- Operations 0–9: the first argument's rows over their floored lengths (`%7`). -/
theorem stage10 (V : Valuation τ sig (Elt F)) :
    stage V 10 main_arg1 = V main_arg1 ∧ stage V 10 main_arg2 = V main_arg2
      ∧ stage V 10 main_v7 = val_main_v7 (V main_arg0) := by
  unfold stage
  simp only [ops, List.take_succ_cons, List.take_zero]
  refine ⟨?_, ?_, ?_⟩
  · after_results_simp
  · after_results_simp
  · after_results_simp
    rfl

/-- Operations 10–19: the third argument's rows over their floored lengths (`%15`). -/
theorem stage20 (V : Valuation τ sig (Elt F)) :
    stage V 20 main_arg1 = V main_arg1 ∧ stage V 20 main_v7 = val_main_v7 (V main_arg0)
      ∧ stage V 20 main_v15 = val_main_v15 (V main_arg2) := by
  obtain ⟨h1, h2, h7⟩ := stage10 V
  rw [show stage V 20 = after (((ops (F := F)).drop 10).take 10) (stage V 10) from stage_add V 10 10]
  generalize stage V 10 = W at h1 h2 h7 ⊢
  simp only [ops, List.drop_succ_cons, List.drop_zero, List.take_succ_cons, List.take_zero]
  refine ⟨?_, ?_, ?_⟩
  · after_results_simp
    exact h1
  · after_results_simp
    exact h7
  · after_results_simp
    rw [h2]
    rfl

/-- Operations 20–28: the cosines (`%16`) and one minus their squares floored at zero (`%20`). -/
theorem stage29 (V : Valuation τ sig (Elt F)) :
    stage V 29 main_arg1 = V main_arg1
      ∧ stage V 29 main_v16 = val_main_v16 (V main_arg0) (V main_arg2)
      ∧ stage V 29 main_v20 = val_main_v20 (V main_arg0) (V main_arg2) := by
  obtain ⟨h1, h7, h15⟩ := stage20 V
  rw [show stage V 29 = after (((ops (F := F)).drop 20).take 9) (stage V 20) from stage_add V 20 9]
  generalize stage V 20 = W at h1 h7 h15 ⊢
  simp only [ops, List.drop_succ_cons, List.drop_zero, List.take_succ_cons, List.take_zero]
  refine ⟨?_, ?_, ?_⟩
  · after_results_simp
    exact h1
  · after_results_simp
    rw [h7, h15]
    rfl
  · after_results_simp
    rw [h7, h15]
    rfl

/-- Operations 29–36: the cosine of the widened angle above the threshold (`%26`). -/
theorem stage37 (V : Valuation τ sig (Elt F)) :
    stage V 37 main_arg1 = V main_arg1
      ∧ stage V 37 main_v16 = val_main_v16 (V main_arg0) (V main_arg2)
      ∧ stage V 37 main_v26 = val_main_v26 (V main_arg0) (V main_arg2) := by
  obtain ⟨h1, h16, h20⟩ := stage29 V
  rw [show stage V 37 = after (((ops (F := F)).drop 29).take 8) (stage V 29) from stage_add V 29 8]
  generalize stage V 29 = W at h1 h16 h20 ⊢
  simp only [ops, List.drop_succ_cons, List.drop_zero, List.take_succ_cons, List.take_zero]
  refine ⟨?_, ?_, ?_⟩
  · after_results_simp
    exact h1
  · after_results_simp
    exact h16
  · after_results_simp
    rw [h16, h20]
    rfl

/-- Operations 37–43: the widened cosine, by the threshold (`%31`). -/
theorem stage44 (V : Valuation τ sig (Elt F)) :
    stage V 44 main_arg1 = V main_arg1
      ∧ stage V 44 main_v16 = val_main_v16 (V main_arg0) (V main_arg2)
      ∧ stage V 44 main_v31 = val_main_v31 (V main_arg0) (V main_arg2) := by
  obtain ⟨h1, h16, h26⟩ := stage37 V
  rw [show stage V 44 = after (((ops (F := F)).drop 37).take 7) (stage V 37) from stage_add V 37 7]
  generalize stage V 37 = W at h1 h16 h26 ⊢
  simp only [ops, List.drop_succ_cons, List.drop_zero, List.take_succ_cons, List.take_zero]
  refine ⟨?_, ?_, ?_⟩
  · after_results_simp
    exact h1
  · after_results_simp
    exact h16
  · after_results_simp
    rw [h16, h26]
    rfl

/-- Operations 44–52: the logits, widened at the true class only and scaled (`%35`). -/
theorem stage53 (V : Valuation τ sig (Elt F)) :
    stage V 53 main_arg1 = V main_arg1
      ∧ stage V 53 main_v35 = val_main_v35 (V main_arg0) (V main_arg1) (V main_arg2) := by
  obtain ⟨h1, h16, h31⟩ := stage44 V
  rw [show stage V 53 = after (((ops (F := F)).drop 44).take 9) (stage V 44) from stage_add V 44 9]
  generalize stage V 44 = W at h1 h16 h31 ⊢
  simp only [ops, List.drop_succ_cons, List.drop_zero, List.take_succ_cons, List.take_zero]
  refine ⟨?_, ?_⟩
  · after_results_simp
    exact h1
  · after_results_simp
    rw [h1, h16, h31]
    rfl

/-- Operations 53–60: the logits shifted by their row maximum (`%call4_v5`). -/
theorem stage61 (V : Valuation τ sig (Elt F)) :
    stage V 61 main_arg1 = V main_arg1
      ∧ stage V 61 main_call4_v5 = val_main_call4_v5 (V main_arg0) (V main_arg1) (V main_arg2) := by
  obtain ⟨h1, h35⟩ := stage53 V
  rw [show stage V 61 = after (((ops (F := F)).drop 53).take 8) (stage V 53) from stage_add V 53 8]
  generalize stage V 53 = W at h1 h35 ⊢
  simp only [ops, List.drop_succ_cons, List.drop_zero, List.take_succ_cons, List.take_zero]
  refine ⟨?_, ?_⟩
  · after_results_simp
    exact h1
  · after_results_simp
    simp only [ofBuf_toBuf]
    rw [h35]
    rfl

/-- Operations 61–67: the shifted log-probabilities (`%36`). -/
theorem stage68 (V : Valuation τ sig (Elt F)) :
    stage V 68 main_arg1 = V main_arg1
      ∧ stage V 68 main_v36 = val_main_v36 (V main_arg0) (V main_arg1) (V main_arg2) := by
  obtain ⟨h1, h5⟩ := stage61 V
  rw [show stage V 68 = after (((ops (F := F)).drop 61).take 7) (stage V 61) from stage_add V 61 7]
  generalize stage V 61 = W at h1 h5 ⊢
  simp only [ops, List.drop_succ_cons, List.drop_zero, List.take_succ_cons, List.take_zero]
  refine ⟨?_, ?_⟩
  · after_results_simp
    exact h1
  · after_results_simp
    rw [h5]
    rfl

/-- Operations 68–76: the true classes as gather indices, negative ones wrapped (`%call5_v5`). -/
theorem stage77 (V : Valuation τ sig (Elt F)) :
    stage V 77 main_v36 = val_main_v36 (V main_arg0) (V main_arg1) (V main_arg2)
      ∧ stage V 77 main_call5_v5 = val_main_call5_v5 (V main_arg1) := by
  obtain ⟨h1, h36⟩ := stage68 V
  rw [show stage V 77 = after (((ops (F := F)).drop 68).take 9) (stage V 68) from stage_add V 68 9]
  generalize stage V 68 = W at h1 h36 ⊢
  simp only [ops, List.drop_succ_cons, List.drop_zero, List.take_succ_cons, List.take_zero]
  refine ⟨?_, ?_⟩
  · after_results_simp
    exact h36
  · after_results_simp
    rw [h1]
    rfl

/-- Operations 77–87: the in-range mask (`%call5_v12`) and the gathered log-probabilities (`%call5_v13`). -/
theorem stage88 (V : Valuation τ sig (Elt F)) :
    stage V 88 main_call5_v12 = val_main_call5_v12 (V main_arg1)
      ∧ stage V 88 main_call5_v13 = val_main_call5_v13 (V main_arg0) (V main_arg1) (V main_arg2) := by
  obtain ⟨h36, h5⟩ := stage77 V
  rw [show stage V 88 = after (((ops (F := F)).drop 77).take 11) (stage V 77) from stage_add V 77 11]
  generalize stage V 77 = W at h36 h5 ⊢
  simp only [ops, List.drop_succ_cons, List.drop_zero, List.take_succ_cons, List.take_zero]
  refine ⟨?_, ?_⟩
  · after_results_simp
    rw [h5]
    rfl
  · after_results_simp
    rw [h36, h5]
    rfl

/-- Operations 88–96: the mean of the negated true-class log-probabilities (`%42`). -/
theorem result_eq (V : Valuation τ sig (Elt F)) :
    after (ops (F := F)) V main_v42 = val_main_v42 (V main_arg0) (V main_arg1) (V main_arg2) := by
  obtain ⟨h12, h13⟩ := stage88 V
  rw [after_ops V 88]
  generalize stage V 88 = W at h12 h13 ⊢
  simp only [ops, List.drop_succ_cons, List.drop_zero]
  after_results_simp
  rw [h12, h13]
  rfl

/-! ## The arguments -/

/-- No operation writes the first argument. -/
theorem arg0_kept (V : Valuation τ sig (Elt F)) : after (ops (F := F)) V main_arg0 = V main_arg0 := by
  after_results_simp

/-- No operation writes the second argument. -/
theorem arg1_kept (V : Valuation τ sig (Elt F)) : after (ops (F := F)) V main_arg1 = V main_arg1 := by
  after_results_simp

/-- No operation writes the third argument. -/
theorem arg2_kept (V : Valuation τ sig (Elt F)) : after (ops (F := F)) V main_arg2 = V main_arg2 := by
  after_results_simp

/-! ## The run -/

/-- The run: the result is the last stage of the arguments, the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = Cert.ReferenceIdeal.ReadP.val_main_v42 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono
    (fun _ h c => ⟨(h c main_v42).trans (result_eq (launchContents m c)),
      (h c main_arg0).trans (arg0_kept (launchContents m c)),
      (h c main_arg1).trans (arg1_kept (launchContents m c)),
      (h c main_arg2).trans (arg2_kept (launchContents m c))⟩)
    (run_seq scopedRefs_eq scopedSems_eq defs main (fun _ => ops) main_eq (fun _ => ops_sub) m ρ)

end Cert.ReferenceIdeal.RunH

end
-- ==== Proof.RefRead.lean ====
/-
  The reference's last stage at the ideal float instance is the direct arrangement's mean loss on the cosines of
  the two input matrices and the true labels, whenever every label word is the word of its true class (a number
  below 100000): the two normalisations, the inner products, the margin widening selected by the one-hot mask, the
  shifted log-softmax, and the gather of each row's true-class entry — whose start index, for an in-range label, is
  the label itself and passes the bounds test — read index by index.
-/
import proofs.«405375_j44126493999503_2_alg».proof.Proof.RefReadGen
import proofs.«405375_j44126493999503_2_alg».proof.Proof.Spec
import proofs.«405375_j44126493999503_2_alg».proof.Proof.LibSums
import Idealize.ShloMosaic.Lib.ValueIdx
import Idealize.ShloMosaic.Lib.ValueLayout
import Idealize.ShloMosaic.Lib.ReduceAll
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The two normalisations and the cosines -/

/-- A row of the first matrix divided by its floored length. -/
theorem unitX (x0 : (⟨S512x512, .f32⟩ : BufTy).Contents (Elt Ideal)) (b d : Fin 512) :
    val_main_v7 (F := Ideal) x0 (ix2 b d) = ArcFace.unit (fun d' => x0 (ix2 b d')) d := by
  have e : ∀ k : Fin 512, idx_main_v1 (idx_main_v2 (idx_main_v6 (ix2 b d))) k = ix2 b k := fun k =>
    funext fun a => by match a with | ⟨0, _⟩ => rfl | ⟨1, _⟩ => rfl
  rw [val_main_v7_apply, val_main_v6_apply, val_main_v5_apply, val_main_v3_apply, val_main_v2_apply,
    val_main_v1_apply, val_main_v4_apply, val_main_cst_0_apply, val_main_cst_apply]
  simp only [val_main_v0_apply, e, Ideal.hostDivf_def, Ideal.maximumf_def, Ideal.hostUnary_sqrt_def, Ideal.mulf_def,
    Ideal.ofBits_def, Ideal.ofBits_zero_f32, zero_add]
  rfl

/-- A row of the class matrix divided by its floored length. -/
theorem unitW (x2 : (⟨S100000x512, .f32⟩ : BufTy).Contents (Elt Ideal)) (c : Fin 100000) (d : Fin 512) :
    val_main_v15 (F := Ideal) x2 (ix2 c d) = ArcFace.unit (fun d' => x2 (ix2 c d')) d := by
  have e : ∀ k : Fin 512, idx_main_v9 (idx_main_v10 (idx_main_v14 (ix2 c d))) k = ix2 c k := fun k =>
    funext fun a => by match a with | ⟨0, _⟩ => rfl | ⟨1, _⟩ => rfl
  rw [val_main_v15_apply, val_main_v14_apply, val_main_v13_apply, val_main_v11_apply, val_main_v10_apply,
    val_main_v9_apply, val_main_v12_apply, val_main_cst_2_apply, val_main_cst_1_apply]
  simp only [val_main_v8_apply, e, Ideal.hostDivf_def, Ideal.maximumf_def, Ideal.hostUnary_sqrt_def, Ideal.mulf_def,
    Ideal.ofBits_def, Ideal.ofBits_zero_f32, zero_add]
  rfl

/-- The inner product of the two normalised rows. -/
theorem cosine_read (x0 : (⟨S512x512, .f32⟩ : BufTy).Contents (Elt Ideal))
    (x2 : (⟨S100000x512, .f32⟩ : BufTy).Contents (Elt Ideal)) (b : Fin 512) (c : Fin 100000) :
    val_main_v16 (F := Ideal) x0 x2 (ix2 b c)
      = ArcFace.cosine (fun b d => x0 (ix2 b d)) (fun k d => x2 (ix2 k d)) b c := by
  have el : ∀ k : Fin 512, lidx_main_v16 (ix2 b c) k = ix2 b k := fun k =>
    funext fun a => by match a with | ⟨0, _⟩ => rfl | ⟨1, _⟩ => rfl
  have er : ∀ k : Fin 512, ridx_main_v16 (ix2 b c) k = ix2 c k := fun k =>
    funext fun a => by match a with | ⟨0, _⟩ => rfl | ⟨1, _⟩ => rfl
  rw [val_main_v16_apply]
  simp only [el, er, unitX, unitW]
  rfl

/-- The cosines of the two input matrices. -/
abbrev Cos (x0 : (⟨S512x512, .f32⟩ : BufTy).Contents (Elt Ideal)) (x2 : (⟨S100000x512, .f32⟩ : BufTy).Contents (Elt Ideal)) :
    Fin 512 → Fin 100000 → EReal :=
  ArcFace.cosine (fun b d => x0 (ix2 b d)) (fun k d => x2 (ix2 k d))

/-! ## The margin, the one-hot mask and the logits -/

/-- A selection on the bit of the comparison `y < x` is the `if` on that comparison. -/
theorem select_cmp_ogt {α : Type} (x y : EReal) (a b : α) :
    Scalar.select (Ideal.cmp .ogt x y) a b = if y < x then a else b := by
  show (if BitVec.ofBool (decide (y < x)) = 1 then a else b) = _
  by_cases h : y < x
  · rw [if_pos h, decide_eq_true h]; rfl
  · rw [if_neg h, decide_eq_false h]; rfl

/-- The widened cosine, at any index, from the cosine there. -/
theorem margin_read (x0 : (⟨S512x512, .f32⟩ : BufTy).Contents (Elt Ideal))
    (x2 : (⟨S100000x512, .f32⟩ : BufTy).Contents (Elt Ideal)) (i : S512x100000.Idx) :
    val_main_v31 (F := Ideal) x0 x2 i = ArcFace.margin (val_main_v16 (F := Ideal) x0 x2 i) := by
  simp only [val_main_v31_apply, val_main_v28_apply, val_main_v26_apply, val_main_v30_apply, val_main_v23_apply,
    val_main_v25_apply, val_main_v21_apply, val_main_v20_apply, val_main_v19_apply, val_main_v17_apply,
    val_main_v27_apply, val_main_v22_apply, val_main_v24_apply, val_main_v29_apply, val_main_v18_apply,
    val_main_call0_v1_apply, val_main_call0_v0_apply, val_main_cst_7_apply, val_main_cst_5_apply,
    val_main_cst_6_apply, val_main_cst_8_apply, val_main_cst_3_apply, val_main_cst_4_apply,
    Ideal.subf_def, Ideal.mulf_def, Ideal.maximumf_def, Ideal.hostUnary_sqrt_def, Ideal.ofBits_def,
    Ideal.ofBits_zero_f32]
  generalize val_main_v16 (F := Ideal) x0 x2 i = t
  show Scalar.select (Ideal.cmp .ogt t _) _ _ = _
  rw [select_cmp_ogt]
  rfl

/-- The one-hot bit at `(b, c)` is set exactly when `c` is the true class of row `b`. -/
theorem onehot_read (x1 : (⟨S512, .i32⟩ : BufTy).Contents (Elt Ideal)) (L : Fin 512 → Fin 100000)
    (hL : ∀ b : Fin 512, x1 (ix1 b) = BitVec.ofNat 32 (L b).val) (b : Fin 512) (c : Fin 100000) :
    val_main_v32 (F := Ideal) x1 (ix2 b c) = 1#1 ↔ L b = c := by
  have e1 : idx_main_call2_v0 (idx_main_call2_v2 (ix2 b c)) = ix1 b :=
    funext fun a => by match a with | ⟨0, _⟩ => rfl
  rw [val_main_v32_apply, val_main_call2_v2_apply, val_main_call2_v0_apply, val_main_call2_v3_apply,
    val_main_call2_v1_apply, e1, hL, StableHlo.Predicate.cmpi_eq_iff]
  show BitVec.ofNat 32 (L b).val = BitVec.ofNat 32 c.val ↔ L b = c
  constructor
  · intro h
    have h' := congrArg BitVec.toNat h
    simp only [BitVec.toNat_ofNat] at h'
    have hb := (L b).isLt
    have hc := c.isLt
    exact Fin.ext (by omega)
  · intro h; rw [h]

/-- The logit of class `c` in row `b`. -/
theorem logit_read (x0 : (⟨S512x512, .f32⟩ : BufTy).Contents (Elt Ideal)) (x1 : (⟨S512, .i32⟩ : BufTy).Contents (Elt Ideal))
    (x2 : (⟨S100000x512, .f32⟩ : BufTy).Contents (Elt Ideal)) (L : Fin 512 → Fin 100000)
    (hL : ∀ b : Fin 512, x1 (ix1 b) = BitVec.ofNat 32 (L b).val) (b : Fin 512) (c : Fin 100000) :
    val_main_v35 (F := Ideal) x0 x1 x2 (ix2 b c) = ArcFace.logit (Cos x0 x2) L b c := by
  rw [val_main_v35_apply, val_main_v33_apply, val_main_v34_apply, val_main_cst_9_apply, margin_read, cosine_read]
  unfold ArcFace.logit
  by_cases h : L b = c
  · rw [(onehot_read x1 L hL b c).2 h, select_one, if_pos h]; rfl
  · rw [eq_zero_of_ne_one (mt (onehot_read x1 L hL b c).1 h), select_zero, if_neg h]; rfl

/-! ## The shifted log-softmax -/

/-- The host's maximum over axis 1 of a rank-2 array, from the initial value −∞, at row `j`: the supremum over the
    coordinate on that axis. -/
theorem hostMax_axis1_of2 {φ : FTy} {n0 n1 : Nat} {u : Shape}
    (x : FVec Ideal ⟨2, ![n0, n1]⟩ φ) (init : u.Idx → Ideal φ)
    (h' : Shape.ReducesTo ⟨2, ![n0, n1]⟩ [1] ⟨1, ![n0]⟩) (hu : 0 < u.numel)
    (hinit : init (Shape.Idx.first hu) = ⊥) (j : (⟨1, ![n0]⟩ : Shape).Idx) :
    Host.reduce (FloatOps.maximumf (F := Ideal) (φ := φ)) x init h' hu j
      = (Finset.univ : Finset (Fin n1)).sup (fun c => x (ix2 (j 0) c)) := by
  rw [Host.reduce_eq_fold, hinit]
  refine (LibSums.fold_filter_drop_of_lift h' _ _ x j (fun c => ix2 (j 0) c) (fun i => i 1) ?_ (fun _ => rfl) ?_).trans
    (LibSums.fold_max_bot _ _)
  · intro c; funext b
    match b with
    | ⟨0, _⟩ => rfl
  · intro i hi; subst hi; funext a
    match a with
    | ⟨0, _⟩ => rfl
    | ⟨1, _⟩ => rfl

section
variable (x0 : (⟨S512x512, .f32⟩ : BufTy).Contents (Elt Ideal)) (x1 : (⟨S512, .i32⟩ : BufTy).Contents (Elt Ideal))
  (x2 : (⟨S100000x512, .f32⟩ : BufTy).Contents (Elt Ideal)) (L : Fin 512 → Fin 100000)
  (hL : ∀ b : Fin 512, x1 (ix1 b) = BitVec.ofNat 32 (L b).val)
include hL

/-- The row maximum of the logits. -/
theorem rowmax_read (b : Fin 512) :
    val_main_call4_v2 (F := Ideal) x0 x1 x2 (ix1 b) = Finset.univ.sup (ArcFace.logit (Cos x0 x2) L b) := by
  rw [val_main_call4_v2_apply, val_main_call4_v1_apply, val_main_call4_cst_0_apply]
  unfold val_main_call4_v0
  rw [hostMax_axis1_of2 _ _ _ _ (show val_main_call4_cst (F := Ideal) (Shape.Idx.first h_S_) = ⊥ from
    LibSums.ofBits_neg_inf_f32)]
  show max (Ideal.ofBits .f32 0xFF800000#32) _ = _
  rw [LibSums.ofBits_neg_inf_f32, LibSums.max_bot_left]
  exact congrArg Finset.univ.sup (funext fun c => logit_read x0 x1 x2 L hL b c)

/-- A logit shifted by its row's maximum. -/
theorem shift_read (b : Fin 512) (c : Fin 100000) :
    val_main_call4_v5 (F := Ideal) x0 x1 x2 (ix2 b c)
      = ArcFace.logit (Cos x0 x2) L b c - Finset.univ.sup (ArcFace.logit (Cos x0 x2) L b) := by
  have e : idx_main_call4_v3 (idx_main_call4_v4 (ix2 b c)) = ix1 b :=
    funext fun a => by match a with | ⟨0, _⟩ => rfl
  rw [val_main_call4_v5_apply, val_main_call4_v4_apply, val_main_call4_v3_apply, e, rowmax_read x0 x1 x2 L hL,
    logit_read x0 x1 x2 L hL]
  rfl

/-- The shifted log-probability of class `c` in row `b`. -/
theorem lsm_read (b : Fin 512) (c : Fin 100000) :
    val_main_v36 (F := Ideal) x0 x1 x2 (ix2 b c)
      = (ArcFace.logit (Cos x0 x2) L b c - Finset.univ.sup (ArcFace.logit (Cos x0 x2) L b))
        - Ideal.log (∑ c', Ideal.exp (ArcFace.logit (Cos x0 x2) L b c'
            - Finset.univ.sup (ArcFace.logit (Cos x0 x2) L b))) := by
  have e1 : idx_main_call4_v8 (idx_main_call4_v10 (ix2 b c)) = ix1 b :=
    funext fun a => by match a with | ⟨0, _⟩ => rfl
  have e2 : ∀ k : Fin 100000, idx_main_call4_v7 (ix1 b) k = ix2 b k := fun k =>
    funext fun a => by match a with | ⟨0, _⟩ => rfl | ⟨1, _⟩ => rfl
  rw [val_main_v36_apply, val_main_call4_v10_apply, val_main_call4_v9_apply, val_main_call4_v8_apply, e1,
    val_main_call4_v7_apply, val_main_call4_cst_1_apply]
  simp only [e2, val_main_call4_v6_apply, shift_read x0 x1 x2 L hL, Ideal.hostUnary_exp_def, Ideal.hostUnary_log_def,
    Ideal.subf_def, Ideal.ofBits_def, Ideal.ofBits_zero_f32, zero_add]

end

/-! ## The gather of each row's true-class entry -/

/-- On the batching axis the gather reads the result's own row. -/
theorem gather_axis0 (j : S512x1.Idx) (idx : IVec S512x1x1 32) :
    (gather_S512x100000_S512x1x1_S512x1_n_1_0_0_1_2_11.operandIdx j idx 0).val = (j 0).val := by
  have h0 : (0 : Fin S512x100000.rank) ∈ gather_S512x100000_S512x1x1_S512x1_n_1_0_0_1_2_11.operandBatchingDims := by
    decide
  show gather_S512x100000_S512x1x1_S512x1_n_1_0_0_1_2_11.start j idx 0
      + gather_S512x100000_S512x1x1_S512x1_n_1_0_0_1_2_11.batchCoord j 0
      + gather_S512x100000_S512x1x1_S512x1_n_1_0_0_1_2_11.offCoord j 0 = _
  rw [GatherDims.start_batching _ j idx 0 h0,
    GatherDims.offCoord_eq_zero _ j 0 (fun h => ((GatherDims.mem_sKept _ 0).1 h).2 h0), Nat.zero_add, Nat.add_zero]
  unfold GatherDims.batchCoord
  rw [dif_pos h0]
  rfl

/-- On the class axis the gather reads the start index, taken signed and clamped into `[0, 99999]`. -/
theorem gather_axis1 (j : S512x1.Idx) (idx : IVec S512x1x1 32) :
    (gather_S512x100000_S512x1x1_S512x1_n_1_0_0_1_2_11.operandIdx j idx 1).val
      = min (idx (ix3 (j 0) (j 1) (0 : Fin 1))).toInt.toNat 99999 := by
  have h1 : (1 : Fin S512x100000.rank) ∈ gather_S512x100000_S512x1x1_S512x1_n_1_0_0_1_2_11.startIndexMap := by decide
  have hb : (1 : Fin S512x100000.rank) ∉ gather_S512x100000_S512x1x1_S512x1_n_1_0_0_1_2_11.operandBatchingDims := by
    decide
  have hc : (1 : Fin S512x100000.rank) ∈ gather_S512x100000_S512x1x1_S512x1_n_1_0_0_1_2_11.collapsedSliceDims := by
    decide
  show gather_S512x100000_S512x1x1_S512x1_n_1_0_0_1_2_11.start j idx 1
      + gather_S512x100000_S512x1x1_S512x1_n_1_0_0_1_2_11.batchCoord j 1
      + gather_S512x100000_S512x1x1_S512x1_n_1_0_0_1_2_11.offCoord j 1 = _
  rw [GatherDims.batchCoord_eq_zero _ j 1 hb,
    GatherDims.offCoord_eq_zero _ j 1 (fun h => ((GatherDims.mem_sKept _ 1).1 h).1 hc)]
  simp only [Nat.add_zero]
  unfold GatherDims.start
  rw [dif_pos h1]
  have hsi : gather_S512x100000_S512x1x1_S512x1_n_1_0_0_1_2_11.siIdx j
      ⟨List.idxOf (1 : Fin S512x100000.rank) gather_S512x100000_S512x1x1_S512x1_n_1_0_0_1_2_11.startIndexMap,
        List.idxOf_lt_length_iff.2 h1⟩ = ix3 (j 0) (j 1) (0 : Fin 1) := by
    funext a; refine Fin.ext ?_
    match a with
    | ⟨0, _⟩ => rfl
    | ⟨1, _⟩ => rfl
    | ⟨2, _⟩ => rfl
  rw [hsi]
  rfl

/-- So, when the start index of row `b` is the word of a class `n`, the gather reads column `n` of row `b`. -/
theorem gather_read {α : Type} (x : S512x100000.Idx → α) (idx : IVec S512x1x1 32) (b : Fin 512) (n : Fin 100000)
    (hidx : idx (ix3 b (0 : Fin 1) (0 : Fin 1)) = BitVec.ofNat 32 n.val) :
    Host.gather gather_S512x100000_S512x1x1_S512x1_n_1_0_0_1_2_11 x idx (ix2 b (0 : Fin 1)) = x (ix2 b n) := by
  unfold Host.gather
  congr 1
  funext a
  refine Fin.ext ?_
  have hn := n.isLt
  match a with
  | ⟨0, _⟩ => exact gather_axis0 _ _
  | ⟨1, _⟩ =>
    refine (gather_axis1 _ _).trans ?_
    show min (idx (ix3 b (0 : Fin 1) (0 : Fin 1))).toInt.toNat 99999 = n.val
    rw [hidx, StableHlo.Predicate.toInt_ofNat_small _ (by omega), Int.toNat_natCast]
    exact Nat.min_eq_left (by omega)

/-- An `and`-reduce over a last axis of size one, at `j`: the one element there, and the initial value. -/
theorem hostAnd_axis2_unit {n0 : Nat} {u : Shape} (x : IVec ⟨3, ![n0, 1, 1]⟩ 1) (init : u.Idx → BitVec 1)
    (h' : Shape.ReducesTo ⟨3, ![n0, 1, 1]⟩ [2] ⟨2, ![n0, 1]⟩) (hu : 0 < u.numel) (j : (⟨2, ![n0, 1]⟩ : Shape).Idx) :
    Host.reduce IntOp.andi x init h' hu j
      = IntOp.andi (x (ix3 (j 0) (j 1) (0 : Fin 1))) (init (Shape.Idx.first hu)) := by
  rw [Host.reduce_eq_fold]
  refine (LibSums.fold_filter_drop_of_lift h' _ _ x j (fun k : Fin 1 => ix3 (j 0) (j 1) k) (fun i => i 2) ?_
    (fun _ => rfl) ?_).trans ?_
  · intro c; funext b
    match b with
    | ⟨0, _⟩ => rfl
    | ⟨1, _⟩ => rfl
  · intro i hi; subst hi; funext a
    match a with
    | ⟨0, _⟩ => rfl
    | ⟨1, _⟩ => rfl
    | ⟨2, _⟩ => rfl
  · rw [Finset.univ_unique, Finset.fold_singleton]
    rfl

/-- The start index of row `b`: a label word is not negative, so the wrap leaves it as it is. -/
theorem start_read (x1 : (⟨S512, .i32⟩ : BufTy).Contents (Elt Ideal)) (L : Fin 512 → Fin 100000)
    (hL : ∀ b : Fin 512, x1 (ix1 b) = BitVec.ofNat 32 (L b).val) (b : Fin 512) :
    val_main_call5_v5 (F := Ideal) x1 (ix3 b (0 : Fin 1) (0 : Fin 1)) = BitVec.ofNat 32 (L b).val := by
  have e5 : idx_main_call5_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  have e : idx_main_v37 (ix2 b (0 : Fin 1)) = ix1 b := funext fun a => by match a with | ⟨0, _⟩ => rfl
  have hb := (L b).isLt
  have hn : (BitVec.ofNat 32 (L b).val).toNat < 2 ^ 31 := by rw [BitVec.toNat_ofNat]; omega
  have hslt : IntOp.cmpi .slt (BitVec.ofNat 32 (L b).val) 0#32 = 0#1 :=
    eq_zero_of_ne_one fun h => Nat.not_lt_zero _ ((StableHlo.Predicate.slt_iff_toNat hn (by decide)).1 h)
  rw [val_main_call5_v5_apply, e5, val_main_call5_v4_apply, val_main_call5_v1_apply, val_main_v37_apply, e, hL,
    val_main_call5_v0_apply, val_main_call5_c_apply, hslt, select_zero]

/-- The bounds test of row `b` passes: the start index lies in `[0, 99999]`. -/
theorem bounds_read (x1 : (⟨S512, .i32⟩ : BufTy).Contents (Elt Ideal)) (L : Fin 512 → Fin 100000)
    (hL : ∀ b : Fin 512, x1 (ix1 b) = BitVec.ofNat 32 (L b).val) (b : Fin 512) :
    val_main_call5_v12 (F := Ideal) x1 (ix2 b (0 : Fin 1)) = 1#1 := by
  have hb := (L b).isLt
  have hn : (BitVec.ofNat 32 (L b).val).toNat < 2 ^ 31 := by rw [BitVec.toNat_ofNat]; omega
  have h99 : (99999#32 : BitVec 32).toNat = 99999 := by decide
  have hge : IntOp.cmpi .sge (BitVec.ofNat 32 (L b).val) 0#32 = 1#1 :=
    (StableHlo.Predicate.sge_iff_toNat hn (by decide)).2 (Nat.zero_le _)
  have hle : IntOp.cmpi .sle (BitVec.ofNat 32 (L b).val) 99999#32 = 1#1 :=
    (StableHlo.Predicate.sle_iff_toNat hn (by decide)).2 (by rw [BitVec.toNat_ofNat, h99]; omega)
  unfold val_main_call5_v12
  rw [hostAnd_axis2_unit]
  show IntOp.andi (val_main_call5_v11 (F := Ideal) x1 (ix3 b (0 : Fin 1) (0 : Fin 1)))
    (val_main_call5_c_3 (F := Ideal) _) = 1#1
  rw [val_main_call5_v11_apply, val_main_call5_v7_apply, val_main_call5_v10_apply, start_read x1 L hL b,
    val_main_call5_v6_apply, val_main_call5_c_2_apply, val_main_call5_v9_apply, val_main_call5_v8_apply,
    val_main_call5_c_1_apply, val_main_call5_c_3_apply, hge, hle]
  rfl

/-- The entry taken from row `b` is the one at the true class. -/
theorem taken_read (x0 : (⟨S512x512, .f32⟩ : BufTy).Contents (Elt Ideal)) (x1 : (⟨S512, .i32⟩ : BufTy).Contents (Elt Ideal))
    (x2 : (⟨S100000x512, .f32⟩ : BufTy).Contents (Elt Ideal)) (L : Fin 512 → Fin 100000)
    (hL : ∀ b : Fin 512, x1 (ix1 b) = BitVec.ofNat 32 (L b).val) (b : Fin 512) :
    val_main_v38 (F := Ideal) x0 x1 x2 (ix2 b (0 : Fin 1)) = val_main_v36 (F := Ideal) x0 x1 x2 (ix2 b (L b)) := by
  rw [val_main_v38_apply, bounds_read x1 L hL b, select_one]
  unfold val_main_call5_v13
  exact gather_read _ _ b (L b) (start_read x1 L hL b)

/-! ## The mean over the batch -/

/-- The reference's result is the direct mean loss. -/
theorem ref_value (x0 : (⟨S512x512, .f32⟩ : BufTy).Contents (Elt Ideal)) (x1 : (⟨S512, .i32⟩ : BufTy).Contents (Elt Ideal))
    (x2 : (⟨S100000x512, .f32⟩ : BufTy).Contents (Elt Ideal)) (L : Fin 512 → Fin 100000)
    (hL : ∀ b : Fin 512, x1 (ix1 b) = BitVec.ofNat 32 (L b).val) (i : S_.Idx) :
    val_main_v42 (F := Ideal) x0 x1 x2 i
      = ArcFace.refOut (ArcFace.cosine (fun b d => x0 (ix2 b d)) (fun k d => x2 (ix2 k d))) L := by
  have e39 : ∀ b : Fin 512, idx_main_v39 (ix1 b) = ix2 b (0 : Fin 1) := fun b =>
    funext fun a => Fin.ext (by
      match a with
      | ⟨0, _⟩ => show b.val / 1 = b.val; omega
      | ⟨1, _⟩ => rfl)
  rw [val_main_v42_apply, val_main_v41_apply, val_main_cst_11_apply, val_main_cst_10_apply, LibSums.sum_idx1]
  simp only [val_main_v40_apply, val_main_v39_apply, e39, taken_read x0 x1 x2 L hL, lsm_read x0 x1 x2 L hL,
    Ideal.hostDivf_def, Ideal.hostNegf_def, Ideal.negf_def, Ideal.ofBits_def, Ideal.ofBits_zero_f32, zero_add]
  rfl

end Cert.ReferenceIdeal.RefValue

end
-- ==== Proof.RealMath.lean ====
/-
  The streamed and the direct arrangement of the margin softmax loss agree over ℝ, for any margin function `g` and
  any scale `s`.

  Within a half, after tile `n` the carried maximum is the largest PLAIN logit of the half's tiles so far, the carried
  sum is `Σ exp (z_c − m)` over those tiles' classes with `z` the margin-widened logit (the correction swaps the true
  class's plain term for its widened one; moving the maximum multiplies the old sum by `exp (m_old − m_new)`), and the
  carried true-class logit is `z_{L b}` once the tile holding the true class has passed, `0` before. Hence a half
  ends at `log Σ_{c in the half} exp z_c`, the join of the halves is `log Σ_c exp z_c`, and exactly one half
  contributes `z_{L b}`; the direct arrangement is the same number because a common shift cancels between the
  exponent and the logarithm.
-/
import proofs.«405375_j44126493999503_2_alg».proof.Proof.Spec
import Mathlib.Analysis.SpecialFunctions.Log.Basic
import Mathlib.Analysis.SpecialFunctions.Exp
import Mathlib.Algebra.BigOperators.Fin
import Mathlib.Algebra.BigOperators.Intervals
import Mathlib.Order.Interval.Finset.Nat
import Mathlib.Tactic.Ring
import Mathlib.Tactic.Linarith
import Mathlib.Tactic.LinearCombination

noncomputable section

open scoped BigOperators

namespace ArcFace.Real

open ArcFace

variable (g : ℝ → ℝ) (s : ℝ) (Cr : Fin 512 → Fin 100000 → ℝ) (L : Fin 512 → Fin 100000)

/-! ## Tiles and classes -/

/-- Within a tile, distinct offsets are distinct classes. -/
theorem cls_inj (t : Fin 50) {q q' : Fin 2000} (h : cls t q = cls t q') : q = q' := by
  have hv := congrArg Fin.val h
  simp only [cls] at hv
  exact Fin.ext (by omega)

/-- (tile, offset) ↦ class is a bijection: tile `c / 2000`, offset `c % 2000`. -/
def clsEquiv : Fin 50 × Fin 2000 ≃ Fin 100000 where
  toFun p := cls p.1 p.2
  invFun c := (⟨c.val / 2000, by have := c.isLt; omega⟩, ⟨c.val % 2000, by omega⟩)
  left_inv := by
    rintro ⟨t, q⟩
    have ht := t.isLt
    have hq := q.isLt
    refine Prod.ext (Fin.ext ?_) (Fin.ext ?_)
    · show (t.val * 2000 + q.val) / 2000 = t.val
      omega
    · show (t.val * 2000 + q.val) % 2000 = q.val
      omega
  right_inv := by
    intro c
    apply Fin.ext
    show c.val / 2000 * 2000 + c.val % 2000 = c.val
    omega

/-- A sum over all classes is the sum over tiles of the sums over each tile's classes. -/
theorem sum_cls (F : Fin 100000 → ℝ) : ∑ c, F c = ∑ t : Fin 50, ∑ q : Fin 2000, F (cls t q) := by
  rw [← Fintype.sum_prod_type' (fun t q => F (cls t q))]
  exact (Fintype.sum_equiv clsEquiv (fun p => F (cls p.1 p.2)) F (fun _ => rfl)).symm

/-- A tile's sum masked to the true class has at most one non-zero term. -/
theorem sum_cls_ite (t : Fin 50) (b : Fin 512) (F : Fin 100000 → ℝ) :
    (∑ q : Fin 2000, if L b = cls t q then F (cls t q) else 0) = if hit L t b then F (L b) else 0 := by
  by_cases hh : hit L t b
  · obtain ⟨q0, hq0⟩ := hh
    rw [if_pos ⟨q0, hq0⟩, Finset.sum_eq_single q0]
    · rw [if_pos hq0, hq0]
    · intro q _ hne
      rw [if_neg]
      intro h
      exact hne (cls_inj t (h.symm.trans hq0))
    · intro h
      exact absurd (Finset.mem_univ q0) h
  · rw [if_neg hh]
    apply Finset.sum_eq_zero
    intro q _
    rw [if_neg]
    intro h
    exact hh ⟨q, h⟩

/-- The tile's masked cosine is the true-class cosine when the tile holds the true class. -/
theorem tcos_eq (t : Fin 50) (b : Fin 512) : tcos Cr L t b = if hit L t b then Cr b (L b) else 0 := by
  unfold tcos
  exact sum_cls_ite L t b (fun c => Cr b c)

/-- The logit at the true class is the widened one. -/
theorem logit_true (b : Fin 512) : logit g s Cr L b (L b) = g (Cr b (L b)) * s := by
  unfold logit
  rw [if_pos rfl]

/-- The tile's contribution to the true-class logit. -/
theorem tileTgt_eq (t : Fin 50) (b : Fin 512) :
    tileTgt g s Cr L t b = if hit L t b then logit g s Cr L b (L b) else 0 := by
  unfold tileTgt
  by_cases hh : hit L t b
  · rw [if_pos hh, if_pos hh, tcos_eq, if_pos hh, logit_true]
  · rw [if_neg hh, if_neg hh]

/-- One widened term is the plain term plus the correction at the true class. -/
theorem exp_logit_split (t : Fin 50) (b : Fin 512) (mn : ℝ) (q : Fin 2000) :
    Real.exp (logit g s Cr L b (cls t q) - mn)
      = Real.exp (Cr b (cls t q) * s - mn)
        + (if L b = cls t q then
            Real.exp (g (Cr b (cls t q)) * s - mn) - Real.exp (Cr b (cls t q) * s - mn) else 0) := by
  unfold logit
  by_cases h : L b = cls t q
  · rw [if_pos h, if_pos h]; ring
  · rw [if_neg h, if_neg h, add_zero]

/-- The corrected tile sum is the sum of the exponentials of the widened logits against the shift. -/
theorem tileSum_eq_sum (t : Fin 50) (b : Fin 512) (mn : ℝ) :
    tileSum g s Cr L t b mn = ∑ q : Fin 2000, Real.exp (logit g s Cr L b (cls t q) - mn) := by
  rw [Finset.sum_congr rfl (fun q _ => exp_logit_split g s Cr L t b mn q), Finset.sum_add_distrib,
    sum_cls_ite L t b (fun c => Real.exp (g (Cr b c) * s - mn) - Real.exp (Cr b c * s - mn))]
  unfold tileSum
  by_cases hh : hit L t b
  · rw [if_pos hh, if_pos hh, tcos_eq, if_pos hh]
  · rw [if_neg hh, if_neg hh]

/-- The unshifted sum of a tile's exponentials. -/
def Zt (t : Fin 50) (b : Fin 512) : ℝ := ∑ q : Fin 2000, Real.exp (logit g s Cr L b (cls t q))

theorem Zt_pos (t : Fin 50) (b : Fin 512) : 0 < Zt g s Cr L t b :=
  Finset.sum_pos (fun _ _ => Real.exp_pos _) Finset.univ_nonempty

/-- The shift factors out of a tile's sum. -/
theorem tileSum_eq (t : Fin 50) (b : Fin 512) (mn : ℝ) :
    tileSum g s Cr L t b mn = Real.exp (-mn) * Zt g s Cr L t b := by
  rw [tileSum_eq_sum, Zt, Finset.mul_sum]
  apply Finset.sum_congr rfl
  intro q _
  rw [← Real.exp_add]
  congr 1
  ring

/-! ## The carried triple within a half -/

/-- A tile's unshifted sum, indexed by a natural number (zero past the last tile). -/
def ZN (b : Fin 512) (u : ℕ) : ℝ := if h : u < 50 then Zt g s Cr L ⟨u, h⟩ b else 0

/-- A tile's true-class contribution, indexed by a natural number (zero past the last tile). -/
def TN (b : Fin 512) (u : ℕ) : ℝ := if h : u < 50 then tileTgt g s Cr L ⟨u, h⟩ b else 0

theorem ZN_of_lt (b : Fin 512) (u : ℕ) (h : u < 50) : ZN g s Cr L b u = Zt g s Cr L ⟨u, h⟩ b := dif_pos h

theorem TN_of_lt (b : Fin 512) (u : ℕ) (h : u < 50) : TN g s Cr L b u = tileTgt g s Cr L ⟨u, h⟩ b := dif_pos h

theorem ZN_pos (b : Fin 512) (u : ℕ) (h : u < 50) : 0 < ZN g s Cr L b u := by
  rw [ZN_of_lt g s Cr L b u h]
  exact Zt_pos g s Cr L _ b

/-- A non-empty run of tiles has a positive sum of exponentials. -/
theorem sum_ZN_pos (b : Fin 512) (a c : ℕ) (hac : a < c) (hc : c ≤ 50) :
    0 < ∑ u ∈ Finset.Ico a c, ZN g s Cr L b u := by
  apply Finset.sum_pos
  · intro u hu
    have := Finset.mem_Ico.mp hu
    exact ZN_pos g s Cr L b u (by omega)
  · exact Finset.nonempty_Ico.mpr hac

theorem acc_zero (h : 0 < 50) (b : Fin 512) : acc g s Cr L 0 h b = first g s Cr L ⟨0, h⟩ b := rfl

theorem acc_succ (n : ℕ) (h : n + 1 < 50) (b : Fin 512) :
    acc g s Cr L (n + 1) h b
      = if (n + 1) % 25 = 0 then first g s Cr L ⟨n + 1, h⟩ b
        else step g s Cr L ⟨n + 1, h⟩ b (acc g s Cr L n (Nat.lt_of_succ_lt h) b) := rfl

/-- A half's first tile: the sum is the tile's own exponentials against its own maximum. -/
theorem first_inv (t : Fin 50) (b : Fin 512) :
    (first g s Cr L t b).2.1 = Real.exp (-(first g s Cr L t b).1) * Zt g s Cr L t b
      ∧ (first g s Cr L t b).2.2 = tileTgt g s Cr L t b := by
  refine ⟨?_, rfl⟩
  show tileSum g s Cr L t b (tileMax s Cr t b) = Real.exp (-(tileMax s Cr t b)) * Zt g s Cr L t b
  exact tileSum_eq g s Cr L t b _

/-- A later tile: moving the maximum rescales the old sum, `exp (m − m') · exp (−m) = exp (−m')`. -/
theorem step_inv (t : Fin 50) (b : Fin 512) (st : ℝ × ℝ × ℝ) (S T : ℝ)
    (h1 : st.2.1 = Real.exp (-st.1) * S) (h2 : st.2.2 = T) :
    (step g s Cr L t b st).2.1 = Real.exp (-(step g s Cr L t b st).1) * (S + Zt g s Cr L t b)
      ∧ (step g s Cr L t b st).2.2 = T + tileTgt g s Cr L t b := by
  constructor
  · show Real.exp (st.1 - max st.1 (tileMax s Cr t b)) * st.2.1
        + tileSum g s Cr L t b (max st.1 (tileMax s Cr t b))
      = Real.exp (-(max st.1 (tileMax s Cr t b))) * (S + Zt g s Cr L t b)
    rw [tileSum_eq, h1]
    have e : Real.exp (st.1 - max st.1 (tileMax s Cr t b)) * Real.exp (-st.1)
        = Real.exp (-(max st.1 (tileMax s Cr t b))) := by
      rw [← Real.exp_add]
      congr 1
      ring
    linear_combination S * e
  · show st.2.2 + tileTgt g s Cr L t b = T + tileTgt g s Cr L t b
    rw [h2]

theorem Ico_first (n : ℕ) (hn : n % 25 = 0) : Finset.Ico (25 * (n / 25)) (n + 1) = {n} := by
  have e : 25 * (n / 25) = n := by omega
  rw [e, Nat.Ico_succ_singleton]

/-- After tile `n` the carried sum is `exp (−m)` times the sum of the exponentials of the half's tiles so far, and the
    carried true-class logit is the sum of those tiles' contributions. -/
theorem acc_inv (b : Fin 512) : ∀ (n : ℕ) (h : n < 50),
    (acc g s Cr L n h b).2.1
        = Real.exp (-(acc g s Cr L n h b).1) * ∑ u ∈ Finset.Ico (25 * (n / 25)) (n + 1), ZN g s Cr L b u
      ∧ (acc g s Cr L n h b).2.2 = ∑ u ∈ Finset.Ico (25 * (n / 25)) (n + 1), TN g s Cr L b u := by
  intro n
  induction n with
  | zero =>
    intro h
    rw [acc_zero, Ico_first 0 rfl, Finset.sum_singleton, Finset.sum_singleton,
      ZN_of_lt g s Cr L b 0 h, TN_of_lt g s Cr L b 0 h]
    exact first_inv g s Cr L ⟨0, h⟩ b
  | succ n ih =>
    intro h
    by_cases hn : (n + 1) % 25 = 0
    · rw [acc_succ, if_pos hn, Ico_first (n + 1) hn, Finset.sum_singleton, Finset.sum_singleton,
        ZN_of_lt g s Cr L b (n + 1) h, TN_of_lt g s Cr L b (n + 1) h]
      exact first_inv g s Cr L ⟨n + 1, h⟩ b
    · have ha : 25 * ((n + 1) / 25) = 25 * (n / 25) := by omega
      have hle : 25 * (n / 25) ≤ n + 1 := by omega
      obtain ⟨ih1, ih2⟩ := ih (Nat.lt_of_succ_lt h)
      rw [acc_succ, if_neg hn, ha, Finset.sum_Ico_succ_top hle, Finset.sum_Ico_succ_top hle,
        ZN_of_lt g s Cr L b (n + 1) h, TN_of_lt g s Cr L b (n + 1) h]
      exact step_inv g s Cr L ⟨n + 1, h⟩ b _ _ _ ih1 ih2

/-- The carried sum is positive after every tile (it is a sum of exponentials over at least one class). -/
theorem acc_sum_pos (n : ℕ) (h : n < 50) (b : Fin 512) : 0 < (acc g s Cr L n h b).2.1 := by
  rw [(acc_inv g s Cr L b n h).1]
  exact mul_pos (Real.exp_pos _) (sum_ZN_pos g s Cr L b _ _ (by omega) (by omega))

/-! ## The halves and their join -/

/-- A half ends at the logarithm of the sum of its exponentials. -/
theorem lse_eq (i : Fin 2) (b : Fin 512) (a c : ℕ) (ha : a = 25 * i.val) (hc : c = a + 25) :
    lse g s Cr L i b = Real.log (∑ u ∈ Finset.Ico a c, ZN g s Cr L b u) := by
  have hi := i.isLt
  have e1 : 25 * ((i.val * 25 + 24) / 25) = a := by omega
  have e2 : i.val * 25 + 24 + 1 = c := by omega
  have hpos : 0 < ∑ u ∈ Finset.Ico a c, ZN g s Cr L b u := sum_ZN_pos g s Cr L b a c (by omega) (by omega)
  unfold lse
  rw [(acc_inv g s Cr L b (i.val * 25 + 24) (last_lt i)).1, e1, e2,
    Real.log_mul (Real.exp_ne_zero _) hpos.ne', Real.log_exp]
  ring

/-- A half's true-class logit is the sum of its tiles' contributions. -/
theorem tgt_eq (i : Fin 2) (b : Fin 512) (a c : ℕ) (ha : a = 25 * i.val) (hc : c = a + 25) :
    tgt g s Cr L i b = ∑ u ∈ Finset.Ico a c, TN g s Cr L b u := by
  have hi := i.isLt
  have e1 : 25 * ((i.val * 25 + 24) / 25) = a := by omega
  have e2 : i.val * 25 + 24 + 1 = c := by omega
  unfold tgt
  rw [(acc_inv g s Cr L b (i.val * 25 + 24) (last_lt i)).2, e1, e2]

/-- The join of two halves is the logarithm of the sum of their exponentials. -/
theorem lae_eq (a b : ℝ) : lae a b = Real.log (Real.exp a + Real.exp b) := by
  unfold lae
  rcases le_total b a with h | h
  · have e : Real.exp a + Real.exp b = Real.exp a * (1 + Real.exp (-(a - b))) := by
      rw [mul_add, mul_one, ← Real.exp_add]
      have : a + -(a - b) = b := by ring
      rw [this]
    rw [max_eq_left h, max_eq_left (by linarith : -(a - b) ≤ a - b), e,
      Real.log_mul (Real.exp_ne_zero _) (add_pos one_pos (Real.exp_pos _)).ne', Real.log_exp]
  · have e : Real.exp a + Real.exp b = Real.exp b * (1 + Real.exp (-(-(a - b)))) := by
      rw [mul_add, mul_one, ← Real.exp_add]
      have : b + -(-(a - b)) = a := by ring
      rw [this, add_comm]
    rw [max_eq_right h, max_eq_right (by linarith : a - b ≤ -(a - b)), e,
      Real.log_mul (Real.exp_ne_zero _) (add_pos one_pos (Real.exp_pos _)).ne', Real.log_exp]

theorem lae_log (x y : ℝ) (hx : 0 < x) (hy : 0 < y) : lae (Real.log x) (Real.log y) = Real.log (x + y) := by
  rw [lae_eq, Real.exp_log hx, Real.exp_log hy]

/-- The two runs of 25 tiles make up all 50. -/
theorem sum_halves (f : ℕ → ℝ) (F : Fin 50 → ℝ) (hF : ∀ t : Fin 50, f t.val = F t) :
    (∑ u ∈ Finset.Ico 0 25, f u) + (∑ u ∈ Finset.Ico 25 50, f u) = ∑ t : Fin 50, F t := by
  rw [Finset.sum_Ico_consecutive f (by norm_num) (by norm_num), ← Finset.range_eq_Ico,
    ← Fin.sum_univ_eq_sum_range]
  exact Finset.sum_congr rfl (fun t _ => hF t)

/-- All tiles' exponentials together are all classes' exponentials. -/
theorem sum_ZN_all (b : Fin 512) :
    (∑ u ∈ Finset.Ico 0 25, ZN g s Cr L b u) + (∑ u ∈ Finset.Ico 25 50, ZN g s Cr L b u)
      = ∑ c, Real.exp (logit g s Cr L b c) := by
  rw [sum_halves (ZN g s Cr L b) (fun t => Zt g s Cr L t b) (fun t => ZN_of_lt g s Cr L b t.val t.isLt),
    sum_cls (fun c => Real.exp (logit g s Cr L b c))]
  rfl

/-- Exactly one tile contributes the true-class logit. -/
theorem sum_TN_all (b : Fin 512) :
    (∑ u ∈ Finset.Ico 0 25, TN g s Cr L b u) + (∑ u ∈ Finset.Ico 25 50, TN g s Cr L b u)
      = logit g s Cr L b (L b) := by
  rw [sum_halves (TN g s Cr L b) (fun t => tileTgt g s Cr L t b) (fun t => TN_of_lt g s Cr L b t.val t.isLt)]
  have e : ∀ t : Fin 50, tileTgt g s Cr L t b
      = ∑ q : Fin 2000, if L b = cls t q then (fun _ => logit g s Cr L b (L b)) (cls t q) else 0 := by
    intro t
    rw [sum_cls_ite L t b (fun _ => logit g s Cr L b (L b)), tileTgt_eq]
  rw [Finset.sum_congr rfl (fun t _ => e t),
    ← sum_cls (fun c => if L b = c then (fun _ => logit g s Cr L b (L b)) c else 0),
    Finset.sum_ite_eq, if_pos (Finset.mem_univ _)]

/-- The direct arrangement: the common shift cancels. -/
theorem refRow_eq (b : Fin 512) :
    refRow g s Cr L b = Real.log (∑ c, Real.exp (logit g s Cr L b c)) - logit g s Cr L b (L b) := by
  unfold refRow
  have hpos : 0 < ∑ c, Real.exp (logit g s Cr L b c) :=
    Finset.sum_pos (fun _ _ => Real.exp_pos _) Finset.univ_nonempty
  have e : ∑ c, Real.exp (logit g s Cr L b c - rowMax g s Cr L b)
      = Real.exp (-(rowMax g s Cr L b)) * ∑ c, Real.exp (logit g s Cr L b c) := by
    rw [Finset.mul_sum]
    apply Finset.sum_congr rfl
    intro c _
    rw [← Real.exp_add]
    congr 1
    ring
  rw [e, Real.log_mul (Real.exp_ne_zero _) hpos.ne', Real.log_exp]
  ring

/-- One row: the two halves joined give the direct loss. -/
theorem kerRow_eq_refRow (b : Fin 512) : kerRow g s Cr L b = refRow g s Cr L b := by
  unfold kerRow
  rw [lse_eq g s Cr L 0 b 0 25 rfl rfl, lse_eq g s Cr L 1 b 25 50 rfl rfl,
    tgt_eq g s Cr L 0 b 0 25 rfl rfl, tgt_eq g s Cr L 1 b 25 50 rfl rfl,
    lae_log _ _ (sum_ZN_pos g s Cr L b 0 25 (by norm_num) (by norm_num))
      (sum_ZN_pos g s Cr L b 25 50 (by norm_num) (by norm_num)),
    sum_ZN_all, sum_TN_all, refRow_eq]

end ArcFace.Real

end
-- ==== Proof.CoeBridge.lean ====
/-
  On real cosines the extended-real arrangements are the coercions of the real ones: every operation involved
  (sum, product, difference, maximum, `exp`, `log` of a positive number, `√` of a non-negative number) maps reals to
  reals and commutes with the coercion; the only infinity met is the starting maximum −∞ of a half, whose first tile
  gives `exp (−∞ − m) · 0 = 0`. (The carried sum's positivity over ℝ, needed under the logarithm, is taken as a hypothesis here.)
-/
import proofs.«405375_j44126493999503_2_alg».proof.Proof.Spec
import Mathlib.Data.EReal.Operations
import Mathlib.Data.Finset.Lattice.Fold
import Mathlib.Order.Lattice

noncomputable section

open scoped BigOperators

namespace ArcFace

open Idealize.ShloMosaic

namespace CoeBridge

/-! ## The coercion ℝ → EReal commutes with the operations used -/

/-- An extended real that is the coercion of some real is the coercion of its own real part. -/
theorem coe_of_real {x : EReal} (h : ∃ r : ℝ, x = (r : EReal)) : x = ((x.toReal : ℝ) : EReal) := by
  obtain ⟨r, rfl⟩ := h
  rw [EReal.toReal_coe]

/-- The coercion commutes with the binary maximum. -/
theorem coe_max' (x y : ℝ) : ((max x y : ℝ) : EReal) = max (x : EReal) (y : EReal) :=
  EReal.coe_strictMono.monotone.map_max

/-- The coercion commutes with finite sums. -/
theorem coe_sum' {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The supremum (with bottom −∞) of finitely many coerced reals over a nonempty index set is the coerced maximum. -/
theorem coe_sup' {ι : Type*} (s : Finset ι) (hs : s.Nonempty) (f : ι → ℝ) :
    s.sup (fun i => ((f i : ℝ) : EReal)) = ((s.sup' hs f : ℝ) : EReal) := by
  have h := Finset.apply_sup'_eq_sup'_comp hs (f := f) Real.toEReal
    (fun x y => EReal.coe_strictMono.monotone.map_sup x y)
  rw [Finset.sup'_eq_sup hs (Real.toEReal ∘ f)] at h
  exact h.symm

/-- The logarithm of a positive coerced real. -/
theorem log_coe_pos {r : ℝ} (h : 0 < r) : Ideal.log (r : EReal) = ((Real.log r : ℝ) : EReal) := by
  rw [Ideal.log_coe, if_neg (not_le.2 h)]

/-- The square root of a non-negative coerced real. -/
theorem sqrt_coe_nonneg {r : ℝ} (h : 0 ≤ r) : Ideal.sqrt (r : EReal) = ((Real.sqrt r : ℝ) : EReal) := by
  rw [Ideal.sqrt_coe, if_neg (not_lt.2 h)]

/-! ## The constant words denote reals -/

theorem scale_real : ∃ r : ℝ, scale = (r : EReal) := by
  unfold scale; simp [Ideal.ofBits, Ideal.ieee, -EReal.coe_mul] <;> exact ⟨_, rfl⟩
theorem cosM_real : ∃ r : ℝ, cosM = (r : EReal) := by
  unfold cosM; simp [Ideal.ofBits, Ideal.ieee, -EReal.coe_mul] <;> exact ⟨_, rfl⟩
theorem sinM_real : ∃ r : ℝ, sinM = (r : EReal) := by
  unfold sinM; simp [Ideal.ofBits, Ideal.ieee, -EReal.coe_mul] <;> exact ⟨_, rfl⟩
theorem thr_real : ∃ r : ℝ, thr = (r : EReal) := by
  unfold thr; simp [Ideal.ofBits, Ideal.ieee, -EReal.coe_mul] <;> exact ⟨_, rfl⟩
theorem mm_real : ∃ r : ℝ, mm = (r : EReal) := by
  unfold mm; simp [Ideal.ofBits, Ideal.ieee, -EReal.coe_mul] <;> exact ⟨_, rfl⟩
theorem one_real : ∃ r : ℝ, one = (r : EReal) := by
  unfold one; simp [Ideal.ofBits, Ideal.ieee, -EReal.coe_mul] <;> exact ⟨_, rfl⟩

/-- The real parts of the constants of the margin. -/
def cosMR : ℝ := cosM.toReal
def sinMR : ℝ := sinM.toReal
def thrR : ℝ := thr.toReal
def mmR : ℝ := mm.toReal
def oneR : ℝ := one.toReal

theorem cosM_coe : cosM = ((cosMR : ℝ) : EReal) := coe_of_real cosM_real
theorem sinM_coe : sinM = ((sinMR : ℝ) : EReal) := coe_of_real sinM_real
theorem thr_coe : thr = ((thrR : ℝ) : EReal) := coe_of_real thr_real
theorem mm_coe : mm = ((mmR : ℝ) : EReal) := coe_of_real mm_real
theorem one_coe : one = ((oneR : ℝ) : EReal) := coe_of_real one_real

end CoeBridge

open CoeBridge

/-- The margin function on reals, as a real function. -/
def marginR (t : ℝ) : ℝ := (margin (t : EReal)).toReal

/-- The scale as a real. -/
def scaleR : ℝ := scale.toReal

/-- The scale word denotes a real number. -/
theorem scale_coe : scale = ((scaleR : ℝ) : EReal) := coe_of_real scale_real

/-- The widened cosine of a real is some real: both branches are built from reals by sums, products, differences,
    a maximum with 0 and the square root of the resulting non-negative number. -/
theorem CoeBridge.margin_real (t : ℝ) : ∃ r : ℝ, margin (t : EReal) = (r : EReal) := by
  unfold margin
  rw [thr_coe, cosM_coe, sinM_coe, mm_coe, one_coe]
  have h0 : (0 : ℝ) ≤ max 0 (oneR - t * t) := le_max_left _ _
  split_ifs with h
  · refine ⟨t * cosMR - Real.sqrt (max 0 (oneR - t * t)) * sinMR, ?_⟩
    rw [EReal.coe_sub, EReal.coe_mul, EReal.coe_mul, ← sqrt_coe_nonneg h0, coe_max', EReal.coe_sub,
      EReal.coe_mul, EReal.coe_zero]
  · exact ⟨t - mmR, by rw [EReal.coe_sub]⟩

/-- The widened cosine of a real is a real. -/
theorem margin_coe (t : ℝ) : margin (t : EReal) = ((marginR t : ℝ) : EReal) := coe_of_real (CoeBridge.margin_real t)

namespace CoeBridge

/-! ## Logits and the direct arrangement -/

/-- The logit on coerced cosines is the coerced real logit. -/
theorem logit_coe (Cr : Fin 512 → Fin 100000 → ℝ) (L : Fin 512 → Fin 100000) (b : Fin 512) (c : Fin 100000) :
    logit (fun b c => ((Cr b c : ℝ) : EReal)) L b c = ((Real.logit marginR scaleR Cr L b c : ℝ) : EReal) := by
  simp only [logit, Real.logit]
  rw [EReal.coe_mul, ← scale_coe]
  split_ifs with h
  · rw [← margin_coe]
  · rfl

theorem logit_coe_fun (Cr : Fin 512 → Fin 100000 → ℝ) (L : Fin 512 → Fin 100000) (b : Fin 512) :
    logit (fun b c => ((Cr b c : ℝ) : EReal)) L b
      = fun c => ((Real.logit marginR scaleR Cr L b c : ℝ) : EReal) :=
  funext (logit_coe Cr L b)

/-- Minus the shifted log-probability of entry `j` of a finite nonempty family of reals, computed over the
    extended reals, is the coercion of the same expression over ℝ. -/
theorem shifted_coe {ι : Type*} [Fintype ι] [Nonempty ι] (f : ι → ℝ) (j : ι) :
    -((((f j : ℝ) : EReal) - Finset.univ.sup (fun c => ((f c : ℝ) : EReal)))
        - Ideal.log (∑ c, Ideal.exp (((f c : ℝ) : EReal) - Finset.univ.sup (fun c => ((f c : ℝ) : EReal)))))
      = ((-((f j - Finset.univ.sup' Finset.univ_nonempty f)
          - Real.log (∑ c, Real.exp (f c - Finset.univ.sup' Finset.univ_nonempty f))) : ℝ) : EReal) := by
  rw [coe_sup' Finset.univ Finset.univ_nonempty f]
  have hpos : 0 < ∑ c, Real.exp (f c - Finset.univ.sup' Finset.univ_nonempty f) :=
    Finset.sum_pos (fun c _ => Real.exp_pos _) Finset.univ_nonempty
  have h1 : ∀ c, Ideal.exp (((f c : ℝ) : EReal) - ((Finset.univ.sup' Finset.univ_nonempty f : ℝ) : EReal))
      = ((Real.exp (f c - Finset.univ.sup' Finset.univ_nonempty f) : ℝ) : EReal) := by
    intro c; rw [← EReal.coe_sub, Ideal.exp_coe]
  rw [Finset.sum_congr rfl (fun c _ => h1 c), coe_sum', log_coe_pos hpos, ← EReal.coe_sub, ← EReal.coe_sub,
    ← EReal.coe_neg]

/-! ## The streamed arrangement -/

/-- The masked true-class cosine of a tile. -/
theorem tcos_coe (Cr : Fin 512 → Fin 100000 → ℝ) (L : Fin 512 → Fin 100000) (t : Fin 50) (b : Fin 512) :
    tcos (fun b c => ((Cr b c : ℝ) : EReal)) L t b = ((Real.tcos Cr L t b : ℝ) : EReal) := by
  simp only [tcos, Real.tcos]
  rw [← coe_sum']
  refine Finset.sum_congr rfl (fun q _ => ?_)
  split_ifs
  · rfl
  · rw [EReal.coe_zero]

/-- The largest plain logit of a tile. -/
theorem tileMax_coe (Cr : Fin 512 → Fin 100000 → ℝ) (t : Fin 50) (b : Fin 512) :
    tileMax (fun b c => ((Cr b c : ℝ) : EReal)) t b = ((Real.tileMax scaleR Cr t b : ℝ) : EReal) := by
  have h : (fun q : Fin 2000 => ((Cr b (cls t q) : ℝ) : EReal) * scale)
      = fun q => ((Cr b (cls t q) * scaleR : ℝ) : EReal) := by
    funext q; rw [EReal.coe_mul, ← scale_coe]
  simp only [tileMax, Real.tileMax]
  rw [h, coe_sup' Finset.univ Finset.univ_nonempty]

/-- The tile's contribution to the true-class logit. -/
theorem tileTgt_coe (Cr : Fin 512 → Fin 100000 → ℝ) (L : Fin 512 → Fin 100000) (t : Fin 50) (b : Fin 512) :
    (if hit L t b then margin (tcos (fun b c => ((Cr b c : ℝ) : EReal)) L t b) * scale else 0)
      = ((Real.tileTgt marginR scaleR Cr L t b : ℝ) : EReal) := by
  simp only [Real.tileTgt]
  rw [tcos_coe, margin_coe]
  split_ifs
  · rw [EReal.coe_mul, ← scale_coe]
  · rw [EReal.coe_zero]

/-- The tile's own sum of exponentials against a real shift, true-class term corrected. -/
theorem tileSum_coe (Cr : Fin 512 → Fin 100000 → ℝ) (L : Fin 512 → Fin 100000) (t : Fin 50) (b : Fin 512)
    (mn : ℝ) :
    (∑ q : Fin 2000, Ideal.exp (((Cr b (cls t q) : ℝ) : EReal) * scale - (mn : EReal)))
      + (if hit L t b then
          Ideal.exp (margin (tcos (fun b c => ((Cr b c : ℝ) : EReal)) L t b) * scale - (mn : EReal))
            - Ideal.exp (tcos (fun b c => ((Cr b c : ℝ) : EReal)) L t b * scale - (mn : EReal))
        else 0)
      = ((Real.tileSum marginR scaleR Cr L t b mn : ℝ) : EReal) := by
  have h1 : ∀ x : ℝ, Ideal.exp ((x : EReal) * scale - (mn : EReal))
      = ((Real.exp (x * scaleR - mn) : ℝ) : EReal) := by
    intro x; rw [scale_coe, ← EReal.coe_mul, ← EReal.coe_sub, Ideal.exp_coe]
  simp only [Real.tileSum]
  rw [tcos_coe, margin_coe, h1, h1, Finset.sum_congr rfl (fun q _ => h1 (Cr b (cls t q))), coe_sum',
    EReal.coe_add]
  congr 1
  split_ifs
  · rw [EReal.coe_sub]
  · rw [EReal.coe_zero]

/-- A later tile folded into a carried triple of reals. -/
theorem step_coe (Cr : Fin 512 → Fin 100000 → ℝ) (L : Fin 512 → Fin 100000) (t : Fin 50) (b : Fin 512)
    (st : ℝ × ℝ × ℝ) :
    step (fun b c => ((Cr b c : ℝ) : EReal)) L t b ((st.1 : EReal), (st.2.1 : EReal), (st.2.2 : EReal))
      = (((Real.step marginR scaleR Cr L t b st).1 : EReal),
         ((Real.step marginR scaleR Cr L t b st).2.1 : EReal),
         ((Real.step marginR scaleR Cr L t b st).2.2 : EReal)) := by
  simp only [step, Real.step]
  rw [tileMax_coe, ← coe_max', add_assoc, tileSum_coe, tileTgt_coe, ← EReal.coe_sub, Ideal.exp_coe,
    ← EReal.coe_mul, ← EReal.coe_add, ← EReal.coe_add]

/-- The first tile of a half: the starting maximum −∞ gives way to the tile's own, and the carried sum 0 and
    true-class logit 0 contribute nothing. -/
theorem first_coe (Cr : Fin 512 → Fin 100000 → ℝ) (L : Fin 512 → Fin 100000) (t : Fin 50) (b : Fin 512) :
    step (fun b c => ((Cr b c : ℝ) : EReal)) L t b init
      = (((Real.first marginR scaleR Cr L t b).1 : EReal),
         ((Real.first marginR scaleR Cr L t b).2.1 : EReal),
         ((Real.first marginR scaleR Cr L t b).2.2 : EReal)) := by
  have hmax : ∀ x : EReal, max ⊥ x = x := fun x => max_eq_right bot_le
  simp only [step, init, Real.first]
  rw [tileMax_coe, hmax, mul_zero, zero_add, zero_add, tileSum_coe, tileTgt_coe]

/-- The carried triple after any tile is the coerced real one, componentwise. -/
theorem acc_coe (Cr : Fin 512 → Fin 100000 → ℝ) (L : Fin 512 → Fin 100000) (n : ℕ) :
    ∀ (h : n < 50) (b : Fin 512),
      acc (fun b c => ((Cr b c : ℝ) : EReal)) L n h b
        = (((Real.acc marginR scaleR Cr L n h b).1 : EReal),
           ((Real.acc marginR scaleR Cr L n h b).2.1 : EReal),
           ((Real.acc marginR scaleR Cr L n h b).2.2 : EReal)) := by
  induction n with
  | zero =>
    intro h b
    simp only [acc, Real.acc]
    exact first_coe Cr L ⟨0, h⟩ b
  | succ n ih =>
    intro h b
    simp only [acc, Real.acc]
    split_ifs with hm
    · exact first_coe Cr L ⟨n + 1, h⟩ b
    · rw [ih (Nat.lt_of_succ_lt h) b]
      exact step_coe Cr L ⟨n + 1, h⟩ b (Real.acc marginR scaleR Cr L n (Nat.lt_of_succ_lt h) b)

/-- A half's log-sum-exp, the carried sum being positive. -/
theorem lse_coe (Cr : Fin 512 → Fin 100000 → ℝ) (L : Fin 512 → Fin 100000)
    (hpos : ∀ (n : ℕ) (h : n < 50) (b : Fin 512), 0 < (Real.acc marginR scaleR Cr L n h b).2.1)
    (i : Fin 2) (b : Fin 512) :
    lse (fun b c => ((Cr b c : ℝ) : EReal)) L i b = ((Real.lse marginR scaleR Cr L i b : ℝ) : EReal) := by
  simp only [lse, Real.lse]
  rw [acc_coe]
  simp only []
  rw [log_coe_pos (hpos _ _ _), ← EReal.coe_add]

/-- A half's true-class logit. -/
theorem tgt_coe (Cr : Fin 512 → Fin 100000 → ℝ) (L : Fin 512 → Fin 100000) (i : Fin 2) (b : Fin 512) :
    tgt (fun b c => ((Cr b c : ℝ) : EReal)) L i b = ((Real.tgt marginR scaleR Cr L i b : ℝ) : EReal) := by
  simp only [tgt, Real.tgt]
  rw [acc_coe]

/-- Joining two real log-sum-exps: the argument of the logarithm is 1 plus an exponential, hence positive. -/
theorem lae_coe (a b : ℝ) : lae (a : EReal) (b : EReal) = ((Real.lae a b : ℝ) : EReal) := by
  have hpos : 0 < 1 + Real.exp (-(max (a - b) (-(a - b)))) :=
    add_pos_of_pos_of_nonneg one_pos (Real.exp_pos _).le
  simp only [lae, Real.lae, Ideal.log1p]
  rw [← EReal.coe_sub, ← EReal.coe_neg, ← coe_max', ← coe_max', ← EReal.coe_neg, Ideal.exp_coe, ← EReal.coe_one,
    ← EReal.coe_add, log_coe_pos hpos, ← EReal.coe_add]

end CoeBridge

/-- The direct arrangement on real cosines is the coercion of the real one. -/
theorem refRow_coe (Cr : Fin 512 → Fin 100000 → ℝ) (L : Fin 512 → Fin 100000) (b : Fin 512) :
    refRow (fun b c => ((Cr b c : ℝ) : EReal)) L b = ((Real.refRow marginR scaleR Cr L b : ℝ) : EReal) := by
  unfold refRow Real.refRow Real.rowMax
  rw [logit_coe_fun]
  exact shifted_coe (Real.logit marginR scaleR Cr L b) (L b)

/-- The streamed arrangement on real cosines is the coercion of the real one. -/
theorem kerRow_coe (Cr : Fin 512 → Fin 100000 → ℝ) (L : Fin 512 → Fin 100000)
    (hpos : ∀ (n : ℕ) (h : n < 50) (b : Fin 512), 0 < (Real.acc marginR scaleR Cr L n h b).2.1) (b : Fin 512) :
    kerRow (fun b c => ((Cr b c : ℝ) : EReal)) L b = ((Real.kerRow marginR scaleR Cr L b : ℝ) : EReal) := by
  simp only [kerRow, Real.kerRow]
  rw [lse_coe Cr L hpos, lse_coe Cr L hpos, tgt_coe, tgt_coe, lae_coe, ← EReal.coe_add, ← EReal.coe_sub]

end ArcFace

end
-- ==== Proof.MeanLoss.lean ====
/-
  On real cosines the streamed and the direct mean loss are equal: row by row both are the coercion of the same
  real number, and the two means are the same sum divided by the same divisor.
-/
import proofs.«405375_j44126493999503_2_alg».proof.Proof.Spec
import proofs.«405375_j44126493999503_2_alg».proof.Proof.RealMath
import proofs.«405375_j44126493999503_2_alg».proof.Proof.CoeBridge

noncomputable section

open scoped BigOperators

namespace ArcFace

/-- The two mean losses agree whenever every cosine is a real number. -/
theorem kerOut_eq_refOut (C : Fin 512 → Fin 100000 → EReal) (L : Fin 512 → Fin 100000)
    (hC : ∀ b c, ∃ r : ℝ, C b c = (r : EReal)) : kerOut C L = refOut C L := by
  choose Cr hCr using hC
  have hC' : C = fun b c => ((Cr b c : ℝ) : EReal) := funext fun b => funext fun c => hCr b c
  subst hC'
  have hs : (∑ b, kerRow (fun b c => ((Cr b c : ℝ) : EReal)) L b)
      = ∑ b, refRow (fun b c => ((Cr b c : ℝ) : EReal)) L b :=
    Finset.sum_congr rfl fun b _ => by
      rw [kerRow_coe Cr L (fun n h b => Real.acc_sum_pos marginR scaleR Cr L n h b) b, refRow_coe Cr L b,
        Real.kerRow_eq_refRow]
  unfold kerOut refOut
  rw [hs]

end ArcFace

end
-- ==== Proof.CosReal.lean ====
/-
  Finite rows have real cosines: a finite row's sum of squares is a non-negative real, its root a real, the floored
  length a positive real, each quotient a real, and the inner product of two rows of reals a real.
-/
import proofs.«405375_j44126493999503_2_alg».proof.Proof.Spec

noncomputable section

open scoped BigOperators

namespace ArcFace

open Idealize.ShloMosaic

namespace CosReal

/-- The floor under a length, evaluated: `9223372 · 2⁻⁶³`. -/
theorem eps_eq : eps = (((9223372 : ℝ) * (2 : ℝ) ^ (-63 : ℤ) : ℝ) : EReal) := by
  unfold eps
  simp [Ideal.ofBits, Ideal.ieee, -EReal.coe_mul]

/-- A finite sum of reals, summed in the extended reals, is the real sum. -/
theorem coe_real_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The root of a non-negative real is the real root. -/
theorem sqrt_coe_of_nonneg {r : ℝ} (hr : 0 ≤ r) : Ideal.sqrt (r : EReal) = ((Real.sqrt r : ℝ) : EReal) := by
  show (if r < 0 then (⊥ : EReal) else ((Real.sqrt r : ℝ) : EReal)) = _
  rw [if_neg (not_lt.mpr hr)]

/-- The larger of two reals, taken in the extended reals, is the real maximum. -/
theorem coe_real_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A real divided by a positive real is the real quotient. -/
theorem div_coe_of_pos (a : ℝ) {r : ℝ} (hr : 0 < r) :
    Ideal.div (a : EReal) (r : EReal) = ((a * r⁻¹ : ℝ) : EReal) := by
  unfold Ideal.div
  rw [if_neg (EReal.coe_ne_zero.mpr hr.ne'), ← EReal.coe_inv, ← EReal.coe_mul]

end CosReal

open CosReal

/-- The floor under a length is a positive real. -/
theorem eps_pos_real : ∃ r : ℝ, 0 < r ∧ eps = (r : EReal) :=
  ⟨(9223372 : ℝ) * (2 : ℝ) ^ (-63 : ℤ), by positivity, eps_eq⟩

/-- The floored length of a row of reals is a positive real. -/
theorem len_real {n : ℕ} (v : Fin n → EReal) (hv : ∀ d, ∃ r : ℝ, v d = (r : EReal)) :
    ∃ r : ℝ, 0 < r ∧ len v = (r : EReal) := by
  choose f hf using hv
  obtain ⟨e, he, hee⟩ := eps_pos_real
  refine ⟨max (Real.sqrt (∑ d, f d * f d)) e, lt_max_of_lt_right he, ?_⟩
  have hs : (∑ d, v d * v d) = ((∑ d, f d * f d : ℝ) : EReal) := by
    rw [← coe_real_sum]
    exact Finset.sum_congr rfl fun d _ => by rw [hf d, EReal.coe_mul]
  have h0 : (0 : ℝ) ≤ ∑ d, f d * f d := Finset.sum_nonneg fun d _ => mul_self_nonneg (f d)
  unfold len
  rw [hs, sqrt_coe_of_nonneg h0, hee, coe_real_max]

/-- A row of reals divided by its floored length is a row of reals. -/
theorem unit_real {n : ℕ} (v : Fin n → EReal) (hv : ∀ d, ∃ r : ℝ, v d = (r : EReal)) (d : Fin n) :
    ∃ r : ℝ, unit v d = (r : EReal) := by
  obtain ⟨l, hl, hle⟩ := len_real v hv
  obtain ⟨a, ha⟩ := hv d
  exact ⟨a * l⁻¹, by unfold unit; rw [ha, hle, div_coe_of_pos a hl]⟩

/-- Rows of reals have a real cosine. -/
theorem cosine_real (X : Fin 512 → Fin 512 → EReal) (W : Fin 100000 → Fin 512 → EReal)
    (hX : ∀ b d, ∃ r : ℝ, X b d = (r : EReal)) (hW : ∀ c d, ∃ r : ℝ, W c d = (r : EReal))
    (b : Fin 512) (c : Fin 100000) : ∃ r : ℝ, cosine X W b c = (r : EReal) := by
  choose p hp using unit_real (X b) (hX b)
  choose q hq using unit_real (W c) (hW c)
  refine ⟨∑ d, p d * q d, ?_⟩
  unfold cosine
  rw [← coe_real_sum]
  exact Finset.sum_congr rfl fun d _ => by rw [hp d, hq d, EReal.coe_mul]

end ArcFace

end
-- ==== Proof.PreDecode.lean ====
/-
  What the precondition says of the three inputs: every entry of the batch matrix and of the class matrix is a real
  number (its absolute value is below +∞), and every label, read as an unsigned word, is below the number of classes
  (it is ≥ 0 and < 100000 as a signed word).
-/
import proofs.«405375_j44126493999503_2_alg».proof.Pre_finite_inputs
import Idealize.ShloMosaic.Lib.ReduceAll
import Idealize.ShloMosaic.Lib.StableHlo.Predicate
import Idealize.ShloMosaic.Lib.ValueIdx

noncomputable section

namespace ArcFace

open Idealize.ShloMosaic

variable [Cert.Pre_finite_inputs.Facts]

/-- The rank-0 shape has one index. -/
private instance : Subsingleton Cert.Pre_finite_inputs.S_.Idx := ⟨fun a b => funext fun d => d.elim0⟩

/-- The f32 pattern 0x7F800000 denotes +∞. -/
private theorem inf_bits : Ideal.ofBits .f32 0x7F800000#32 = (⊤ : EReal) := by simp [Ideal.ofBits, Ideal.ieee]

/-- A one-bit word made from a Boolean is 1 exactly when the Boolean is true. -/
private theorem ofBool_eq_one (b : Bool) : BitVec.ofBool b = 1#1 ↔ b = true := by cases b <;> decide

/-- An extended real with max v (−v) < +∞ is neither +∞ nor −∞: it is a real number. -/
private theorem real_of_abs_lt (v : EReal)
    (h : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have h' : Ideal.cmp .olt (max v (-v)) (Ideal.ofBits .f32 0x7F800000#32) = 1#1 := h
  rw [inf_bits] at h'
  unfold Ideal.cmp at h'
  rw [ofBool_eq_one] at h'
  simp only [decide_eq_true_eq] at h'
  induction v using EReal.rec with
  | bot => simp at h'
  | coe r => exact ⟨r, rfl⟩
  | top => simp at h'

/-- A 32-bit word in [0, 100000) as a signed number is below 100000 as an unsigned one: 0 ≤ w signed says the top bit is
    clear, so the signed and the unsigned readings agree. -/
private theorem toNat_lt (w : BitVec 32) (h0 : IntOp.cmpi .sge w (0#32) = 1#1)
    (h1 : IntOp.cmpi .slt w (100000#32) = 1#1) : w.toNat < 100000 := by
  rw [IntOp.cmpi_sge] at h0
  rw [IntOp.cmpi_slt] at h1
  have h32 := w.isLt
  have e : w.toInt = if 2 * w.toNat < 2 ^ 32 then (w.toNat : Int) else (w.toNat : Int) - 2 ^ 32 :=
    BitVec.toInt_eq_toNat_cond w
  have c0 : (0#32).toInt = 0 := by decide
  have c1 : (100000#32).toInt = 100000 := by decide
  rw [c0] at h0
  rw [c1] at h1
  split at e <;> omega

/-- The precondition, all ones, gives: finite batch entries, finite class entries, labels in range. -/
theorem pre_decode (x : FVec Ideal Cert.Pre_finite_inputs.S512x512 .f32) (y : IVec Cert.Pre_finite_inputs.S512 32)
    (w : FVec Ideal Cert.Pre_finite_inputs.S100000x512 .f32)
    (h : Cert.Pre_finite_inputs.fn (F := Ideal) x y w = fun _ => 1#1) :
    (∀ i, ∃ r : ℝ, x i = (r : EReal)) ∧ (∀ i, ∃ r : ℝ, w i = (r : EReal)) ∧ (∀ i, (y i).toNat < 100000) := by
  have e := congrFun h ValueIdx.ix0
  dsimp only [Cert.Pre_finite_inputs.fn, Cert.Pre_finite_inputs.fn_part1] at e
  simp only [andi] at e
  -- the four conjuncts: the two "all finite" reductions, then the two label-range reductions
  obtain ⟨⟨⟨hx, hw⟩, hy0⟩, hy1⟩ :
      ((_ = 1#1 ∧ _ = 1#1) ∧ _ = 1#1) ∧ _ = 1#1 := by
    simpa only [IntOp.andi_eq_one] using e
  refine ⟨fun i => ?_, fun i => ?_, fun i => ?_⟩
  · exact real_of_abs_lt (x i) (Host.reduce_andi_all _ _ _ _ _ hx i)
  · exact real_of_abs_lt (w i) (Host.reduce_andi_all _ _ _ _ _ hw i)
  · exact toNat_lt (y i) (Host.reduce_andi_all _ _ _ _ _ hy0 i) (Host.reduce_andi_all _ _ _ _ _ hy1 i)

end ArcFace

end
-- ==== Proof.Claims.lean ====
/-
  The five claims. The three frames: the two kernel programs by their launch-side frame certificates, the reference by
  its run with the result dropped. The idealization rewrote nothing. The equivalence: under the precondition every
  entry of the two matrices is a real number and every label is the word of a class below 100000; the idealized
  kernel ends at the streamed mean loss and the reference at the direct mean loss of the same cosines and labels; the
  cosines of finite rows are real; and on real cosines the two mean losses are equal.
-/
import proofs.«405375_j44126493999503_2_alg».proof.Defs
import proofs.«405375_j44126493999503_2_alg».proof.Proof.Gen.Kernel
import proofs.«405375_j44126493999503_2_alg».proof.Proof.Gen.Kernel.Frame
import proofs.«405375_j44126493999503_2_alg».proof.Proof.Gen.KernelIdeal
import proofs.«405375_j44126493999503_2_alg».proof.Proof.Gen.KernelIdeal.Frame
import proofs.«405375_j44126493999503_2_alg».proof.Proof.Gen.ReferenceIdeal
import proofs.«405375_j44126493999503_2_alg».proof.Proof.Gen.Pre_finite_inputs
import proofs.«405375_j44126493999503_2_alg».proof.Proof.KerRun
import proofs.«405375_j44126493999503_2_alg».proof.Proof.RefRun
import proofs.«405375_j44126493999503_2_alg».proof.Proof.RefRead
import proofs.«405375_j44126493999503_2_alg».proof.Proof.MeanLoss
import proofs.«405375_j44126493999503_2_alg».proof.Proof.CosReal
import proofs.«405375_j44126493999503_2_alg».proof.Proof.PreDecode

noncomputable section

namespace Cert.Proof.Claims

open Idealize.ShloMosaic Idealize.ShloMosaic.TcCoe Idealize.SL.Sem Idealize.ShloMosaic.ValueIdx
open Cert.KernelIdeal.Induct

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote no operation. -/
theorem preserves : Cert.preserves_Kernel_KernelIdeal := trivial

/-- The idealized kernel and the idealized reference end with equal results. -/
theorem algebraic : Cert.algebraic_KernelIdeal_ReferenceIdeal := by
  intro m ρ m' ρ' hpre hagree
  have hdec := fun c : Dev Cert.KernelIdeal.nD => ArcFace.pre_decode _ _ _ (hpre c)
  let L : Dev Cert.KernelIdeal.nD → Fin 512 → Fin 100000 := fun c b => ⟨(Y m c b).toNat, (hdec c).2.2 (ix1 b)⟩
  have hL : ∀ c b, Y m c b = BitVec.ofNat 32 (L c b).val := fun c b =>
    BitVec.eq_of_toNat_eq (by rw [BitVec.toNat_ofNat]; exact (Nat.mod_eq_of_lt (Y m c b).isLt).symm)
  have hCos : ∀ c b k, ∃ r : ℝ, Cos m c b k = (r : EReal) := fun c =>
    ArcFace.cosine_real (X m c) (W m c) (fun b d => (hdec c).1 (ix2 b d)) (fun k d => (hdec c).2.1 (ix2 k d))
  refine ⟨fun c => (fun _ => ArcFace.kerOut (Cos m c) (L c)), Cert.KernelIdeal.Run.run m ρ L hL, ?_⟩
  refine (θ_run Cert.ReferenceIdeal.defs _ _).mono (fun r h c => ⟨?_, (h c).2⟩)
    (Cert.ReferenceIdeal.RunH.run (F := Ideal) m' ρ')
  rw [(h c).1, (hagree c).1, (hagree c).2.1, (hagree c).2.2]
  funext i
  rw [Cert.ReferenceIdeal.RefValue.ref_value _ _ _ (L c) (hL c) i]
  exact (ArcFace.kerOut_eq_refOut (Cos m c) (L c) (hCos c)).symm

end Cert.Proof.Claims

end
-- ==== Proof.lean ====
/- The certificate of the margin-softmax cross-entropy kernel against its direct reference.

   The kernel streams the 100000 classes through two halves of 25 tiles, carrying per batch row a running maximum of
   the plain cosine logits, a running sum of exponentials (the true class's term corrected to its margin-widened
   logit) and the running true-class logit; each half ends at its log-sum-exp, the halves are joined by
   `log (eᵃ + eᵇ)`, and the loss is the mean over the batch of the joined log-sum-exp minus the true-class logit.
   The reference normalises both matrices, forms every cosine logit, widens the true class's by the margin, takes
   the shifted log-softmax and reads it at the true class. Over the extended reals the two agree whenever the
   matrices are finite and the labels are class numbers: the cosines are then real numbers, and on real cosines the
   streamed and the direct arrangement are the same real number (Proof/RealMath.lean), read off the two programs in
   Proof/KerRun.lean and Proof/RefRun.lean, Proof/RefRead.lean. The claims are assembled in Proof/Claims.lean. -/
import proofs.«405375_j44126493999503_2_alg».proof.Defs
import proofs.«405375_j44126493999503_2_alg».proof.Proof.Gen.Kernel
import proofs.«405375_j44126493999503_2_alg».proof.Proof.Gen.Kernel.Skeleton
import proofs.«405375_j44126493999503_2_alg».proof.Proof.Gen.Kernel.Launch
import proofs.«405375_j44126493999503_2_alg».proof.Proof.Gen.Kernel.Points
import proofs.«405375_j44126493999503_2_alg».proof.Proof.Gen.Kernel.Frame
import proofs.«405375_j44126493999503_2_alg».proof.Proof.Gen.KernelIdeal
import proofs.«405375_j44126493999503_2_alg».proof.Proof.Gen.KernelIdeal.Skeleton
import proofs.«405375_j44126493999503_2_alg».proof.Proof.Gen.KernelIdeal.Launch
import proofs.«405375_j44126493999503_2_alg».proof.Proof.Gen.KernelIdeal.Points
import proofs.«405375_j44126493999503_2_alg».proof.Proof.Gen.KernelIdeal.Frame
import proofs.«405375_j44126493999503_2_alg».proof.Proof.Gen.ReferenceIdeal
import proofs.«405375_j44126493999503_2_alg».proof.Proof.Gen.Pre_finite_inputs
import proofs.«405375_j44126493999503_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
